-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S1x8192x256 : Shape := ⟨3, ![1, 8192, 256]⟩
abbrev S1x8192 : Shape := ⟨2, ![1, 8192]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x8192 : S_.BroadcastsInDim S1x8192 (![] : Fin 0 → Fin S1x8192.rank)
  reducesTo_S1x8192_S_d0_1 : S1x8192.ReducesTo [0, 1] S_

variable [Facts]

def fn {F : FTy → Type} [FloatOps F] (main_arg0 : FVec F S4096x256 .f32) (main_arg1 : FVec F S1x8192x256 .f32) (main_arg2 : FVec F S1x8192 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x8192 .f32 := Host.absf main_arg2
  let main_cst_2 : FVec F S_ .f32 := constant S_ .f32 0x7F800000#32
  let main_v10 : FVec F S1x8192 .f32 := broadcastInDim S1x8192 ![] bcast_S_S1x8192 main_cst_2
  let main_v11 : IVec S1x8192 1 := cmpf .olt main_v9 main_v10
  let main_c_3 : IVec S_ 1 := constantI S_ 1 1#1
  let main_v12 : IVec S_ 1 := (fun x v => Host.reduce IntOp.andi x v reducesTo_S1x8192_S_d0_1 h_S_) main_v11 main_c_3
  let main_v13 : IVec S_ 1 := andi main_v8 main_v12
  main_v13
-- ==== Kernel.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S4096x1 : Shape := ⟨2, ![4096, 1]⟩
abbrev S4096 : Shape := ⟨1, ![4096]⟩
abbrev S256x256 : Shape := ⟨2, ![256, 256]⟩
abbrev S256x1 : Shape := ⟨2, ![256, 1]⟩
abbrev S256x8192 : Shape := ⟨2, ![256, 8192]⟩
abbrev S1024x256 : Shape := ⟨2, ![1024, 256]⟩
abbrev S256x1024 : Shape := ⟨2, ![256, 1024]⟩
abbrev S1x1024 : Shape := ⟨2, ![1, 1024]⟩
abbrev S256 : Shape := ⟨1, ![256]⟩

abbrev nBuf : Space → Nat
  | .hbm => 8
  | .vmem => 10
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S8192x256, .bf16⟩
  | .hbm, ⟨5, _⟩ => ⟨S4096x256, .f32⟩
  | .hbm, ⟨6, _⟩ => ⟨S4096x1, .f32⟩
  | .hbm, ⟨7, _⟩ => ⟨S4096, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S8192x256, .bf16⟩
  | .local _ .vmem, ⟨4, _⟩ => ⟨S1x8192, .f32⟩
  | .local _ .vmem, ⟨5, _⟩ => ⟨S256x256, .f32⟩
  | .local _ .vmem, ⟨6, _⟩ => ⟨S256x256, .f32⟩
  | .local _ .vmem, ⟨7, _⟩ => ⟨S256x1, .f32⟩
  | .local _ .vmem, ⟨8, _⟩ => ⟨S256x1, .f32⟩
  | .local _ .vmem, ⟨9, _⟩ => ⟨S256x8192, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0_0 : Ref sig .tc := ⟨.hbm, 5, rfl⟩
abbrev main_call0_v2_1 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x8192x256_S8192x256 : S1x8192x256.ShapeCasts S8192x256
  bitsLt_bf16_f32 : FTy.bits .bf16 < FTy.bits .f32
  shapeCasts_S4096x1_S4096 : S4096x1.ShapeCasts S4096
  inb_S256x256_S256x256_0_0 : ∀ a, (![0, 0] : Fin 2 → Nat) a + S256x256.size a ≤ S256x256.size a
  h_S256x256 : 0 < S256x256.numel
  inb_S8192x256_S1024x256_0_0 : ∀ a, (![0, 0] : Fin 2 → Nat) a + S1024x256.size a ≤ S8192x256.size a
  h_S1024x256 : 0 < S1024x256.numel
  shapeCasts_S1024x256_S1024x256 : S1024x256.ShapeCasts S1024x256
  inb_S1x8192_S1x1024_0_0 : ∀ a, (![0, 0] : Fin 2 → Nat) a + S1x1024.size a ≤ S1x8192.size a
  h_S1x1024 : 0 < S1x1024.numel
  broadcasts_S1x1024_S256x1024 : S1x1024.Broadcasts S256x1024
  inb_S256x8192_S256x1024_0_0 : ∀ a, (![0, 0] : Fin 2 → Nat) a + S256x1024.size a ≤ S256x8192.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  inb_S8192x256_S1024x256_1024_0 : ∀ a, (![1024, 0] : Fin 2 → Nat) a + S1024x256.size a ≤ S8192x256.size a
  inb_S1x8192_S1x1024_0_1024 : ∀ a, (![0, 1024] : Fin 2 → Nat) a + S1x1024.size a ≤ S1x8192.size a
  inb_S256x8192_S256x1024_0_1024 : ∀ a, (![0, 1024] : Fin 2 → Nat) a + S256x1024.size a ≤ S256x8192.size a
  inb_S8192x256_S1024x256_2048_0 : ∀ a, (![2048, 0] : Fin 2 → Nat) a + S1024x256.size a ≤ S8192x256.size a
  inb_S1x8192_S1x1024_0_2048 : ∀ a, (![0, 2048] : Fin 2 → Nat) a + S1x1024.size a ≤ S1x8192.size a
  inb_S256x8192_S256x1024_0_2048 : ∀ a, (![0, 2048] : Fin 2 → Nat) a + S256x1024.size a ≤ S256x8192.size a
  inb_S8192x256_S1024x256_3072_0 : ∀ a, (![3072, 0] : Fin 2 → Nat) a + S1024x256.size a ≤ S8192x256.size a
  inb_S1x8192_S1x1024_0_3072 : ∀ a, (![0, 3072] : Fin 2 → Nat) a + S1x1024.size a ≤ S1x8192.size a
  inb_S256x8192_S256x1024_0_3072 : ∀ a, (![0, 3072] : Fin 2 → Nat) a + S256x1024.size a ≤ S256x8192.size a
  inb_S8192x256_S1024x256_4096_0 : ∀ a, (![4096, 0] : Fin 2 → Nat) a + S1024x256.size a ≤ S8192x256.size a
  inb_S1x8192_S1x1024_0_4096 : ∀ a, (![0, 4096] : Fin 2 → Nat) a + S1x1024.size a ≤ S1x8192.size a
  inb_S256x8192_S256x1024_0_4096 : ∀ a, (![0, 4096] : Fin 2 → Nat) a + S256x1024.size a ≤ S256x8192.size a
  inb_S8192x256_S1024x256_5120_0 : ∀ a, (![5120, 0] : Fin 2 → Nat) a + S1024x256.size a ≤ S8192x256.size a
  inb_S1x8192_S1x1024_0_5120 : ∀ a, (![0, 5120] : Fin 2 → Nat) a + S1x1024.size a ≤ S1x8192.size a
  inb_S256x8192_S256x1024_0_5120 : ∀ a, (![0, 5120] : Fin 2 → Nat) a + S256x1024.size a ≤ S256x8192.size a
  inb_S8192x256_S1024x256_6144_0 : ∀ a, (![6144, 0] : Fin 2 → Nat) a + S1024x256.size a ≤ S8192x256.size a
  inb_S1x8192_S1x1024_0_6144 : ∀ a, (![0, 6144] : Fin 2 → Nat) a + S1x1024.size a ≤ S1x8192.size a
  inb_S256x8192_S256x1024_0_6144 : ∀ a, (![0, 6144] : Fin 2 → Nat) a + S256x1024.size a ≤ S256x8192.size a
  inb_S8192x256_S1024x256_7168_0 : ∀ a, (![7168, 0] : Fin 2 → Nat) a + S1024x256.size a ≤ S8192x256.size a
  inb_S1x8192_S1x1024_0_7168 : ∀ a, (![0, 7168] : Fin 2 → Nat) a + S1x1024.size a ≤ S1x8192.size a
  inb_S256x8192_S256x1024_0_7168 : ∀ a, (![0, 7168] : Fin 2 → Nat) a + S256x1024.size a ≤ S256x8192.size a
  broadcasts_S256x1_S256x1024 : S256x1.Broadcasts S256x1024
  inb_S256x1_S256x1_0_0 : ∀ a, (![0, 0] : Fin 2 → Nat) a + S256x1.size a ≤ S256x1.size a
  h_S256x1 : 0 < S256x1.numel
  broadcasts_S256x1_S256x256 : S256x1.Broadcasts S256x256
  dot_S256x256_S1024x256_S256x1024_1_1_0_0_n_n_wf : DotDims.WF S256x256 S1024x256 S256x1024 [1] [1] [0] [0] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S8192x256.size a
  hwx0_2 : ∀ i : grid0.Coords, EltTy.bits .bf16 = 32 ∨ (Rect.block (s := S8192x256) S8192x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S4096x256.size a
  hwx0_4 : ∀ i : grid0.Coords, EltTy.bits .f32 = 32 ∨ (Rect.block (s := S4096x256) S256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8192x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x256 : Shape := ⟨2, ![4096, 256]⟩
abbrev S1x8192x256 : Shape := ⟨3, ![1, 8192, 256]⟩
abbrev S1x8192 : Shape := ⟨2, ![1, 8192]⟩
abbrev S8192x256 : Shape := ⟨2, ![8192, 256]⟩
abbrev S256x8192 : Shape := ⟨2, ![256, 8192]⟩
abbrev S4096x8192 : Shape := ⟨2, ![4096, 8192]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S1x8192x256, .f32⟩
  | .hbm, ⟨2, _⟩ => ⟨S1x8192, .f32⟩
  | .hbm, ⟨3, _⟩ => ⟨S8192x256, .f32⟩
  | .hbm, ⟨4, _⟩ => ⟨S256x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x8192, .f32⟩
  | .hbm, ⟨35, _⟩ => ⟨S4096x8192, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x8192, .f32⟩
  | .hbm, ⟨43, _⟩ => ⟨S4096x8192, .f32⟩
  | .hbm, ⟨44, _⟩ => ⟨S4096x8192, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x8192, .f32⟩
  | .hbm, ⟨49, _⟩ => ⟨S4096x8192, .f32⟩
  | .hbm, ⟨50, _⟩ => ⟨S4096x8192, .f32⟩
  | .hbm, ⟨51, _⟩ => ⟨S_, .f32⟩
  | .hbm, ⟨52, _⟩ => ⟨S4096, .f32⟩
  | .hbm, ⟨53, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  shapeCasts_S1x8192x256_S8192x256 : S1x8192x256.ShapeCasts S8192x256
  transposes_S8192x256_S256x8192_1_0 : S8192x256.Transposes [1, 0] S256x8192
  bcast_S1x8192_S4096x8192_0_1 : S1x8192.BroadcastsInDim S4096x8192 (![0, 1] : Fin 2 → Fin S4096x8192.rank)
  reducesTo_S4096x8192_S4096_d1 : S4096x8192.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Spec.lean ====
/-
  The mathematics of the finitely-convex soft-max model, one row at a time, on the extended reals.

  A row of scores `s k = ⟨x, y_k⟩ + b_k` (`k` over the 8192 candidates) has a maximum `M` and a minimum `Mn`;
  the effective temperature is `eff = min 5000 (max 50 (50 / max (M - Mn) 0.001))`; the unnormalised weight
  of candidate `k` is `exp (s k · eff - M · eff)`; the results are the weighted mean of the scores and the
  weighted mean of the candidates, the weights normalised by their sum `D`.

  Three spellings of those two results are stated here:
  * `valK`, `choiceK`: the sums taken over the whole row and the quotient taken last, as a product with `1 / D`;
  * `valT`, `choiceT`: the same with the row cut into eight tiles of 1024 candidates — maximum, minimum and every
    sum taken tile by tile and combined left to right from the neutral start;
  * `valR`, `choiceR`: the scores scaled first, the row maximum of the SCALED scores subtracted, the maximum of
    the differences (zero) subtracted again, each weight divided by `D` before the sums.
  That the three agree on real rows is proved elsewhere; this module only states them.
-/
import Idealize.ShloMosaic.PureOps.Ideal
import Idealize.ShloMosaic.Lib.ValueIdx

noncomputable section

namespace Cert.Fcm

open Idealize.ShloMosaic Idealize.ShloMosaic.ValueIdx

/-! ## The literals, as the words both programs print -/

abbrev negInf : EReal := Ideal.ofBits .f32 0xFF800000#32
abbrev posInf : EReal := Ideal.ofBits .f32 0x7F800000#32
abbrev spanFloor : EReal := Ideal.ofBits .f32 0x3A83126F#32
abbrev temp : EReal := Ideal.ofBits .f32 0x42480000#32
abbrev tempCap : EReal := Ideal.ofBits .f32 0x459C4000#32
abbrev one32 : EReal := Ideal.ofBits .f32 0x3F800000#32
abbrev zero32 : EReal := Ideal.ofBits .f32 0x00000000#32

/-! ## A row's maximum, minimum and effective temperature -/

section Row

variable {n : ℕ}

/-- The maximum of a row, folded from `-∞`. -/
def rowMax (s : Fin n → EReal) : EReal := (Finset.univ : Finset (Fin n)).fold max negInf s

/-- The minimum of a row, folded from `+∞`. -/
def rowMin (s : Fin n → EReal) : EReal := (Finset.univ : Finset (Fin n)).fold min posInf s

/-- The effective temperature from a row's maximum and minimum: `50 / span` clipped to `[50, 5000]`, the span
    floored at `0.001`. -/
def effOf (M Mn : EReal) : EReal := min tempCap (max temp (Ideal.div temp (max (M - Mn) spanFloor)))

/-- The effective temperature of a row. -/
def eff (s : Fin n → EReal) : EReal := effOf (rowMax s) (rowMin s)

/-! ## Whole-row form, the quotient last -/

/-- The unnormalised weight of candidate `k`: `exp (s k · eff - M · eff)`. -/
def wK (s : Fin n → EReal) (k : Fin n) : EReal := Ideal.exp (s k * eff s - rowMax s * eff s)

/-- The weighted mean of the scores: `(∑ w · s) · (1 / ∑ w)`. -/
def valK (s : Fin n → EReal) : EReal := (∑ k, wK s k * s k) * Ideal.div one32 (∑ k, wK s k)

/-- The weighted mean of one coordinate `y` of the candidates: `(∑ w · y) · (1 / ∑ w)`. -/
def choiceK (s y : Fin n → EReal) : EReal := (∑ k, wK s k * y k) * Ideal.div one32 (∑ k, wK s k)

/-! ## The reference's form: scale, shift twice, normalise each weight -/

/-- The scaled scores. -/
def zR (s : Fin n → EReal) (k : Fin n) : EReal := s k * eff s

/-- The scaled scores less their row maximum. -/
def z1R (s : Fin n → EReal) (k : Fin n) : EReal := zR s k - rowMax (zR s)

/-- … less the row maximum of THOSE (joined with `-∞`), the soft-max's own shift. -/
def z2R (s : Fin n → EReal) (k : Fin n) : EReal := z1R s k - max negInf (rowMax (z1R s))

/-- The unnormalised weight, the reference's way. -/
def uR (s : Fin n → EReal) (k : Fin n) : EReal := Ideal.exp (z2R s k)

/-- The normalised weight: divided by the row's sum (taken from zero). -/
def wR (s : Fin n → EReal) (k : Fin n) : EReal := Ideal.div (uR s k) (zero32 + ∑ k', uR s k')

/-- The weighted mean of the scores, the sum taken from zero. -/
def valR (s : Fin n → EReal) : EReal := zero32 + ∑ k, wR s k * s k

/-- The weighted mean of one coordinate of the candidates. -/
def choiceR (s y : Fin n → EReal) : EReal := ∑ k, wR s k * y k

end Row

/-! ## The tiled form: eight tiles of 1024 candidates -/

/-- Candidate `q` of tile `i`. -/
def tk (i : Fin 8) (q : Fin 1024) : Fin 8192 := ⟨1024 * i.val + q.val, by omega⟩

/-- The maximum over one tile, from `-∞`. -/
def tileMax (s : Fin 8192 → EReal) (i : Fin 8) : EReal :=
  (Finset.univ : Finset (Fin 1024)).fold max negInf (fun q => s (tk i q))

/-- The minimum over one tile, from `+∞`. -/
def tileMin (s : Fin 8192 → EReal) (i : Fin 8) : EReal :=
  (Finset.univ : Finset (Fin 1024)).fold min posInf (fun q => s (tk i q))

/-- The row maximum as the tiles' maxima joined left to right. -/
def maxT (s : Fin 8192 → EReal) : EReal :=
  max (max (max (max (max (max (max (tileMax s 0) (tileMax s 1)) (tileMax s 2)) (tileMax s 3)) (tileMax s 4))
    (tileMax s 5)) (tileMax s 6)) (tileMax s 7)

/-- The row minimum as the tiles' minima joined left to right. -/
def minT (s : Fin 8192 → EReal) : EReal :=
  min (min (min (min (min (min (min (tileMin s 0) (tileMin s 1)) (tileMin s 2)) (tileMin s 3)) (tileMin s 4))
    (tileMin s 5)) (tileMin s 6)) (tileMin s 7)

/-- The effective temperature from the tiled maximum and minimum. -/
def effT (s : Fin 8192 → EReal) : EReal := effOf (maxT s) (minT s)

/-- The unnormalised weight over the tiled maximum. -/
def wT (s : Fin 8192 → EReal) (k : Fin 8192) : EReal := Ideal.exp (s k * effT s - maxT s * effT s)

/-- The sum over one tile. -/
def tileSum (f : Fin 8192 → EReal) (i : Fin 8) : EReal := ∑ q : Fin 1024, f (tk i q)

/-- A row's sum as the tiles' sums added left to right from zero. -/
def sumT (f : Fin 8192 → EReal) : EReal :=
  zero32 + tileSum f 0 + tileSum f 1 + tileSum f 2 + tileSum f 3 + tileSum f 4 + tileSum f 5 + tileSum f 6 + tileSum f 7

/-- The weighted mean of the scores, tile by tile. -/
def valT (s : Fin 8192 → EReal) : EReal := sumT (fun k => wT s k * s k) * Ideal.div one32 (sumT (wT s))

/-- The weighted mean of one coordinate of the candidates, tile by tile. -/
def choiceT (s y : Fin 8192 → EReal) : EReal := sumT (fun k => wT s k * y k) * Ideal.div one32 (sumT (wT s))

/-! ## The scores from the argument arrays -/

/-- Row `r` of the scores: `⟨X r, Y k⟩ + b k`, over the argument arrays' own shapes. -/
def scoreRow (X : (⟨2, ![4096, 256]⟩ : Shape).Idx → EReal) (Y : (⟨3, ![1, 8192, 256]⟩ : Shape).Idx → EReal)
    (b : (⟨2, ![1, 8192]⟩ : Shape).Idx → EReal) (r : Fin 4096) (k : Fin 8192) : EReal :=
  (∑ j : Fin 256, X (ix2 r j) * Y (ix3 (0 : Fin 1) k j)) + b (ix2 (0 : Fin 1) k)

/-- Coordinate `j` of every candidate. -/
def codeCol (Y : (⟨3, ![1, 8192, 256]⟩ : Shape).Idx → EReal) (j : Fin 256) (k : Fin 8192) : EReal :=
  Y (ix3 (0 : Fin 1) k j)

end Cert.Fcm

end
-- ==== Proof.Algebra.lean ====
/-
  On a row of REAL scores the whole-row form with the quotient taken last and the reference's form
  (scale, shift by the scaled row's maximum, shift again by the maximum of the differences, normalise each
  weight) are the same two numbers.

  The road: every intermediate quantity of either form is the coercion of a real number (the maximum and the
  minimum of a nonempty real row are real, the effective temperature is real, the sum of finitely many
  exponentials is a positive real), so both results are coercions of real expressions; and in the reals the
  weighted mean with weights `exp (t k - a)` does not depend on the shift `a`.
-/
import proofs.«168320_g88089779241353_cont_9to1c4b_404_5_alg».proof.Proof.Spec
import Mathlib.Data.Finset.Fold
import Mathlib.Algebra.BigOperators.Field
import Mathlib.Algebra.Order.BigOperators.Group.Finset
import Mathlib.Analysis.SpecialFunctions.Exp
import Mathlib.Tactic.FieldSimp
import Mathlib.Tactic.Ring
import Mathlib.Tactic.NormNum
import Mathlib.Tactic.Positivity

noncomputable section

namespace Cert.Fcm

open Idealize.ShloMosaic

namespace Alg

/-! ## The literals' values -/

theorem negInf_eq : negInf = ⊥ := by simp [Ideal.ofBits, Ideal.ieee]

theorem posInf_eq : posInf = ⊤ := by simp [Ideal.ofBits, Ideal.ieee]

theorem zero32_eq : zero32 = 0 := by simp [Ideal.ofBits, Ideal.ieee]

theorem one32_eq : one32 = 1 := by
  simp [Ideal.ofBits, Ideal.ieee, -EReal.coe_mul]
  norm_num

theorem temp_eq : temp = ((50 : ℝ) : EReal) := by
  simp [Ideal.ofBits, Ideal.ieee, -EReal.coe_mul]
  norm_num

theorem tempCap_eq : tempCap = ((5000 : ℝ) : EReal) := by
  simp [Ideal.ofBits, Ideal.ieee, -EReal.coe_mul]
  norm_num

/-- The span's floor is a positive real (its value is not needed). -/
theorem spanFloor_eq : ∃ c : ℝ, 0 < c ∧ spanFloor = (c : EReal) := by
  refine ⟨8589935 * ((2 : ℝ) ^ 33)⁻¹, by positivity, ?_⟩
  simp [Ideal.ofBits, Ideal.ieee, -EReal.coe_mul]

/-! ## Coercions through maxima, minima and finite sums -/

theorem coe_max (x y : ℝ) : ((max x y : ℝ) : EReal) = max (x : EReal) (y : EReal) :=
  EReal.coe_strictMono.monotone.map_max

theorem coe_min (x y : ℝ) : ((min x y : ℝ) : EReal) = min (x : EReal) (y : EReal) :=
  EReal.coe_strictMono.monotone.map_min

/-- A finite sum of coerced reals is the coercion of the real sum. -/
theorem coe_sum {ι : Type} (S : Finset ι) (f : ι → ℝ) :
    (∑ k ∈ S, ((f k : ℝ) : EReal)) = ((∑ k ∈ S, f k : ℝ) : EReal) := by
  induction S using Finset.cons_induction with
  | empty => simp
  | cons a S ha ih => rw [Finset.sum_cons, Finset.sum_cons, ih, EReal.coe_add]

/-- The maximum of a nonempty family of reals, folded from `-∞`, is a real. -/
theorem fold_max_real {ι : Type} {S : Finset ι} (hS : S.Nonempty) (r : ι → ℝ) :
    ∃ M : ℝ, S.fold max (⊥ : EReal) (fun k => ((r k : ℝ) : EReal)) = (M : EReal) := by
  induction hS using Finset.Nonempty.cons_induction with
  | singleton a => exact ⟨r a, by rw [Finset.fold_singleton]; exact max_eq_left bot_le⟩
  | cons a s ha hs ih =>
    obtain ⟨M, hM⟩ := ih
    exact ⟨max (r a) M, by rw [Finset.fold_cons, hM, coe_max]⟩

/-- The minimum of a nonempty family of reals, folded from `+∞`, is a real. -/
theorem fold_min_real {ι : Type} {S : Finset ι} (hS : S.Nonempty) (r : ι → ℝ) :
    ∃ M : ℝ, S.fold min (⊤ : EReal) (fun k => ((r k : ℝ) : EReal)) = (M : EReal) := by
  induction hS using Finset.Nonempty.cons_induction with
  | singleton a => exact ⟨r a, by rw [Finset.fold_singleton]; exact min_eq_left le_top⟩
  | cons a s ha hs ih =>
    obtain ⟨M, hM⟩ := ih
    exact ⟨min (r a) M, by rw [Finset.fold_cons, hM, coe_min]⟩

theorem univ_nonempty {n : ℕ} (hn : 0 < n) : (Finset.univ : Finset (Fin n)).Nonempty :=
  ⟨⟨0, hn⟩, Finset.mem_univ _⟩

/-! ## A real row's maximum, minimum and effective temperature are real -/

theorem rowMax_real {n : ℕ} (hn : 0 < n) (r : Fin n → ℝ) :
    ∃ M : ℝ, rowMax (fun k => ((r k : ℝ) : EReal)) = (M : EReal) := by
  unfold rowMax
  rw [negInf_eq]
  exact fold_max_real (univ_nonempty hn) r

theorem rowMin_real {n : ℕ} (hn : 0 < n) (r : Fin n → ℝ) :
    ∃ M : ℝ, rowMin (fun k => ((r k : ℝ) : EReal)) = (M : EReal) := by
  unfold rowMin
  rw [posInf_eq]
  exact fold_min_real (univ_nonempty hn) r

theorem effOf_real (M Mn : ℝ) : ∃ e : ℝ, effOf (M : EReal) (Mn : EReal) = (e : EReal) := by
  obtain ⟨c, hc, hsf⟩ := spanFloor_eq
  have hpos : max (M - Mn) c ≠ 0 := (lt_of_lt_of_le hc (le_max_right _ _)).ne'
  refine ⟨min 5000 (max 50 (50 * (1 / max (M - Mn) c))), ?_⟩
  unfold effOf
  rw [hsf, temp_eq, tempCap_eq, ← EReal.coe_sub, ← coe_max, Ideal.div_coe hpos, ← EReal.coe_mul, ← coe_max,
    ← coe_min]

theorem eff_real {n : ℕ} (hn : 0 < n) (s : Fin n → ℝ) :
    ∃ e : ℝ, eff (fun k => ((s k : ℝ) : EReal)) = (e : EReal) := by
  obtain ⟨M, hM⟩ := rowMax_real hn s
  obtain ⟨Mn, hMn⟩ := rowMin_real hn s
  unfold eff
  rw [hM, hMn]
  exact effOf_real M Mn

/-! ## In the reals: the normalised weights do not depend on the shift -/

theorem sum_exp_pos {n : ℕ} (hn : 0 < n) (t : Fin n → ℝ) : 0 < ∑ k, Real.exp (t k) :=
  Finset.sum_pos (fun k _ => Real.exp_pos _) (univ_nonempty hn)

/-- Weights `exp (t k - a)`, the quotient taken last: the shift `a` cancels. -/
theorem mean_shift {n : ℕ} (hn : 0 < n) (t y : Fin n → ℝ) (a : ℝ) :
    (∑ k, Real.exp (t k - a) * y k) * (1 / ∑ k, Real.exp (t k - a))
      = (∑ k, Real.exp (t k) * y k) / (∑ k, Real.exp (t k)) := by
  have hE : (∑ k, Real.exp (t k)) ≠ 0 := (sum_exp_pos hn t).ne'
  have ha : Real.exp a ≠ 0 := (Real.exp_pos a).ne'
  have h1 : (∑ k, Real.exp (t k - a) * y k) = (∑ k, Real.exp (t k) * y k) / Real.exp a := by
    rw [Finset.sum_div]
    refine Finset.sum_congr rfl (fun k _ => ?_)
    rw [Real.exp_sub]
    ring
  have h2 : (∑ k, Real.exp (t k - a)) = (∑ k, Real.exp (t k)) / Real.exp a := by
    rw [Finset.sum_div]
    refine Finset.sum_congr rfl (fun k _ => ?_)
    rw [Real.exp_sub]
  rw [h1, h2]
  field_simp

/-- Weights `exp (t k - b)`, each divided by their sum before the mean is taken: the same number. -/
theorem mean_each {n : ℕ} (hn : 0 < n) (t y : Fin n → ℝ) (b : ℝ) :
    (∑ k, (Real.exp (t k - b) * (1 / ∑ k', Real.exp (t k' - b))) * y k)
      = (∑ k, Real.exp (t k) * y k) / (∑ k, Real.exp (t k)) := by
  rw [← mean_shift hn t y b, Finset.sum_mul]
  refine Finset.sum_congr rfl (fun k _ => ?_)
  ring

/-! ## The whole-row form on a real row -/

section Forms

variable {n : ℕ} (s : Fin n → ℝ) (e M : ℝ)

theorem wK_coe (he : eff (fun k => ((s k : ℝ) : EReal)) = (e : EReal))
    (hM : rowMax (fun k => ((s k : ℝ) : EReal)) = (M : EReal)) (k : Fin n) :
    wK (fun k => ((s k : ℝ) : EReal)) k = ((Real.exp (s k * e - M * e) : ℝ) : EReal) := by
  unfold wK
  rw [he, hM, ← EReal.coe_mul, ← EReal.coe_mul, ← EReal.coe_sub, Ideal.exp_coe]

/-- `(∑ w · y) · (1 / ∑ w)` on a real row, for any real column `y`. -/
theorem meanK_coe (hn : 0 < n) (he : eff (fun k => ((s k : ℝ) : EReal)) = (e : EReal))
    (hM : rowMax (fun k => ((s k : ℝ) : EReal)) = (M : EReal)) (y : Fin n → ℝ) :
    (∑ k, wK (fun k => ((s k : ℝ) : EReal)) k * ((y k : ℝ) : EReal))
        * Ideal.div one32 (∑ k, wK (fun k => ((s k : ℝ) : EReal)) k)
      = (((∑ k, Real.exp (s k * e - M * e) * y k) * (1 / ∑ k, Real.exp (s k * e - M * e)) : ℝ) : EReal) := by
  have hD : (∑ k, Real.exp (s k * e - M * e)) ≠ 0 := (sum_exp_pos hn (fun k => s k * e - M * e)).ne'
  simp only [wK_coe s e M he hM, ← EReal.coe_mul, coe_sum, one32_eq]
  rw [Ideal.div_coe hD, one_mul, ← EReal.coe_mul]

/-! ## The reference's form on a real row -/

variable (Mz M1 : ℝ)

theorem zR_coe (he : eff (fun k => ((s k : ℝ) : EReal)) = (e : EReal)) :
    zR (fun k => ((s k : ℝ) : EReal)) = fun k => ((s k * e : ℝ) : EReal) := by
  funext k
  unfold zR
  rw [he, ← EReal.coe_mul]

theorem z1R_coe (he : eff (fun k => ((s k : ℝ) : EReal)) = (e : EReal))
    (hMz : rowMax (fun k => ((s k * e : ℝ) : EReal)) = (Mz : EReal)) :
    z1R (fun k => ((s k : ℝ) : EReal)) = fun k => ((s k * e - Mz : ℝ) : EReal) := by
  funext k
  unfold z1R
  rw [zR_coe s e he, hMz, ← EReal.coe_sub]

theorem z2R_coe (he : eff (fun k => ((s k : ℝ) : EReal)) = (e : EReal))
    (hMz : rowMax (fun k => ((s k * e : ℝ) : EReal)) = (Mz : EReal))
    (hM1 : rowMax (fun k => ((s k * e - Mz : ℝ) : EReal)) = (M1 : EReal)) :
    z2R (fun k => ((s k : ℝ) : EReal)) = fun k => ((s k * e - Mz - M1 : ℝ) : EReal) := by
  funext k
  unfold z2R
  rw [z1R_coe s e Mz he hMz, hM1, negInf_eq, max_eq_right bot_le, ← EReal.coe_sub]

theorem uR_coe (he : eff (fun k => ((s k : ℝ) : EReal)) = (e : EReal))
    (hMz : rowMax (fun k => ((s k * e : ℝ) : EReal)) = (Mz : EReal))
    (hM1 : rowMax (fun k => ((s k * e - Mz : ℝ) : EReal)) = (M1 : EReal)) :
    uR (fun k => ((s k : ℝ) : EReal)) = fun k => ((Real.exp (s k * e - Mz - M1) : ℝ) : EReal) := by
  funext k
  unfold uR
  rw [z2R_coe s e Mz M1 he hMz hM1, Ideal.exp_coe]

theorem wR_coe (hn : 0 < n) (he : eff (fun k => ((s k : ℝ) : EReal)) = (e : EReal))
    (hMz : rowMax (fun k => ((s k * e : ℝ) : EReal)) = (Mz : EReal))
    (hM1 : rowMax (fun k => ((s k * e - Mz : ℝ) : EReal)) = (M1 : EReal)) :
    wR (fun k => ((s k : ℝ) : EReal))
      = fun k => ((Real.exp (s k * e - Mz - M1) * (1 / ∑ k', Real.exp (s k' * e - Mz - M1)) : ℝ) : EReal) := by
  have hD : (∑ k, Real.exp (s k * e - Mz - M1)) ≠ 0 := (sum_exp_pos hn (fun k => s k * e - Mz - M1)).ne'
  funext k
  unfold wR
  simp only [uR_coe s e Mz M1 he hMz hM1, coe_sum, zero32_eq, zero_add]
  rw [Ideal.div_coe hD, ← EReal.coe_mul]

/-- `∑ (u / ∑ u) · y` on a real row, for any real column `y`. -/
theorem meanR_coe (hn : 0 < n) (he : eff (fun k => ((s k : ℝ) : EReal)) = (e : EReal))
    (hMz : rowMax (fun k => ((s k * e : ℝ) : EReal)) = (Mz : EReal))
    (hM1 : rowMax (fun k => ((s k * e - Mz : ℝ) : EReal)) = (M1 : EReal)) (y : Fin n → ℝ) :
    (∑ k, wR (fun k => ((s k : ℝ) : EReal)) k * ((y k : ℝ) : EReal))
      = (((∑ k, (Real.exp (s k * e - Mz - M1) * (1 / ∑ k', Real.exp (s k' * e - Mz - M1))) * y k) : ℝ) : EReal) := by
  simp only [wR_coe s e Mz M1 hn he hMz hM1, ← EReal.coe_mul, coe_sum]

/-- The two means agree in the reals, whatever the three shifts. -/
theorem mean_agree (hn : 0 < n) (y : Fin n → ℝ) :
    (∑ k, Real.exp (s k * e - M * e) * y k) * (1 / ∑ k, Real.exp (s k * e - M * e))
      = ∑ k, (Real.exp (s k * e - Mz - M1) * (1 / ∑ k', Real.exp (s k' * e - Mz - M1))) * y k := by
  have h1 := mean_shift hn (fun k => s k * e) y (M * e)
  have h2 := mean_each hn (fun k => s k * e) y (Mz + M1)
  simp only [← sub_sub] at h2
  exact h1.trans h2.symm

end Forms

end Alg

/-- The weighted mean of the scores: quotient last = each weight normalised first, on a real row. -/
theorem valK_eq_valR {n : ℕ} (hn : 0 < n) (s : Fin n → ℝ) :
    valK (fun k => ((s k : ℝ) : EReal)) = valR (fun k => ((s k : ℝ) : EReal)) := by
  obtain ⟨e, he⟩ := Alg.eff_real hn s
  obtain ⟨M, hM⟩ := Alg.rowMax_real hn s
  obtain ⟨Mz, hMz⟩ := Alg.rowMax_real hn (fun k => s k * e)
  obtain ⟨M1, hM1⟩ := Alg.rowMax_real hn (fun k => s k * e - Mz)
  unfold valK valR
  rw [Alg.zero32_eq, zero_add, Alg.meanK_coe s e M hn he hM s, Alg.meanR_coe s e Mz M1 hn he hMz hM1 s,
    Alg.mean_agree s e M Mz M1 hn s]

/-- The weighted mean of one coordinate of the candidates likewise, on real rows. -/
theorem choiceK_eq_choiceR {n : ℕ} (hn : 0 < n) (s y : Fin n → ℝ) :
    choiceK (fun k => ((s k : ℝ) : EReal)) (fun k => ((y k : ℝ) : EReal))
      = choiceR (fun k => ((s k : ℝ) : EReal)) (fun k => ((y k : ℝ) : EReal)) := by
  obtain ⟨e, he⟩ := Alg.eff_real hn s
  obtain ⟨M, hM⟩ := Alg.rowMax_real hn s
  obtain ⟨Mz, hMz⟩ := Alg.rowMax_real hn (fun k => s k * e)
  obtain ⟨M1, hM1⟩ := Alg.rowMax_real hn (fun k => s k * e - Mz)
  unfold choiceK choiceR
  rw [Alg.meanK_coe s e M hn he hM y, Alg.meanR_coe s e Mz M1 hn he hMz hM1 y,
    Alg.mean_agree s e M Mz M1 hn y]

end Cert.Fcm

end
-- ==== Proof.Tiles.lean ====
/-
  A row of 8192 candidates cut into eight tiles of 1024: the maximum, the minimum and every sum taken tile
  by tile and combined left to right are the row's own maximum, minimum and sum — on any extended reals.
-/
import proofs.«168320_g88089779241353_cont_9to1c4b_404_5_alg».proof.Proof.Spec
import Idealize.ShloMosaic.PureOps.Ideal.Laws
import Mathlib.Data.Finset.Fold
import Mathlib.Algebra.BigOperators.Fin
import Mathlib.Algebra.BigOperators.Group.Finset.Sigma

noncomputable section

namespace Cert.Fcm

open Idealize.ShloMosaic

/-! ## Every candidate lies in exactly one tile -/

/-- The tile of candidate `k`. -/
def tileOf (k : Fin 8192) : Fin 8 := ⟨k.val / 1024, by omega⟩

/-- The place of candidate `k` inside its tile. -/
def placeOf (k : Fin 8192) : Fin 1024 := ⟨k.val % 1024, by omega⟩

theorem tk_tileOf_placeOf (k : Fin 8192) : tk (tileOf k) (placeOf k) = k := by
  apply Fin.ext
  simp only [tk, tileOf, placeOf]
  omega

/-- Tile and place, as a bijection between the pairs and the candidates. -/
def tkEquiv : Fin 8 × Fin 1024 ≃ Fin 8192 where
  toFun p := tk p.1 p.2
  invFun k := (tileOf k, placeOf k)
  left_inv p := by
    obtain ⟨i, q⟩ := p
    apply Prod.ext
    · apply Fin.ext
      simp only [tk, tileOf]
      omega
    · apply Fin.ext
      simp only [tk, placeOf]
      omega
  right_inv k := tk_tileOf_placeOf k

/-! ## Eight values joined left to right -/

theorem le_max8 (g : Fin 8 → EReal) (i : Fin 8) :
    g i ≤ max (max (max (max (max (max (max (g 0) (g 1)) (g 2)) (g 3)) (g 4)) (g 5)) (g 6)) (g 7) := by
  fin_cases i <;> simp only [Fin.zero_eta, Fin.mk_one, Fin.reduceFinMk, le_max_iff, le_refl, true_or, or_true]

theorem min8_le (g : Fin 8 → EReal) (i : Fin 8) :
    min (min (min (min (min (min (min (g 0) (g 1)) (g 2)) (g 3)) (g 4)) (g 5)) (g 6)) (g 7) ≤ g i := by
  fin_cases i <;> simp only [Fin.zero_eta, Fin.mk_one, Fin.reduceFinMk, min_le_iff, le_refl, true_or, or_true]

/-! ## Maximum and minimum -/

theorem tileMax_le_rowMax (s : Fin 8192 → EReal) (i : Fin 8) : tileMax s i ≤ rowMax s := by
  unfold tileMax rowMax
  rw [Finset.fold_max_le]
  refine ⟨?_, ?_⟩
  · rw [Finset.le_fold_max]
    exact Or.inl le_rfl
  · intro q _
    rw [Finset.le_fold_max]
    exact Or.inr ⟨tk i q, Finset.mem_univ _, le_rfl⟩

theorem maxT_eq_rowMax (s : Fin 8192 → EReal) : maxT s = rowMax s := by
  apply le_antisymm
  · unfold maxT
    simp only [max_le_iff]
    exact ⟨⟨⟨⟨⟨⟨⟨tileMax_le_rowMax s 0, tileMax_le_rowMax s 1⟩, tileMax_le_rowMax s 2⟩,
      tileMax_le_rowMax s 3⟩, tileMax_le_rowMax s 4⟩, tileMax_le_rowMax s 5⟩, tileMax_le_rowMax s 6⟩,
      tileMax_le_rowMax s 7⟩
  · have hT : ∀ i, tileMax s i ≤ maxT s := fun i => le_max8 (tileMax s) i
    unfold rowMax
    rw [Finset.fold_max_le]
    refine ⟨?_, ?_⟩
    · refine le_trans ?_ (hT 0)
      unfold tileMax
      rw [Finset.le_fold_max]
      exact Or.inl le_rfl
    · intro k _
      refine le_trans ?_ (hT (tileOf k))
      unfold tileMax
      rw [Finset.le_fold_max]
      refine Or.inr ⟨placeOf k, Finset.mem_univ _, ?_⟩
      rw [tk_tileOf_placeOf]

theorem rowMin_le_tileMin (s : Fin 8192 → EReal) (i : Fin 8) : rowMin s ≤ tileMin s i := by
  unfold tileMin rowMin
  rw [Finset.le_fold_min]
  refine ⟨?_, ?_⟩
  · rw [Finset.fold_min_le]
    exact Or.inl le_rfl
  · intro q _
    rw [Finset.fold_min_le]
    exact Or.inr ⟨tk i q, Finset.mem_univ _, le_rfl⟩

theorem minT_eq_rowMin (s : Fin 8192 → EReal) : minT s = rowMin s := by
  apply le_antisymm
  · have hT : ∀ i, minT s ≤ tileMin s i := fun i => min8_le (tileMin s) i
    unfold rowMin
    rw [Finset.le_fold_min]
    refine ⟨?_, ?_⟩
    · refine le_trans (hT 0) ?_
      unfold tileMin
      rw [Finset.fold_min_le]
      exact Or.inl le_rfl
    · intro k _
      refine le_trans (hT (tileOf k)) ?_
      unfold tileMin
      rw [Finset.fold_min_le]
      refine Or.inr ⟨placeOf k, Finset.mem_univ _, ?_⟩
      rw [tk_tileOf_placeOf]
  · unfold minT
    simp only [le_min_iff]
    exact ⟨⟨⟨⟨⟨⟨⟨rowMin_le_tileMin s 0, rowMin_le_tileMin s 1⟩, rowMin_le_tileMin s 2⟩,
      rowMin_le_tileMin s 3⟩, rowMin_le_tileMin s 4⟩, rowMin_le_tileMin s 5⟩, rowMin_le_tileMin s 6⟩,
      rowMin_le_tileMin s 7⟩

/-! ## Sums -/

theorem sumT_eq_sum (f : Fin 8192 → EReal) : sumT f = ∑ k, f k := by
  have h : (∑ k, f k) = ∑ i : Fin 8, tileSum f i := by
    rw [← Fintype.sum_equiv tkEquiv (fun p => f (tk p.1 p.2)) f (fun _ => rfl), Fintype.sum_prod_type]
    rfl
  rw [h, Fin.sum_univ_eight]
  unfold sumT
  rw [show zero32 = 0 from Ideal.ofBits_zero_f32, zero_add]

/-! ## The temperature, the weights, the two means -/

theorem effT_eq_eff (s : Fin 8192 → EReal) : effT s = eff s := by
  unfold effT eff
  rw [maxT_eq_rowMax, minT_eq_rowMin]

theorem wT_eq_wK (s : Fin 8192 → EReal) : wT s = wK s := by
  funext k
  unfold wT wK
  rw [effT_eq_eff, maxT_eq_rowMax]

/-- The tiled weighted mean of the scores is the whole-row one. -/
theorem valT_eq_valK (s : Fin 8192 → EReal) : valT s = valK s := by
  unfold valT valK
  rw [sumT_eq_sum, sumT_eq_sum, wT_eq_wK]

/-- The tiled weighted mean of a coordinate of the candidates is the whole-row one. -/
theorem choiceT_eq_choiceK (s y : Fin 8192 → EReal) : choiceT s y = choiceK s y := by
  unfold choiceT choiceK
  rw [sumT_eq_sum, sumT_eq_sum, wT_eq_wK]

end Cert.Fcm

end
-- ==== Proof.Finite.lean ====
/-
  Under the precondition every entry of the three argument arrays is a real number, so every score and
  every coordinate of a candidate is one.
-/
import proofs.«168320_g88089779241353_cont_9to1c4b_404_5_alg».proof.Proof.Spec
import proofs.«168320_g88089779241353_cont_9to1c4b_404_5_alg».proof.Proof.Gen.Pre_finite_inputs
import Idealize.ShloMosaic.Lib.ReduceAll

noncomputable section

namespace Cert.Fcm

open Idealize.ShloMosaic Idealize.ShloMosaic.ValueIdx

/-- The word of positive infinity is the top of the extended reals. -/
private theorem top_f32 : Ideal.ofBits .f32 0x7F800000#32 = (⊤ : EReal) := by
  simp [Ideal.ofBits, Ideal.ieee]

/-- An extended real whose absolute value is below positive infinity is a real. -/
private theorem real_of_abs_lt (x : EReal)
    (h : Ideal.cmp .olt (max x (-x)) (Ideal.ofBits .f32 0x7F800000#32) = 1#1) : ∃ r : ℝ, x = (r : EReal) := by
  rw [top_f32] at h
  induction x using EReal.rec with
  | bot => simp [Ideal.cmp] at h
  | coe r => exact ⟨r, rfl⟩
  | top => simp [Ideal.cmp] at h

/-- A finite sum of reals, taken on the extended reals, is the real sum. -/
private theorem coe_sum {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The printed precondition, all ones, says every entry of each argument is real. -/
theorem real_of_pre (X : FVec Ideal Cert.Pre_finite_inputs.S4096x256 .f32)
    (Y : FVec Ideal Cert.Pre_finite_inputs.S1x8192x256 .f32) (b : FVec Ideal Cert.Pre_finite_inputs.S1x8192 .f32)
    (h : Cert.Pre_finite_inputs.fn (F := Ideal) X Y b = fun _ => 1#1) :
    (∀ i, ∃ r : ℝ, (X i : EReal) = (r : EReal)) ∧ (∀ i, ∃ r : ℝ, (Y i : EReal) = (r : EReal))
      ∧ (∀ i, ∃ r : ℝ, (b i : EReal) = (r : EReal)) := by
  have h0 := congrFun h ValueIdx.ix0
  unfold Cert.Pre_finite_inputs.fn at h0
  dsimp only at h0
  haveI : Subsingleton Cert.Pre_finite_inputs.S_.Idx := ⟨fun a b => funext fun d => d.elim0⟩
  obtain ⟨h38, h12⟩ := IntOp.andi_eq_one.1 h0
  obtain ⟨h3, h7⟩ := IntOp.andi_eq_one.1 h38
  refine ⟨fun i => ?_, fun i => ?_, fun i => ?_⟩
  · exact real_of_abs_lt _ (Host.reduce_andi_all _ _ _ _ _ h3 i)
  · exact real_of_abs_lt _ (Host.reduce_andi_all _ _ _ _ _ h7 i)
  · exact real_of_abs_lt _ (Host.reduce_andi_all _ _ _ _ _ h12 i)

/-- A row of scores of real arrays is real. -/
theorem rows_real (X : (⟨2, ![4096, 256]⟩ : Shape).Idx → EReal) (Y : (⟨3, ![1, 8192, 256]⟩ : Shape).Idx → EReal)
    (b : (⟨2, ![1, 8192]⟩ : Shape).Idx → EReal)
    (hX : ∀ i, ∃ r : ℝ, X i = (r : EReal)) (hY : ∀ i, ∃ r : ℝ, Y i = (r : EReal)) (hb : ∀ i, ∃ r : ℝ, b i = (r : EReal))
    (r : Fin 4096) : ∃ s : Fin 8192 → ℝ, scoreRow X Y b r = fun k => ((s k : ℝ) : EReal) := by
  choose x hx using hX
  choose y hy using hY
  choose c hc using hb
  refine ⟨fun k => (∑ j : Fin 256, x (ix2 r j) * y (ix3 (0 : Fin 1) k j)) + c (ix2 (0 : Fin 1) k), ?_⟩
  funext k
  unfold scoreRow
  simp only [hx, hy, hc, ← EReal.coe_mul, coe_sum, ← EReal.coe_add]

/-- A coordinate of the candidates of a real array is real. -/
theorem cols_real (Y : (⟨3, ![1, 8192, 256]⟩ : Shape).Idx → EReal) (hY : ∀ i, ∃ r : ℝ, Y i = (r : EReal))
    (j : Fin 256) : ∃ y : Fin 8192 → ℝ, codeCol Y j = fun k => ((y k : ℝ) : EReal) := by
  choose y hy using hY
  exact ⟨fun k => y (ix3 (0 : Fin 1) k j), funext fun k => hy _⟩

end Cert.Fcm

end
-- ==== Proof.RefStages.lean ====
/-
  The reference's two result arrays, read one host operation at a time at the ideal values: at row `r` they
  are the reference's form of the weighted means of that row's scores.
-/
import proofs.«168320_g88089779241353_cont_9to1c4b_404_5_alg».proof.Proof.Spec
import proofs.«168320_g88089779241353_cont_9to1c4b_404_5_alg».proof.Proof.Gen.ReferenceIdeal.Run
import proofs.«168320_g88089779241353_cont_9to1c4b_404_5_alg».proof.Proof.Gen.ReferenceIdeal.Read
import Idealize.ShloMosaic.PureOps.Reduce
import Idealize.ShloMosaic.PureOps.Ideal.Laws

noncomputable section

namespace Cert.Fcm.Ref

open Cert.ReferenceIdeal Cert.ReferenceIdeal.Gen Cert.ReferenceIdeal.Read Idealize.ShloMosaic Idealize.ShloMosaic.ValueIdx Idealize.ShloMosaic.TcCoe Idealize.SL.Sem

/-! ## The scores from the argument arrays -/

section Stages

variable (X : (⟨S4096x256, .f32⟩ : BufTy).Contents (Elt Ideal)) (Y : (⟨S1x8192x256, .f32⟩ : BufTy).Contents (Elt Ideal))
  (b : (⟨S1x8192, .f32⟩ : BufTy).Contents (Elt Ideal))

/-- The candidates as a matrix: entry (k, j) is coordinate j of candidate k. -/
theorem v0_apply (k : Fin 8192) (j : Fin 256) : val_main_v0 (F := Ideal) Y (ix2 k j) = Y (ix3 (0 : Fin 1) k j) := by
  rw [val_main_v0_apply]
  refine congrArg Y (funext fun a => Fin.ext ?_)
  have hk := k.isLt
  have hj := j.isLt
  match a with
  | ⟨0, _⟩ => rfl
  | ⟨1, _⟩ => show (k.val * 256 + j.val) / 256 % 8192 = k.val; omega
  | ⟨2, _⟩ => show (k.val * 256 + j.val) % 256 = j.val; omega

/-- Its transpose: entry (j, k) is coordinate j of candidate k. -/
theorem v1_apply (j : Fin 256) (k : Fin 8192) : val_main_v1 (F := Ideal) Y (ix2 j k) = Y (ix3 (0 : Fin 1) k j) := by
  rw [val_main_v1_apply, ← v0_apply Y k j]
  exact congrArg _ (funext fun a => Fin.ext (by match a with | ⟨0, _⟩ => rfl | ⟨1, _⟩ => rfl))

/-- The scores. -/
theorem v4_apply (r : Fin 4096) (k : Fin 8192) : val_main_v4 (F := Ideal) X Y b (ix2 r k) = scoreRow X Y b r k := by
  rw [val_main_v4_apply, val_main_v2_apply, val_main_v3_apply]
  unfold scoreRow
  rw [Ideal.addf_def]
  refine congrArg₂ (· + ·) (Finset.sum_congr rfl fun j _ => ?_) ?_
  · refine congrArg₂ (· * ·) ?_ ?_
    · exact congrArg X (funext fun a => Fin.ext (by match a with | ⟨0, _⟩ => rfl | ⟨1, _⟩ => rfl))
    · rw [← v1_apply Y j k]
      exact congrArg _ (funext fun a => Fin.ext (by match a with | ⟨0, _⟩ => rfl | ⟨1, _⟩ => rfl))
  · exact congrArg b (funext fun a => Fin.ext (by match a with | ⟨0, _⟩ => rfl | ⟨1, _⟩ => rfl))

end Stages

/-! ## A reduction over the candidates' axis, one row at a time -/

/-- The reduced index `r` with candidate `k` put back is (r, k). -/
theorem lift_row (h : S4096x8192.Reduces [1] S4096) (r : Fin 4096) (k : Fin (S4096x8192.size 1)) :
    h.lift (ix1 r) k = ix2 r (⟨k.val, k.isLt⟩ : Fin 8192) := by
  funext c; apply Fin.ext
  match c with
  | ⟨0, _⟩ => rfl
  | ⟨1, _⟩ => rfl

/-- Dropping the candidates' axis of the score array leaves its rows. -/
theorem reduces_row : S4096x8192.Reduces [1] S4096 := by decide

/-- A maximum taken along the candidates' axis is, at row `r`, the fold of `max` over that row. -/
theorem reduce_max_row (x : S4096x8192.Idx → Ideal .f32) (init : S_.Idx → Ideal .f32)
    (r : Fin 4096) (s : Fin 8192 → EReal) (hx : ∀ k, x (ix2 r k) = s k) :
    Host.reduce (FloatOps.maximumf (F := Ideal) (φ := .f32)) x init reducesTo_S4096x8192_S4096_d1 h_S_ (ix1 r)
      = (Finset.univ : Finset (Fin 8192)).fold max (init (Shape.Idx.first h_S_)) s := by
  rw [Host.reduce_eq_fold_single (FloatOps.maximumf (F := Ideal) (φ := .f32)) x _ reducesTo_S4096x8192_S4096_d1 reduces_row h_S_]
  have hf : (x ∘ reduces_row.lift (ix1 r)) = s :=
    funext fun k => (congrArg x (lift_row reduces_row r k)).trans (hx ⟨k.val, k.isLt⟩)
  exact congrArg (fun f => Finset.fold max (init (Shape.Idx.first h_S_)) f (Finset.univ : Finset (Fin 8192))) hf

/-- A minimum taken along the candidates' axis is, at row `r`, the fold of `min` over that row. -/
theorem reduce_min_row (x : S4096x8192.Idx → Ideal .f32) (init : S_.Idx → Ideal .f32)
    (r : Fin 4096) (s : Fin 8192 → EReal) (hx : ∀ k, x (ix2 r k) = s k) :
    Host.reduce (FloatOps.minimumf (F := Ideal) (φ := .f32)) x init reducesTo_S4096x8192_S4096_d1 h_S_ (ix1 r)
      = (Finset.univ : Finset (Fin 8192)).fold min (init (Shape.Idx.first h_S_)) s := by
  rw [Host.reduce_eq_fold_single (FloatOps.minimumf (F := Ideal) (φ := .f32)) x _ reducesTo_S4096x8192_S4096_d1 reduces_row h_S_]
  have hf : (x ∘ reduces_row.lift (ix1 r)) = s :=
    funext fun k => (congrArg x (lift_row reduces_row r k)).trans (hx ⟨k.val, k.isLt⟩)
  exact congrArg (fun f => Finset.fold min (init (Shape.Idx.first h_S_)) f (Finset.univ : Finset (Fin 8192))) hf

section Stages2

variable (X : (⟨S4096x256, .f32⟩ : BufTy).Contents (Elt Ideal)) (Y : (⟨S1x8192x256, .f32⟩ : BufTy).Contents (Elt Ideal))
  (b : (⟨S1x8192, .f32⟩ : BufTy).Contents (Elt Ideal))

/-- The row maxima of the scores. -/
theorem v5_apply (r : Fin 4096) : val_main_v5 (F := Ideal) X Y b (ix1 r) = rowMax (scoreRow X Y b r) := by
  unfold val_main_v5
  exact reduce_max_row _ _ r _ (v4_apply X Y b r)

/-- The row minima of the scores. -/
theorem v7_apply (r : Fin 4096) : val_main_v7 (F := Ideal) X Y b (ix1 r) = rowMin (scoreRow X Y b r) := by
  unfold val_main_v7
  exact reduce_min_row _ _ r _ (v4_apply X Y b r)

end Stages2

/-! ## The effective temperature, the shifts, the weights and the two means -/

section Stages3

variable (X : (⟨S4096x256, .f32⟩ : BufTy).Contents (Elt Ideal)) (Y : (⟨S1x8192x256, .f32⟩ : BufTy).Contents (Elt Ideal))
  (b : (⟨S1x8192, .f32⟩ : BufTy).Contents (Elt Ideal))

/-- The effective temperature of row `r`. -/
theorem v14_apply (r : Fin 4096) : val_main_v14 (F := Ideal) X Y b (ix2 r (0 : Fin 1)) = eff (scoreRow X Y b r) := by
  rw [val_main_v14_apply, val_main_call0_v4_apply, val_main_call0_v3_apply, val_main_cst_4_apply,
    val_main_call0_v2_apply, val_main_call0_v1_apply, val_main_call0_v0_apply, val_main_cst_3_apply,
    val_main_v13_apply, val_main_v12_apply, val_main_cst_2_apply, val_main_v11_apply, val_main_v9_apply,
    val_main_v6_apply, val_main_v8_apply, val_main_v10_apply, val_main_cst_1_apply]
  have e6 : idx_main_v6 (ix2 r (0 : Fin 1)) = ix1 r := funext fun a => Fin.ext (by match a with | ⟨0, _⟩ => rfl)
  have e8 : idx_main_v8 (ix2 r (0 : Fin 1)) = ix1 r := funext fun a => Fin.ext (by match a with | ⟨0, _⟩ => rfl)
  rw [e6, e8, v5_apply, v7_apply]
  rfl

/-- The scaled scores. -/
theorem v16_apply (r : Fin 4096) (k : Fin 8192) :
    val_main_v16 (F := Ideal) X Y b (ix2 r k) = zR (scoreRow X Y b r) k := by
  have e : idx_main_v15 (ix2 r k) = ix2 r (0 : Fin 1) :=
    funext fun a => Fin.ext (by match a with | ⟨0, _⟩ => rfl | ⟨1, _⟩ => rfl)
  rw [val_main_v16_apply, val_main_v15_apply, e, v4_apply, v14_apply]
  rfl

/-- Their row maxima. -/
theorem v17_apply (r : Fin 4096) : val_main_v17 (F := Ideal) X Y b (ix1 r) = rowMax (zR (scoreRow X Y b r)) := by
  unfold val_main_v17
  exact reduce_max_row _ _ r _ (v16_apply X Y b r)

/-- The scaled scores less their row maximum. -/
theorem v20_apply (r : Fin 4096) (k : Fin 8192) :
    val_main_v20 (F := Ideal) X Y b (ix2 r k) = z1R (scoreRow X Y b r) k := by
  have e : idx_main_v18 (idx_main_v19 (ix2 r k)) = ix1 r :=
    funext fun a => Fin.ext (by match a with | ⟨0, _⟩ => rfl)
  rw [val_main_v20_apply, val_main_v19_apply, val_main_v18_apply, e, v16_apply, v17_apply]
  rfl

/-- The row maxima of those. -/
theorem v21_apply (r : Fin 4096) : val_main_v21 (F := Ideal) X Y b (ix1 r) = rowMax (z1R (scoreRow X Y b r)) := by
  unfold val_main_v21
  exact reduce_max_row _ _ r _ (v20_apply X Y b r)

/-- … joined with −∞. -/
theorem v23_apply (r : Fin 4096) :
    val_main_v23 (F := Ideal) X Y b (ix1 r) = max negInf (rowMax (z1R (scoreRow X Y b r))) := by
  rw [val_main_v23_apply, val_main_v22_apply, val_main_cst_7_apply, v21_apply]
  rfl

/-- The twice-shifted scores. -/
theorem v26_apply (r : Fin 4096) (k : Fin 8192) :
    val_main_v26 (F := Ideal) X Y b (ix2 r k) = z2R (scoreRow X Y b r) k := by
  have e : idx_main_v24 (idx_main_v25 (ix2 r k)) = ix1 r :=
    funext fun a => Fin.ext (by match a with | ⟨0, _⟩ => rfl)
  rw [val_main_v26_apply, val_main_v25_apply, val_main_v24_apply, e, v20_apply, v23_apply]
  rfl

/-- The unnormalised weights. -/
theorem v27_apply (r : Fin 4096) (k : Fin 8192) :
    val_main_v27 (F := Ideal) X Y b (ix2 r k) = uR (scoreRow X Y b r) k := by
  rw [val_main_v27_apply, v26_apply]
  rfl

/-- Their row sums, from zero. -/
theorem v28_apply (r : Fin 4096) :
    val_main_v28 (F := Ideal) X Y b (ix1 r) = zero32 + ∑ k : Fin 8192, uR (scoreRow X Y b r) k := by
  rw [val_main_v28_apply, val_main_cst_8_apply]
  refine congrArg₂ (· + ·) rfl (Finset.sum_congr rfl fun k _ => ?_)
  have e : idx_main_v28 (ix1 r) k = ix2 r k :=
    funext fun a => Fin.ext (by match a with | ⟨0, _⟩ => rfl | ⟨1, _⟩ => rfl)
  rw [e, v27_apply]

/-- The normalised weights. -/
theorem v31_apply (r : Fin 4096) (k : Fin 8192) :
    val_main_v31 (F := Ideal) X Y b (ix2 r k) = wR (scoreRow X Y b r) k := by
  have e : idx_main_v29 (idx_main_v30 (ix2 r k)) = ix1 r :=
    funext fun a => Fin.ext (by match a with | ⟨0, _⟩ => rfl)
  rw [val_main_v31_apply, val_main_v30_apply, val_main_v29_apply, e, v27_apply, v28_apply]
  rfl

/-- The weighted means of the scores. -/
theorem v33_apply (r : Fin 4096) : val_main_v33 (F := Ideal) X Y b (ix1 r) = valR (scoreRow X Y b r) := by
  rw [val_main_v33_apply, val_main_cst_9_apply]
  unfold valR
  refine congrArg₂ (· + ·) rfl (Finset.sum_congr rfl fun k _ => ?_)
  have e : idx_main_v33 (ix1 r) k = ix2 r k :=
    funext fun a => Fin.ext (by match a with | ⟨0, _⟩ => rfl | ⟨1, _⟩ => rfl)
  rw [e, val_main_v32_apply, v31_apply, v4_apply]
  rfl

/-- The weighted means of the candidates' coordinates. -/
theorem v34_apply (r : Fin 4096) (j : Fin 256) :
    val_main_v34 (F := Ideal) X Y b (ix2 r j) = choiceR (scoreRow X Y b r) (codeCol Y j) := by
  rw [val_main_v34_apply]
  unfold choiceR
  refine Finset.sum_congr rfl fun k _ => ?_
  have el : lidx_main_v34 (ix2 r j) k = ix2 r k :=
    funext fun a => Fin.ext (by match a with | ⟨0, _⟩ => rfl | ⟨1, _⟩ => rfl)
  have er : ridx_main_v34 (ix2 r j) k = ix2 k j :=
    funext fun a => Fin.ext (by match a with | ⟨0, _⟩ => rfl | ⟨1, _⟩ => rfl)
  rw [el, er, v31_apply, v0_apply]
  rfl

end Stages3

/-! ## The two results -/

/-- The candidate means, at row `r` and coordinate `j`. -/
theorem out0_apply (m : (ℓ : Loc nD τ sig) → Buf (Elt Ideal) ℓ) (c : Dev nD) (r : Fin 4096) (j : Fin 256) :
    (Cert.ReferenceIdeal.Value.res_out0 (F := Ideal) m c (ix2 r j) : EReal)
      = choiceR (scoreRow (m ((c.tc : Thread nD τ).loc main_arg0)) (m ((c.tc : Thread nD τ).loc main_arg1))
          (m ((c.tc : Thread nD τ).loc main_arg2)) r) (codeCol (m ((c.tc : Thread nD τ).loc main_arg1)) j) := by
  have h := val_main_v34_eq (F := Ideal) m c
  exact (congrFun h (ix2 r j)).trans (v34_apply _ _ _ r j)

/-- The score means, at row `r`. -/
theorem out1_apply (m : (ℓ : Loc nD τ sig) → Buf (Elt Ideal) ℓ) (c : Dev nD) (r : Fin 4096) :
    (Cert.ReferenceIdeal.Value.res_out1 (F := Ideal) m c (ix1 r) : EReal)
      = valR (scoreRow (m ((c.tc : Thread nD τ).loc main_arg0)) (m ((c.tc : Thread nD τ).loc main_arg1))
          (m ((c.tc : Thread nD τ).loc main_arg2)) r) := by
  have h := val_main_v33_eq (F := Ideal) m c
  exact (congrFun h (ix1 r)).trans (v33_apply _ _ _ r)

end Cert.Fcm.Ref

end
-- ==== Proof.KPieces.lean ====
/-
  What one grid point's body leaves in its two output blocks.

  The body stores each output block once, whole. The stored values are the last links of the chain of
  intermediate values the body computes: for the block of weighted candidate means the accumulated
  products over the first seven tiles plus the eighth tile's product, times the reciprocal of the weights' sum;
  for the block of weighted score means the accumulated sum of weight · score plus the eighth tile's, times
  the same reciprocal. This module names those two values and shows that each output block, read back after
  the body, is the one stored value.
-/
import proofs.«168320_g88089779241353_cont_9to1c4b_404_5_alg».proof.Proof.Gen.KernelIdeal.Frame
import Idealize.ShloMosaic.Lib.Pipeline.Value

set_option maxRecDepth 16384

noncomputable section

namespace Cert.Fcm.K

open Cert.KernelIdeal Cert.KernelIdeal.Gen
open Idealize.ShloMosaic Idealize.ShloMosaic.TcCoe Idealize.ShloMosaic.Tactic
open Idealize.SL Idealize.SL.Sem

variable {F : FTy → Type} [FloatOps F]

/-- The value stored into the block of candidate means: `(acc₀…₆ + e₇ · Yq₇) · (1 / D)`. -/
def piece4 (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec F S256x256 .f32) (x1 : Vec F S8192x256 .f32) (x2 : Vec F S8192x256 .bf16) (x3 : Vec F S1x8192 .f32) : FVec F S256x256 .f32 :=
  k0_pay3 (kernelRun0_A.sl.r_23 c arg1 harg1 arg2 harg2 arg3 harg3 arg4 harg4 arg7 x0 x1 x2 x3)
    (kernelRun0_A.sl.r_24 c arg1 harg1 arg2 harg2 arg4 harg4 arg7 x0 x1 x3)
    (kernelRun0_A.sl.r_25 c arg1 harg1 arg2 harg2 arg4 harg4 arg7 x0 x1 x3)
    (View.readAt (Elt F) arg3.view
      (Rect.unit (s := S8192x256) ![7168, 0] S1024x256.size inb_S8192x256_S1024x256_7168_0).toLoadRect (harg3.unread x2))

/-- The value stored into the block of score means: `(ve₀…₆ + ∑ e₇ · s₇) · (1 / D)`. -/
def piece5 (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec F S256x256 .f32) (x1 : Vec F S8192x256 .f32) (x2 : Vec F S8192x256 .bf16) (x3 : Vec F S1x8192 .f32) : FVec F S256x1 .f32 :=
  k0_pay2 (kernelRun0_A.sl.r_22 c arg1 harg1 arg2 harg2 arg4 harg4 arg7 x0 x1 x3)
    (kernelRun0_A.sl.r_25 c arg1 harg1 arg2 harg2 arg4 harg4 arg7 x0 x1 x3)
    (kernelRun0_A.sl.r_26 c arg1 harg1 arg2 harg2 arg4 harg4 arg7 x0 x1 x3)

/-- The zero offsets of a rank-2 block, as the constant-zero function. -/
theorem zero_off2 : (![0, 0] : Fin 2 → ℕ) = fun _ => 0 := by
  funext a; match a with | ⟨0, _⟩ => rfl | ⟨1, _⟩ => rfl

/-- After the body, the block of candidate means holds the one value stored into it. -/
theorem out4_eq (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec F S256x256 .f32) (x1 : Vec F S8192x256 .f32) (x2 : Vec F S8192x256 .bf16) (x3 : Vec F S1x8192 .f32) :
    out0_A_4 c i arg1 harg1 arg2 harg2 arg3 harg3 arg4 harg4 arg5 harg5 arg6 harg6 arg7 harg7 x0 x1 x2 x3 = piece4 c i arg1 harg1 arg2 harg2 arg3 harg3 arg4 harg4 arg5 harg5 arg6 harg6 arg7 harg7 x0 x1 x2 x3 := by
  unfold out0_A_4
  rw [View.read_writes_eq_canon _ _ _ (cover0_A_4 c i arg1 harg1 arg2 harg2 arg3 harg3 arg4 harg4 arg5 harg5 arg6 harg6 arg7 harg7 x0 x1 x2 x3)]
  unfold kernelRun0_A
  dsimp only
  rw [View.canon_unit_zero (S := S256x256) zero_off2]
  rfl

/-- After the body, the block of score means holds the one value stored into it. -/
theorem out5_eq (c : Dev nD) (i : grid0.Coords) (arg1 : Memref sig .tc .vmem S256x256 .f32) (harg1 : arg1.IsWhole) (arg2 : Memref sig .tc .vmem S8192x256 .f32) (harg2 : arg2.IsWhole) (arg3 : Memref sig .tc .vmem S8192x256 .bf16) (harg3 : arg3.IsWhole) (arg4 : Memref sig .tc .vmem S1x8192 .f32) (harg4 : arg4.IsWhole) (arg5 : Memref sig .tc .vmem S256x256 .f32) (harg5 : arg5.IsWhole) (arg6 : Memref sig .tc .vmem S256x1 .f32) (harg6 : arg6.IsWhole) (arg7 : Memref sig .tc .vmem S256x8192 .f32) (harg7 : arg7.IsWhole)
    (x0 : Vec F S256x256 .f32) (x1 : Vec F S8192x256 .f32) (x2 : Vec F S8192x256 .bf16) (x3 : Vec F S1x8192 .f32) :
    out0_A_5 c i arg1 harg1 arg2 harg2 arg3 harg3 arg4 harg4 arg5 harg5 arg6 harg6 arg7 harg7 x0 x1 x2 x3 = piece5 c i arg1 harg1 arg2 harg2 arg3 harg3 arg4 harg4 arg5 harg5 arg6 harg6 arg7 harg7 x0 x1 x2 x3 := by
  unfold out0_A_5
  rw [View.read_writes_eq_canon _ _ _ (cover0_A_5 c i arg1 harg1 arg2 harg2 arg3 harg3 arg4 harg4 arg5 harg5 arg6 harg6 arg7 harg7 x0 x1 x2 x3)]
  unfold kernelRun0_A
  dsimp only
  rw [View.canon_unit_zero (S := S256x1) zero_off2]
  rfl

end Cert.Fcm.K

end
-- ==== Proof.KBase.lean ====
/-
  Base facts about one grid point's body at the ideal values, shared by the modules that read it.

  * What each load reads: the body loads its X block whole, and the candidates, the intercepts and the
    narrowed candidates one tile of 1024 at a time; entry `q` of tile `t` is entry `1024 t + q` of the array.
  * What a tile of scores is: the product of the X block with the tile of candidates over the 256 features,
    plus the tile of intercepts — `⟨x_p, y_q⟩ + b_q` at `(p, q)`.
-/
import proofs.«168320_g88089779241353_cont_9to1c4b_404_5_alg».proof.Proof.Spec
import proofs.«168320_g88089779241353_cont_9to1c4b_404_5_alg».proof.Proof.Gen.KernelIdeal.Frame
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws

set_option maxRecDepth 16384

noncomputable section

namespace Cert.Fcm.K

open Cert.KernelIdeal Cert.KernelIdeal.Gen Cert.Fcm
open Idealize.ShloMosaic Idealize.ShloMosaic.ValueIdx Idealize.ShloMosaic.TcCoe

/-- Row `p` of the block's scores against all 8192 candidates: `⟨x0 p, x1 k⟩ + x3 k`. -/
def sb (x0 : Vec Ideal S256x256 .f32) (x1 : Vec Ideal S8192x256 .f32) (x3 : Vec Ideal S1x8192 .f32)
    (p : Fin 256) (k : Fin 8192) : EReal :=
  (∑ jj : Fin 256, (x0 (ix2 p jj) : EReal) * (x1 (ix2 k jj) : EReal)) + (x3 (ix2 (0 : Fin 1) k) : EReal)

/-- One tile of scores at `(p, q)` from the X block, a tile of candidates and a tile of intercepts. -/
def tileScore (v0 : Vec Ideal S256x256 .f32) (v1 : Vec Ideal S1024x256 .f32) (v4 : Vec Ideal S1x1024 .f32)
    (p : Fin 256) (q : Fin 1024) : EReal :=
  (∑ jj : Fin 256, (v0 (ix2 p jj) : EReal) * (v1 (ix2 q jj) : EReal)) + (v4 (ix2 (0 : Fin 1) q) : EReal)

/-! ## The tile-of-scores payloads -/

/-! The dot's operand indices: it contracts axis 1 of the X block with axis 1 of the tile of candidates, and has no
    batch axes. -/
theorem dotS_lhs0 (i : S256x1024.Idx) (k : dot_S256x256_S1024x256_S256x1024_1_1_0_0_n_n.contr.Idx) :
    (dot_S256x256_S1024x256_S256x1024_1_1_0_0_n_n.lhsIdx i k 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem dotS_lhs1 (i : S256x1024.Idx) (k : dot_S256x256_S1024x256_S256x1024_1_1_0_0_n_n.contr.Idx) :
    (dot_S256x256_S1024x256_S256x1024_1_1_0_0_n_n.lhsIdx i k 1).val = (k ⟨0, by decide⟩).val :=
  dot_S256x256_S1024x256_S256x1024_1_1_0_0_n_n.lhsIdx_val_of_single rfl i k
theorem dotS_rhs0 (i : S256x1024.Idx) (k : dot_S256x256_S1024x256_S256x1024_1_1_0_0_n_n.contr.Idx) :
    (dot_S256x256_S1024x256_S256x1024_1_1_0_0_n_n.rhsIdx i k 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem dotS_rhs1 (i : S256x1024.Idx) (k : dot_S256x256_S1024x256_S256x1024_1_1_0_0_n_n.contr.Idx) :
    (dot_S256x256_S1024x256_S256x1024_1_1_0_0_n_n.rhsIdx i k 1).val = (k ⟨0, by decide⟩).val :=
  dot_S256x256_S1024x256_S256x1024_1_1_0_0_n_n.rhsIdx_val_of_single rfl i k

/-- The product of the X block with a tile of candidates at `(p, q)`: the sum over the 256 features. -/
theorem tileDot_apply (v0 : FVec Ideal S256x256 .f32) (v1 : FVec Ideal S1024x256 .f32) (p : Fin 256) (q : Fin 1024) :
    (matmul (F := Ideal) dot_S256x256_S1024x256_S256x1024_1_1_0_0_n_n none v0 (shapeCast S1024x256 v1 shapeCasts_S1024x256_S1024x256)
        (constant S256x1024 .f32 0x00000000#32) (ix2 p q) : EReal)
      = ∑ jj : Fin 256, (v0 (ix2 p jj) : EReal) * (v1 (ix2 q jj) : EReal) := by
  rw [shapeCast_self]
  refine (Ideal.matmul_constant_zero_apply dot_S256x256_S1024x256_S256x1024_1_1_0_0_n_n none v0 v1 (ix2 p q)).trans ?_
  rw [← Equiv.sum_comp (contrEquiv1 dot_S256x256_S1024x256_S256x1024_1_1_0_0_n_n 256 rfl rfl).symm]
  refine Finset.sum_congr rfl fun k _ => ?_
  have hk := contrEquiv1_symm_val dot_S256x256_S1024x256_S256x1024_1_1_0_0_n_n 256 rfl rfl k
  have el : dot_S256x256_S1024x256_S256x1024_1_1_0_0_n_n.lhsIdx (ix2 p q) ((contrEquiv1 dot_S256x256_S1024x256_S256x1024_1_1_0_0_n_n 256 rfl rfl).symm k) = ix2 p k := funext fun a => Fin.ext (by
    match a with
    | ⟨0, _⟩ => exact dotS_lhs0 _ _
    | ⟨1, _⟩ => exact (dotS_lhs1 _ _).trans hk)
  have er : dot_S256x256_S1024x256_S256x1024_1_1_0_0_n_n.rhsIdx (ix2 p q) ((contrEquiv1 dot_S256x256_S1024x256_S256x1024_1_1_0_0_n_n 256 rfl rfl).symm k) = ix2 q k := funext fun a => Fin.ext (by
    match a with
    | ⟨0, _⟩ => exact dotS_rhs0 _ _
    | ⟨1, _⟩ => exact (dotS_rhs1 _ _).trans hk)
  rw [el, er]

/-- The product plus the tile of intercepts broadcast down the rows is the tile of scores. -/
theorem tileScore_apply (v0 : FVec Ideal S256x256 .f32) (v1 : FVec Ideal S1024x256 .f32) (v4 : FVec Ideal S1x1024 .f32) (p : Fin 256) (q : Fin 1024) :
    (addf (F := Ideal) (matmul dot_S256x256_S1024x256_S256x1024_1_1_0_0_n_n none v0 (shapeCast S1024x256 v1 shapeCasts_S1024x256_S1024x256)
        (constant S256x1024 .f32 0x00000000#32)) (broadcastTo S256x1024 v4 broadcasts_S1x1024_S256x1024) (ix2 p q) : EReal)
      = tileScore v0 v1 v4 p q := by
  rw [addf_apply, tileDot_apply, broadcastTo_1b_ab_apply]
  rfl

theorem pay4_apply (v0 : Vec Ideal S256x256 .f32) (v1 : Vec Ideal S1024x256 .f32) (v4 : Vec Ideal S1x1024 .f32) (p : Fin 256) (q : Fin 1024) :
    (k0_pay4 (F := Ideal) v0 v1 v4 (ix2 p q) : EReal) = tileScore v0 v1 v4 p q := by
  unfold k0_pay4; exact tileScore_apply v0 v1 v4 p q
theorem pay6_apply (v0 : Vec Ideal S256x256 .f32) (v14 : Vec Ideal S1024x256 .f32) (v17 : Vec Ideal S1x1024 .f32) (p : Fin 256) (q : Fin 1024) :
    (k0_pay6 (F := Ideal) v0 v14 v17 (ix2 p q) : EReal) = tileScore v0 v14 v17 p q := by
  unfold k0_pay6; exact tileScore_apply v0 v14 v17 p q
theorem pay13_apply (v0 : Vec Ideal S256x256 .f32) (v44 : Vec Ideal S1024x256 .f32) (v47 : Vec Ideal S1x1024 .f32) (p : Fin 256) (q : Fin 1024) :
    (k0_pay13 (F := Ideal) v0 v44 v47 (ix2 p q) : EReal) = tileScore v0 v44 v47 p q := by
  unfold k0_pay13; exact tileScore_apply v0 v44 v47 p q
theorem pay17_apply (v0 : Vec Ideal S256x256 .f32) (v59 : Vec Ideal S1024x256 .f32) (v62 : Vec Ideal S1x1024 .f32) (p : Fin 256) (q : Fin 1024) :
    (k0_pay17 (F := Ideal) v0 v59 v62 (ix2 p q) : EReal) = tileScore v0 v59 v62 p q := by
  unfold k0_pay17; exact tileScore_apply v0 v59 v62 p q
theorem pay19_apply (v0 : Vec Ideal S256x256 .f32) (v74 : Vec Ideal S1024x256 .f32) (v77 : Vec Ideal S1x1024 .f32) (p : Fin 256) (q : Fin 1024) :
    (k0_pay19 (F := Ideal) v0 v74 v77 (ix2 p q) : EReal) = tileScore v0 v74 v77 p q := by
  unfold k0_pay19; exact tileScore_apply v0 v74 v77 p q
theorem pay21_apply (v0 : Vec Ideal S256x256 .f32) (v89 : Vec Ideal S1024x256 .f32) (v92 : Vec Ideal S1x1024 .f32) (p : Fin 256) (q : Fin 1024) :
    (k0_pay21 (F := Ideal) v0 v89 v92 (ix2 p q) : EReal) = tileScore v0 v89 v92 p q := by
  unfold k0_pay21; exact tileScore_apply v0 v89 v92 p q
theorem pay25_apply (v0 : Vec Ideal S256x256 .f32) (v104 : Vec Ideal S1024x256 .f32) (v107 : Vec Ideal S1x1024 .f32) (p : Fin 256) (q : Fin 1024) :
    (k0_pay25 (F := Ideal) v0 v104 v107 (ix2 p q) : EReal) = tileScore v0 v104 v107 p q := by
  unfold k0_pay25; exact tileScore_apply v0 v104 v107 p q
/-- Tile 2's scores are computed in two steps (the product, then the intercepts). -/
theorem pay11_apply (v0 : Vec Ideal S256x256 .f32) (v29 : Vec Ideal S1024x256 .f32) (v32 : Vec Ideal S1x1024 .f32) (p : Fin 256) (q : Fin 1024) :
    (k0_pay11 (F := Ideal) (k0_pay10 v0 v29) v32 (ix2 p q) : EReal) = tileScore v0 v29 v32 p q := by
  unfold k0_pay11 k0_pay10; exact tileScore_apply v0 v29 v32 p q

/-! ## The loads -/

/-- A load of 1024 rows from row `o` of an `8192 × 256` array held whole reads, at `(q, jj)`, the array's entry
    `(o + q, jj)`. -/
theorem loadRows_apply {e : EltTy} (m : Memref sig .tc .vmem S8192x256 e) (h : m.IsWhole) (X : S8192x256.Idx → Elt Ideal e)
    (o : ℕ) (inb : ∀ a, (![o, 0] : Fin 2 → ℕ) a + S1024x256.size a ≤ S8192x256.size a) (q : Fin 1024) (jj : Fin 256)
    (k : Fin 8192) (hk : k.val = o + q.val) :
    View.readAt (Elt Ideal) m.view (Rect.unit (s := S8192x256) ![o, 0] S1024x256.size inb).toLoadRect (h.unread X) (ix2 q jj)
      = X (ix2 k jj) := by
  refine (h.readAt_unread X _ _).trans (congrArg X (funext fun a => Fin.ext ?_))
  match a with
  | ⟨0, _⟩ => show o + 1 * q.val = k.val; omega
  | ⟨1, _⟩ => show 0 + 1 * jj.val = jj.val; omega

/-- A load of 1024 columns from column `o` of a `1 × 8192` array held whole reads, at `(0, q)`, the array's entry
    `(0, o + q)`. -/
theorem loadCols_apply {e : EltTy} (m : Memref sig .tc .vmem S1x8192 e) (h : m.IsWhole) (X : S1x8192.Idx → Elt Ideal e)
    (o : ℕ) (inb : ∀ a, (![0, o] : Fin 2 → ℕ) a + S1x1024.size a ≤ S1x8192.size a) (q : Fin 1024)
    (k : Fin 8192) (hk : k.val = o + q.val) :
    View.readAt (Elt Ideal) m.view (Rect.unit (s := S1x8192) ![0, o] S1x1024.size inb).toLoadRect (h.unread X) (ix2 (0 : Fin 1) q)
      = X (ix2 (0 : Fin 1) k) := by
  refine (h.readAt_unread X _ _).trans (congrArg X (funext fun a => Fin.ext ?_))
  match a with
  | ⟨0, _⟩ => rfl
  | ⟨1, _⟩ => show o + 1 * q.val = k.val; omega

section

variable (c : Dev nD) (i : grid0.Coords)
  (arg1 : Memref sig .tc .vmem S256x256 .f32) (harg1 : arg1.IsWhole)
  (arg2 : Memref sig .tc .vmem S8192x256 .f32) (harg2 : arg2.IsWhole)
  (arg3 : Memref sig .tc .vmem S8192x256 .bf16) (harg3 : arg3.IsWhole)
  (arg4 : Memref sig .tc .vmem S1x8192 .f32) (harg4 : arg4.IsWhole)
  (arg5 : Memref sig .tc .vmem S256x256 .f32) (harg5 : arg5.IsWhole)
  (arg6 : Memref sig .tc .vmem S256x1 .f32) (harg6 : arg6.IsWhole)
  (arg7 : Memref sig .tc .vmem S256x8192 .f32) (harg7 : arg7.IsWhole)
  (x0 : Vec Ideal S256x256 .f32) (x1 : Vec Ideal S8192x256 .f32) (x2 : Vec Ideal S8192x256 .bf16) (x3 : Vec Ideal S1x8192 .f32)

/-- The X block is loaded whole. -/
theorem loadX_apply (p jj : Fin 256) :
    (View.readAt (Elt Ideal) arg1.view (Rect.unit (s := S256x256) ![0, 0] S256x256.size inb_S256x256_S256x256_0_0).toLoadRect (harg1.unread x0) (ix2 p jj) : EReal)
      = x0 (ix2 p jj) := by
  refine (harg1.readAt_unread x0 _ _).trans (congrArg x0 (funext fun a => Fin.ext ?_))
  match a with
  | ⟨0, _⟩ => show 0 + 1 * p.val = p.val; omega
  | ⟨1, _⟩ => show 0 + 1 * jj.val = jj.val; omega

/-! Tile `t` of the candidates: rows `1024 t …` of `x1`. -/
theorem loadY0_apply (q : Fin 1024) (jj : Fin 256) :
    (View.readAt (Elt Ideal) arg2.view (Rect.unit (s := S8192x256) ![0, 0] S1024x256.size inb_S8192x256_S1024x256_0_0).toLoadRect (harg2.unread x1) (ix2 q jj) : EReal)
      = x1 (ix2 (tk 0 q) jj) := by
  exact loadRows_apply arg2 harg2 x1 0 _ q jj (tk 0 q) (by simp [tk])
theorem loadY1_apply (q : Fin 1024) (jj : Fin 256) :
    (View.readAt (Elt Ideal) arg2.view (Rect.unit (s := S8192x256) ![1024, 0] S1024x256.size inb_S8192x256_S1024x256_1024_0).toLoadRect (harg2.unread x1) (ix2 q jj) : EReal)
      = x1 (ix2 (tk 1 q) jj) := by
  exact loadRows_apply arg2 harg2 x1 1024 _ q jj (tk 1 q) rfl
theorem loadY2_apply (q : Fin 1024) (jj : Fin 256) :
    (View.readAt (Elt Ideal) arg2.view (Rect.unit (s := S8192x256) ![2048, 0] S1024x256.size inb_S8192x256_S1024x256_2048_0).toLoadRect (harg2.unread x1) (ix2 q jj) : EReal)
      = x1 (ix2 (tk 2 q) jj) := by
  exact loadRows_apply arg2 harg2 x1 2048 _ q jj (tk 2 q) rfl
theorem loadY3_apply (q : Fin 1024) (jj : Fin 256) :
    (View.readAt (Elt Ideal) arg2.view (Rect.unit (s := S8192x256) ![3072, 0] S1024x256.size inb_S8192x256_S1024x256_3072_0).toLoadRect (harg2.unread x1) (ix2 q jj) : EReal)
      = x1 (ix2 (tk 3 q) jj) := by
  exact loadRows_apply arg2 harg2 x1 3072 _ q jj (tk 3 q) rfl
theorem loadY4_apply (q : Fin 1024) (jj : Fin 256) :
    (View.readAt (Elt Ideal) arg2.view (Rect.unit (s := S8192x256) ![4096, 0] S1024x256.size inb_S8192x256_S1024x256_4096_0).toLoadRect (harg2.unread x1) (ix2 q jj) : EReal)
      = x1 (ix2 (tk 4 q) jj) := by
  exact loadRows_apply arg2 harg2 x1 4096 _ q jj (tk 4 q) rfl
theorem loadY5_apply (q : Fin 1024) (jj : Fin 256) :
    (View.readAt (Elt Ideal) arg2.view (Rect.unit (s := S8192x256) ![5120, 0] S1024x256.size inb_S8192x256_S1024x256_5120_0).toLoadRect (harg2.unread x1) (ix2 q jj) : EReal)
      = x1 (ix2 (tk 5 q) jj) := by
  exact loadRows_apply arg2 harg2 x1 5120 _ q jj (tk 5 q) rfl
theorem loadY6_apply (q : Fin 1024) (jj : Fin 256) :
    (View.readAt (Elt Ideal) arg2.view (Rect.unit (s := S8192x256) ![6144, 0] S1024x256.size inb_S8192x256_S1024x256_6144_0).toLoadRect (harg2.unread x1) (ix2 q jj) : EReal)
      = x1 (ix2 (tk 6 q) jj) := by
  exact loadRows_apply arg2 harg2 x1 6144 _ q jj (tk 6 q) rfl
theorem loadY7_apply (q : Fin 1024) (jj : Fin 256) :
    (View.readAt (Elt Ideal) arg2.view (Rect.unit (s := S8192x256) ![7168, 0] S1024x256.size inb_S8192x256_S1024x256_7168_0).toLoadRect (harg2.unread x1) (ix2 q jj) : EReal)
      = x1 (ix2 (tk 7 q) jj) := by
  exact loadRows_apply arg2 harg2 x1 7168 _ q jj (tk 7 q) rfl

/-! Tile `t` of the intercepts: columns `1024 t …` of `x3`. -/
theorem loadB0_apply (q : Fin 1024) :
    (View.readAt (Elt Ideal) arg4.view (Rect.unit (s := S1x8192) ![0, 0] S1x1024.size inb_S1x8192_S1x1024_0_0).toLoadRect (harg4.unread x3) (ix2 (0 : Fin 1) q) : EReal)
      = x3 (ix2 (0 : Fin 1) (tk 0 q)) := by
  exact loadCols_apply arg4 harg4 x3 0 _ q (tk 0 q) (by simp [tk])
theorem loadB1_apply (q : Fin 1024) :
    (View.readAt (Elt Ideal) arg4.view (Rect.unit (s := S1x8192) ![0, 1024] S1x1024.size inb_S1x8192_S1x1024_0_1024).toLoadRect (harg4.unread x3) (ix2 (0 : Fin 1) q) : EReal)
      = x3 (ix2 (0 : Fin 1) (tk 1 q)) := by
  exact loadCols_apply arg4 harg4 x3 1024 _ q (tk 1 q) rfl
theorem loadB2_apply (q : Fin 1024) :
    (View.readAt (Elt Ideal) arg4.view (Rect.unit (s := S1x8192) ![0, 2048] S1x1024.size inb_S1x8192_S1x1024_0_2048).toLoadRect (harg4.unread x3) (ix2 (0 : Fin 1) q) : EReal)
      = x3 (ix2 (0 : Fin 1) (tk 2 q)) := by
  exact loadCols_apply arg4 harg4 x3 2048 _ q (tk 2 q) rfl
theorem loadB3_apply (q : Fin 1024) :
    (View.readAt (Elt Ideal) arg4.view (Rect.unit (s := S1x8192) ![0, 3072] S1x1024.size inb_S1x8192_S1x1024_0_3072).toLoadRect (harg4.unread x3) (ix2 (0 : Fin 1) q) : EReal)
      = x3 (ix2 (0 : Fin 1) (tk 3 q)) := by
  exact loadCols_apply arg4 harg4 x3 3072 _ q (tk 3 q) rfl
theorem loadB4_apply (q : Fin 1024) :
    (View.readAt (Elt Ideal) arg4.view (Rect.unit (s := S1x8192) ![0, 4096] S1x1024.size inb_S1x8192_S1x1024_0_4096).toLoadRect (harg4.unread x3) (ix2 (0 : Fin 1) q) : EReal)
      = x3 (ix2 (0 : Fin 1) (tk 4 q)) := by
  exact loadCols_apply arg4 harg4 x3 4096 _ q (tk 4 q) rfl
theorem loadB5_apply (q : Fin 1024) :
    (View.readAt (Elt Ideal) arg4.view (Rect.unit (s := S1x8192) ![0, 5120] S1x1024.size inb_S1x8192_S1x1024_0_5120).toLoadRect (harg4.unread x3) (ix2 (0 : Fin 1) q) : EReal)
      = x3 (ix2 (0 : Fin 1) (tk 5 q)) := by
  exact loadCols_apply arg4 harg4 x3 5120 _ q (tk 5 q) rfl
theorem loadB6_apply (q : Fin 1024) :
    (View.readAt (Elt Ideal) arg4.view (Rect.unit (s := S1x8192) ![0, 6144] S1x1024.size inb_S1x8192_S1x1024_0_6144).toLoadRect (harg4.unread x3) (ix2 (0 : Fin 1) q) : EReal)
      = x3 (ix2 (0 : Fin 1) (tk 6 q)) := by
  exact loadCols_apply arg4 harg4 x3 6144 _ q (tk 6 q) rfl
theorem loadB7_apply (q : Fin 1024) :
    (View.readAt (Elt Ideal) arg4.view (Rect.unit (s := S1x8192) ![0, 7168] S1x1024.size inb_S1x8192_S1x1024_0_7168).toLoadRect (harg4.unread x3) (ix2 (0 : Fin 1) q) : EReal)
      = x3 (ix2 (0 : Fin 1) (tk 7 q)) := by
  exact loadCols_apply arg4 harg4 x3 7168 _ q (tk 7 q) rfl

/-! Tile `t` of the narrowed candidates: rows `1024 t …` of `x2`. -/
theorem loadYh0_apply (q : Fin 1024) (j : Fin 256) :
    (View.readAt (Elt Ideal) arg3.view (Rect.unit (s := S8192x256) ![0, 0] S1024x256.size inb_S8192x256_S1024x256_0_0).toLoadRect (harg3.unread x2) (ix2 q j) : EReal)
      = x2 (ix2 (tk 0 q) j) := by
  exact loadRows_apply arg3 harg3 x2 0 _ q j (tk 0 q) (by simp [tk])
theorem loadYh1_apply (q : Fin 1024) (j : Fin 256) :
    (View.readAt (Elt Ideal) arg3.view (Rect.unit (s := S8192x256) ![1024, 0] S1024x256.size inb_S8192x256_S1024x256_1024_0).toLoadRect (harg3.unread x2) (ix2 q j) : EReal)
      = x2 (ix2 (tk 1 q) j) := by
  exact loadRows_apply arg3 harg3 x2 1024 _ q j (tk 1 q) rfl
theorem loadYh2_apply (q : Fin 1024) (j : Fin 256) :
    (View.readAt (Elt Ideal) arg3.view (Rect.unit (s := S8192x256) ![2048, 0] S1024x256.size inb_S8192x256_S1024x256_2048_0).toLoadRect (harg3.unread x2) (ix2 q j) : EReal)
      = x2 (ix2 (tk 2 q) j) := by
  exact loadRows_apply arg3 harg3 x2 2048 _ q j (tk 2 q) rfl
theorem loadYh3_apply (q : Fin 1024) (j : Fin 256) :
    (View.readAt (Elt Ideal) arg3.view (Rect.unit (s := S8192x256) ![3072, 0] S1024x256.size inb_S8192x256_S1024x256_3072_0).toLoadRect (harg3.unread x2) (ix2 q j) : EReal)
      = x2 (ix2 (tk 3 q) j) := by
  exact loadRows_apply arg3 harg3 x2 3072 _ q j (tk 3 q) rfl
theorem loadYh4_apply (q : Fin 1024) (j : Fin 256) :
    (View.readAt (Elt Ideal) arg3.view (Rect.unit (s := S8192x256) ![4096, 0] S1024x256.size inb_S8192x256_S1024x256_4096_0).toLoadRect (harg3.unread x2) (ix2 q j) : EReal)
      = x2 (ix2 (tk 4 q) j) := by
  exact loadRows_apply arg3 harg3 x2 4096 _ q j (tk 4 q) rfl
theorem loadYh5_apply (q : Fin 1024) (j : Fin 256) :
    (View.readAt (Elt Ideal) arg3.view (Rect.unit (s := S8192x256) ![5120, 0] S1024x256.size inb_S8192x256_S1024x256_5120_0).toLoadRect (harg3.unread x2) (ix2 q j) : EReal)
      = x2 (ix2 (tk 5 q) j) := by
  exact loadRows_apply arg3 harg3 x2 5120 _ q j (tk 5 q) rfl
theorem loadYh6_apply (q : Fin 1024) (j : Fin 256) :
    (View.readAt (Elt Ideal) arg3.view (Rect.unit (s := S8192x256) ![6144, 0] S1024x256.size inb_S8192x256_S1024x256_6144_0).toLoadRect (harg3.unread x2) (ix2 q j) : EReal)
      = x2 (ix2 (tk 6 q) j) := by
  exact loadRows_apply arg3 harg3 x2 6144 _ q j (tk 6 q) rfl
theorem loadYh7_apply (q : Fin 1024) (j : Fin 256) :
    (View.readAt (Elt Ideal) arg3.view (Rect.unit (s := S8192x256) ![7168, 0] S1024x256.size inb_S8192x256_S1024x256_7168_0).toLoadRect (harg3.unread x2) (ix2 q j) : EReal)
      = x2 (ix2 (tk 7 q) j) := by
  exact loadRows_apply arg3 harg3 x2 7168 _ q j (tk 7 q) rfl

end

end Cert.Fcm.K

end
-- ==== Proof.KScore.lean ====
/-
  The scores a grid point's body parks in its scratch, read back at the ideal values.

  The body writes the eight tiles of scores side by side into one 256 × 8192 scratch and later reads each
  tile back through the same rectangle. What it reads at `(p, q)` of tile `t` is the block's score of row `p`
  against candidate `1024 t + q`: all eight stored tiles are restrictions of one function of the scratch's
  index, so a read anywhere the tiles cover returns that function.
-/
import proofs.«168320_g88089779241353_cont_9to1c4b_404_5_alg».proof.Proof.KBase

set_option maxRecDepth 16384

noncomputable section

namespace Cert.Fcm.K

open Cert.KernelIdeal Cert.KernelIdeal.Gen Cert.Fcm
open Idealize.ShloMosaic Idealize.ShloMosaic.ValueIdx Idealize.ShloMosaic.TcCoe

section

variable (c : Dev nD) (i : grid0.Coords)
  (arg1 : Memref sig .tc .vmem S256x256 .f32) (harg1 : arg1.IsWhole)
  (arg2 : Memref sig .tc .vmem S8192x256 .f32) (harg2 : arg2.IsWhole)
  (arg3 : Memref sig .tc .vmem S8192x256 .bf16) (harg3 : arg3.IsWhole)
  (arg4 : Memref sig .tc .vmem S1x8192 .f32) (harg4 : arg4.IsWhole)
  (arg5 : Memref sig .tc .vmem S256x256 .f32) (harg5 : arg5.IsWhole)
  (arg6 : Memref sig .tc .vmem S256x1 .f32) (harg6 : arg6.IsWhole)
  (arg7 : Memref sig .tc .vmem S256x8192 .f32) (harg7 : arg7.IsWhole)
  (x0 : Vec Ideal S256x256 .f32) (x1 : Vec Ideal S8192x256 .f32) (x2 : Vec Ideal S8192x256 .bf16) (x3 : Vec Ideal S1x8192 .f32)

/-- The block's scores as ONE function of the scratch's index: at `(p, k)` the score of row `p` against candidate `k`. -/
def scoreG (y : S256x8192.Idx) : EReal :=
  sb x0 x1 x3 ⟨(y 0).val, idx2_lt0 y⟩ ⟨(y 1).val, idx2_lt1 y⟩

/-- That function at entry `(p, q)` of the rectangle of tile `t` (256 rows from row 0, 1024 columns from column `1024 t`). -/
theorem scoreG_idx (t : Fin 8) (off : Fin 2 → ℕ) (h0 : off 0 = 0) (h1 : off 1 = 1024 * t.val)
    (inb : ∀ a, off a + S256x1024.size a ≤ S256x8192.size a) (p : Fin 256) (q : Fin 1024) :
    scoreG x0 x1 x3 ((Rect.unit (s := S256x8192) off S256x1024.size inb).toLoadRect.idx (ix2 p q))
      = sb x0 x1 x3 p (tk t q) := by
  unfold scoreG
  have e0 : (⟨(((Rect.unit (s := S256x8192) off S256x1024.size inb).toLoadRect.idx (ix2 p q)) 0).val,
      idx2_lt0 _⟩ : Fin 256) = p := by
    apply Fin.ext
    show off 0 + 1 * p.val = p.val
    omega
  have e1 : (⟨(((Rect.unit (s := S256x8192) off S256x1024.size inb).toLoadRect.idx (ix2 p q)) 1).val,
      idx2_lt1 _⟩ : Fin 8192) = tk t q := by
    apply Fin.ext
    show off 1 + 1 * q.val = 1024 * t.val + q.val
    omega
  rw [e0, e1]

/-- A piece stored through tile `t`'s rectangle whose payload at `(p, q)` is the score of row `p` against candidate `q` of
    the tile is that function restricted to the rectangle. -/
theorem piece_restrict (t : Fin 8) (off : Fin 2 → ℕ) (h0 : off 0 = 0) (h1 : off 1 = 1024 * t.val)
    (inb : ∀ a, off a + S256x1024.size a ≤ S256x8192.size a) (w : S256x1024.Idx → EReal)
    (hw : ∀ (p : Fin 256) (q : Fin 1024), w (ix2 p q) = sb x0 x1 x3 p (tk t q)) (x : S256x1024.Idx) :
    w x = scoreG x0 x1 x3 ((Rect.unit (s := S256x8192) off S256x1024.size inb).emb x) := by
  obtain ⟨p, q, rfl⟩ : ∃ p q, x = ix2 p q := ⟨x 0, x 1, eq_ix2 x⟩
  rw [hw]
  exact (scoreG_idx x0 x1 x3 t off h0 h1 inb p q).symm

/-- A tile of scores over loads that read the X block, tile `t` of the candidates and tile `t` of the intercepts is
    tile `t` of the block's scores. -/
theorem tileScore_loads (t : Fin 8) (v0 : Vec Ideal S256x256 .f32) (v1 : Vec Ideal S1024x256 .f32)
    (v4 : Vec Ideal S1x1024 .f32)
    (hX : ∀ p jj : Fin 256, (v0 (ix2 p jj) : EReal) = x0 (ix2 p jj))
    (hY : ∀ (q : Fin 1024) (jj : Fin 256), (v1 (ix2 q jj) : EReal) = x1 (ix2 (tk t q) jj))
    (hB : ∀ q : Fin 1024, (v4 (ix2 (0 : Fin 1) q) : EReal) = x3 (ix2 (0 : Fin 1) (tk t q)))
    (p : Fin 256) (q : Fin 1024) : tileScore v0 v1 v4 p q = sb x0 x1 x3 p (tk t q) := by
  unfold tileScore sb
  rw [hB q]
  congr 1
  exact Finset.sum_congr rfl fun jj _ => by rw [hX p jj, hY q jj]

/-! ## The eight stored payloads at an entry -/

/-- The payload stored through tile 0's rectangle, at `(p, q)`. -/
theorem store0_apply (p : Fin 256) (q : Fin 1024) :
    (k0_pay5 (F := Ideal)
      (View.readAt (Elt Ideal) arg1.view (Rect.unit (s := S256x256) ![0, 0] S256x256.size inb_S256x256_S256x256_0_0).toLoadRect (harg1.unread x0))
      (View.readAt (Elt Ideal) arg2.view (Rect.unit (s := S8192x256) ![0, 0] S1024x256.size inb_S8192x256_S1024x256_0_0).toLoadRect (harg2.unread x1))
      (View.readAt (Elt Ideal) arg4.view (Rect.unit (s := S1x8192) ![0, 0] S1x1024.size inb_S1x8192_S1x1024_0_0).toLoadRect (harg4.unread x3))
      (ix2 p q) : EReal) = sb x0 x1 x3 p (tk 0 q) := by
  unfold k0_pay5
  rw [shapeCast_self]
  exact (pay4_apply _ _ _ p q).trans (tileScore_loads x0 x1 x3 0 _ _ _
    (loadX_apply arg1 harg1 x0) (loadY0_apply arg2 harg2 x1) (loadB0_apply arg4 harg4 x3) p q)

/-- The payload stored through tile 1's rectangle, at `(p, q)`. -/
theorem store1_apply (p : Fin 256) (q : Fin 1024) :
    (k0_pay7 (F := Ideal)
      (View.readAt (Elt Ideal) arg1.view (Rect.unit (s := S256x256) ![0, 0] S256x256.size inb_S256x256_S256x256_0_0).toLoadRect (harg1.unread x0))
      (View.readAt (Elt Ideal) arg2.view (Rect.unit (s := S8192x256) ![1024, 0] S1024x256.size inb_S8192x256_S1024x256_1024_0).toLoadRect (harg2.unread x1))
      (View.readAt (Elt Ideal) arg4.view (Rect.unit (s := S1x8192) ![0, 1024] S1x1024.size inb_S1x8192_S1x1024_0_1024).toLoadRect (harg4.unread x3))
      (ix2 p q) : EReal) = sb x0 x1 x3 p (tk 1 q) := by
  unfold k0_pay7
  rw [shapeCast_self]
  exact (pay6_apply _ _ _ p q).trans (tileScore_loads x0 x1 x3 1 _ _ _
    (loadX_apply arg1 harg1 x0) (loadY1_apply arg2 harg2 x1) (loadB1_apply arg4 harg4 x3) p q)

/-- The payload stored through tile 2's rectangle, at `(p, q)`. -/
theorem store2_apply (p : Fin 256) (q : Fin 1024) :
    (k0_pay12 (F := Ideal)
      (kernelRun0_A.sl.r_3 (F := Ideal) c arg1 harg1 arg2 harg2 x0 x1)
      (View.readAt (Elt Ideal) arg4.view (Rect.unit (s := S1x8192) ![0, 2048] S1x1024.size inb_S1x8192_S1x1024_0_2048).toLoadRect (harg4.unread x3))
      (ix2 p q) : EReal) = sb x0 x1 x3 p (tk 2 q) := by
  unfold k0_pay12 kernelRun0_A.sl.r_3
  rw [shapeCast_self]
  exact (pay11_apply _ _ _ p q).trans (tileScore_loads x0 x1 x3 2 _ _ _
    (loadX_apply arg1 harg1 x0) (loadY2_apply arg2 harg2 x1) (loadB2_apply arg4 harg4 x3) p q)

/-- The payload stored through tile 3's rectangle, at `(p, q)`. -/
theorem store3_apply (p : Fin 256) (q : Fin 1024) :
    (k0_pay14 (F := Ideal)
      (kernelRun0_A.sl.r (F := Ideal) c arg1 harg1 x0)
      (View.readAt (Elt Ideal) arg2.view (Rect.unit (s := S8192x256) ![3072, 0] S1024x256.size inb_S8192x256_S1024x256_3072_0).toLoadRect (harg2.unread x1))
      (View.readAt (Elt Ideal) arg4.view (Rect.unit (s := S1x8192) ![0, 3072] S1x1024.size inb_S1x8192_S1x1024_0_3072).toLoadRect (harg4.unread x3))
      (ix2 p q) : EReal) = sb x0 x1 x3 p (tk 3 q) := by
  unfold k0_pay14 kernelRun0_A.sl.r
  rw [shapeCast_self]
  exact (pay13_apply _ _ _ p q).trans (tileScore_loads x0 x1 x3 3 _ _ _
    (loadX_apply arg1 harg1 x0) (loadY3_apply arg2 harg2 x1) (loadB3_apply arg4 harg4 x3) p q)

/-- The payload stored through tile 4's rectangle, at `(p, q)`. -/
theorem store4_apply (p : Fin 256) (q : Fin 1024) :
    (k0_pay18 (F := Ideal)
      (kernelRun0_A.sl.r (F := Ideal) c arg1 harg1 x0)
      (View.readAt (Elt Ideal) arg2.view (Rect.unit (s := S8192x256) ![4096, 0] S1024x256.size inb_S8192x256_S1024x256_4096_0).toLoadRect (harg2.unread x1))
      (View.readAt (Elt Ideal) arg4.view (Rect.unit (s := S1x8192) ![0, 4096] S1x1024.size inb_S1x8192_S1x1024_0_4096).toLoadRect (harg4.unread x3))
      (ix2 p q) : EReal) = sb x0 x1 x3 p (tk 4 q) := by
  unfold k0_pay18 kernelRun0_A.sl.r
  rw [shapeCast_self]
  exact (pay17_apply _ _ _ p q).trans (tileScore_loads x0 x1 x3 4 _ _ _
    (loadX_apply arg1 harg1 x0) (loadY4_apply arg2 harg2 x1) (loadB4_apply arg4 harg4 x3) p q)

/-- The payload stored through tile 5's rectangle, at `(p, q)`. -/
theorem store5_apply (p : Fin 256) (q : Fin 1024) :
    (k0_pay20 (F := Ideal)
      (kernelRun0_A.sl.r (F := Ideal) c arg1 harg1 x0)
      (View.readAt (Elt Ideal) arg2.view (Rect.unit (s := S8192x256) ![5120, 0] S1024x256.size inb_S8192x256_S1024x256_5120_0).toLoadRect (harg2.unread x1))
      (View.readAt (Elt Ideal) arg4.view (Rect.unit (s := S1x8192) ![0, 5120] S1x1024.size inb_S1x8192_S1x1024_0_5120).toLoadRect (harg4.unread x3))
      (ix2 p q) : EReal) = sb x0 x1 x3 p (tk 5 q) := by
  unfold k0_pay20 kernelRun0_A.sl.r
  rw [shapeCast_self]
  exact (pay19_apply _ _ _ p q).trans (tileScore_loads x0 x1 x3 5 _ _ _
    (loadX_apply arg1 harg1 x0) (loadY5_apply arg2 harg2 x1) (loadB5_apply arg4 harg4 x3) p q)

/-- The payload stored through tile 6's rectangle, at `(p, q)`. -/
theorem store6_apply (p : Fin 256) (q : Fin 1024) :
    (k0_pay22 (F := Ideal)
      (kernelRun0_A.sl.r (F := Ideal) c arg1 harg1 x0)
      (View.readAt (Elt Ideal) arg2.view (Rect.unit (s := S8192x256) ![6144, 0] S1024x256.size inb_S8192x256_S1024x256_6144_0).toLoadRect (harg2.unread x1))
      (View.readAt (Elt Ideal) arg4.view (Rect.unit (s := S1x8192) ![0, 6144] S1x1024.size inb_S1x8192_S1x1024_0_6144).toLoadRect (harg4.unread x3))
      (ix2 p q) : EReal) = sb x0 x1 x3 p (tk 6 q) := by
  unfold k0_pay22 kernelRun0_A.sl.r
  rw [shapeCast_self]
  exact (pay21_apply _ _ _ p q).trans (tileScore_loads x0 x1 x3 6 _ _ _
    (loadX_apply arg1 harg1 x0) (loadY6_apply arg2 harg2 x1) (loadB6_apply arg4 harg4 x3) p q)

/-- The payload stored through tile 7's rectangle, at `(p, q)`. -/
theorem store7_apply (p : Fin 256) (q : Fin 1024) :
    (k0_pay26 (F := Ideal)
      (kernelRun0_A.sl.r (F := Ideal) c arg1 harg1 x0)
      (kernelRun0_A.sl.r_9 (F := Ideal) c arg2 harg2 x1)
      (View.readAt (Elt Ideal) arg4.view (Rect.unit (s := S1x8192) ![0, 7168] S1x1024.size inb_S1x8192_S1x1024_0_7168).toLoadRect (harg4.unread x3))
      (ix2 p q) : EReal) = sb x0 x1 x3 p (tk 7 q) := by
  unfold k0_pay26 kernelRun0_A.sl.r kernelRun0_A.sl.r_9
  rw [shapeCast_self]
  exact (pay25_apply _ _ _ p q).trans (tileScore_loads x0 x1 x3 7 _ _ _
    (loadX_apply arg1 harg1 x0) (loadY7_apply arg2 harg2 x1) (loadB7_apply arg4 harg4 x3) p q)

/-! ## The scratch after the eight stores -/

/-- Every one of the eight stored pieces is the one function restricted to its rectangle. -/
theorem stores_restrict :
    ∀ pc ∈ (kernelRun0_A.sl.HS0_8 (F := Ideal) c arg1 harg1 arg2 harg2 arg4 harg4 x0 x1 x3),
      ∀ x : pc.1.shape.Idx, pc.2 x = scoreG x0 x1 x3 (pc.1.emb x) := by
  intro pc hpc
  unfold kernelRun0_A.sl.HS0_8 at hpc
  simp only [List.mem_cons, List.mem_nil_iff, or_false] at hpc
  rcases hpc with rfl | rfl | rfl | rfl | rfl | rfl | rfl | rfl
  · exact piece_restrict x0 x1 x3 7 ![0, 7168] rfl rfl inb_S256x8192_S256x1024_0_7168 _ (store7_apply c arg1 harg1 arg2 harg2 arg4 harg4 x0 x1 x3)
  · exact piece_restrict x0 x1 x3 6 ![0, 6144] rfl rfl inb_S256x8192_S256x1024_0_6144 _ (store6_apply c arg1 harg1 arg2 harg2 arg4 harg4 x0 x1 x3)
  · exact piece_restrict x0 x1 x3 5 ![0, 5120] rfl rfl inb_S256x8192_S256x1024_0_5120 _ (store5_apply c arg1 harg1 arg2 harg2 arg4 harg4 x0 x1 x3)
  · exact piece_restrict x0 x1 x3 4 ![0, 4096] rfl rfl inb_S256x8192_S256x1024_0_4096 _ (store4_apply c arg1 harg1 arg2 harg2 arg4 harg4 x0 x1 x3)
  · exact piece_restrict x0 x1 x3 3 ![0, 3072] rfl rfl inb_S256x8192_S256x1024_0_3072 _ (store3_apply c arg1 harg1 arg2 harg2 arg4 harg4 x0 x1 x3)
  · exact piece_restrict x0 x1 x3 2 ![0, 2048] rfl rfl inb_S256x8192_S256x1024_0_2048 _ (store2_apply c arg1 harg1 arg2 harg2 arg4 harg4 x0 x1 x3)
  · exact piece_restrict x0 x1 x3 1 ![0, 1024] rfl rfl inb_S256x8192_S256x1024_0_1024 _ (store1_apply arg1 harg1 arg2 harg2 arg4 harg4 x0 x1 x3)
  · exact piece_restrict x0 x1 x3 0 ![0, 0] rfl rfl inb_S256x8192_S256x1024_0_0 _ (store0_apply arg1 harg1 arg2 harg2 arg4 harg4 x0 x1 x3)

/-- A load of tile `t`'s rectangle after the eight stores, one of which went through that rectangle, reads tile `t` of
    the block's scores. -/
theorem read_tile (t : Fin 8) (off : Fin 2 → ℕ) (h0 : off 0 = 0) (h1 : off 1 = 1024 * t.val)
    (inb : ∀ a, off a + S256x1024.size a ≤ S256x8192.size a)
    (hcov : ∃ pc ∈ (kernelRun0_A.sl.HS0_8 (F := Ideal) c arg1 harg1 arg2 harg2 arg4 harg4 x0 x1 x3),
      pc.1 = Rect.unit (s := S256x8192) off S256x1024.size inb)
    (p : Fin 256) (q : Fin 1024) :
    (View.readCov arg7.view (kernelRun0_A.sl.HS0_8 (F := Ideal) c arg1 harg1 arg2 harg2 arg4 harg4 x0 x1 x3)
      (Rect.unit (s := S256x8192) off S256x1024.size inb).toLoadRect (ix2 p q) : EReal) = sb x0 x1 x3 p (tk t q) := by
  rw [View.readCov_eq_canon']
  obtain ⟨pc, hpc, e⟩ := hcov
  refine (View.canon_apply_of_pieces (Val := Elt Ideal) (scoreG x0 x1 x3) _ (stores_restrict c arg1 harg1 arg2 harg2 arg4 harg4 x0 x1 x3) _
    ⟨pc, hpc, ?_⟩).trans (scoreG_idx x0 x1 x3 t off h0 h1 inb p q)
  rw [e]
  exact LoadRect.idx_mem _ _

/-- The scores read back from the scratch, tile 0: entry `(p, q)` is the score of row `p` against candidate `q` of the tile. -/
theorem tile0_apply (p : Fin 256) (q : Fin 1024) :
    (kernelRun0_A.sl.v132 (F := Ideal) c arg1 harg1 arg2 harg2 arg4 harg4 arg7 x0 x1 x3 (ix2 p q) : EReal)
      = sb x0 x1 x3 p (tk 0 q) := by
  unfold kernelRun0_A.sl.v132
  exact read_tile c arg1 harg1 arg2 harg2 arg4 harg4 arg7 x0 x1 x3 0 _ rfl rfl _
    ⟨_, List.Mem.tail _ (List.Mem.tail _ (List.Mem.tail _ (List.Mem.tail _ (List.Mem.tail _ (List.Mem.tail _ (List.Mem.tail _ (List.Mem.head _))))))), rfl⟩ p q

/-- The scores read back from the scratch, tile 1: entry `(p, q)` is the score of row `p` against candidate `q` of the tile. -/
theorem tile1_apply (p : Fin 256) (q : Fin 1024) :
    (kernelRun0_A.sl.v151 (F := Ideal) c arg1 harg1 arg2 harg2 arg4 harg4 arg7 x0 x1 x3 (ix2 p q) : EReal)
      = sb x0 x1 x3 p (tk 1 q) := by
  unfold kernelRun0_A.sl.v151
  exact read_tile c arg1 harg1 arg2 harg2 arg4 harg4 arg7 x0 x1 x3 1 _ rfl rfl _
    ⟨_, List.Mem.tail _ (List.Mem.tail _ (List.Mem.tail _ (List.Mem.tail _ (List.Mem.tail _ (List.Mem.tail _ (List.Mem.head _)))))), rfl⟩ p q

/-- The scores read back from the scratch, tile 2: entry `(p, q)` is the score of row `p` against candidate `q` of the tile. -/
theorem tile2_apply (p : Fin 256) (q : Fin 1024) :
    (kernelRun0_A.sl.v170 (F := Ideal) c arg1 harg1 arg2 harg2 arg4 harg4 arg7 x0 x1 x3 (ix2 p q) : EReal)
      = sb x0 x1 x3 p (tk 2 q) := by
  unfold kernelRun0_A.sl.v170
  exact read_tile c arg1 harg1 arg2 harg2 arg4 harg4 arg7 x0 x1 x3 2 _ rfl rfl _
    ⟨_, List.Mem.tail _ (List.Mem.tail _ (List.Mem.tail _ (List.Mem.tail _ (List.Mem.tail _ (List.Mem.head _))))), rfl⟩ p q

/-- The scores read back from the scratch, tile 3: entry `(p, q)` is the score of row `p` against candidate `q` of the tile. -/
theorem tile3_apply (p : Fin 256) (q : Fin 1024) :
    (kernelRun0_A.sl.v189 (F := Ideal) c arg1 harg1 arg2 harg2 arg4 harg4 arg7 x0 x1 x3 (ix2 p q) : EReal)
      = sb x0 x1 x3 p (tk 3 q) := by
  unfold kernelRun0_A.sl.v189
  exact read_tile c arg1 harg1 arg2 harg2 arg4 harg4 arg7 x0 x1 x3 3 _ rfl rfl _
    ⟨_, List.Mem.tail _ (List.Mem.tail _ (List.Mem.tail _ (List.Mem.tail _ (List.Mem.head _)))), rfl⟩ p q

/-- The scores read back from the scratch, tile 4: entry `(p, q)` is the score of row `p` against candidate `q` of the tile. -/
theorem tile4_apply (p : Fin 256) (q : Fin 1024) :
    (kernelRun0_A.sl.v208 (F := Ideal) c arg1 harg1 arg2 harg2 arg4 harg4 arg7 x0 x1 x3 (ix2 p q) : EReal)
      = sb x0 x1 x3 p (tk 4 q) := by
  unfold kernelRun0_A.sl.v208
  exact read_tile c arg1 harg1 arg2 harg2 arg4 harg4 arg7 x0 x1 x3 4 _ rfl rfl _
    ⟨_, List.Mem.tail _ (List.Mem.tail _ (List.Mem.tail _ (List.Mem.head _))), rfl⟩ p q

/-- The scores read back from the scratch, tile 5: entry `(p, q)` is the score of row `p` against candidate `q` of the tile. -/
theorem tile5_apply (p : Fin 256) (q : Fin 1024) :
    (kernelRun0_A.sl.v227 (F := Ideal) c arg1 harg1 arg2 harg2 arg4 harg4 arg7 x0 x1 x3 (ix2 p q) : EReal)
      = sb x0 x1 x3 p (tk 5 q) := by
  unfold kernelRun0_A.sl.v227
  exact read_tile c arg1 harg1 arg2 harg2 arg4 harg4 arg7 x0 x1 x3 5 _ rfl rfl _
    ⟨_, List.Mem.tail _ (List.Mem.tail _ (List.Mem.head _)), rfl⟩ p q

/-- The scores read back from the scratch, tile 6: entry `(p, q)` is the score of row `p` against candidate `q` of the tile. -/
theorem tile6_apply (p : Fin 256) (q : Fin 1024) :
    (kernelRun0_A.sl.v246 (F := Ideal) c arg1 harg1 arg2 harg2 arg4 harg4 arg7 x0 x1 x3 (ix2 p q) : EReal)
      = sb x0 x1 x3 p (tk 6 q) := by
  unfold kernelRun0_A.sl.v246
  exact read_tile c arg1 harg1 arg2 harg2 arg4 harg4 arg7 x0 x1 x3 6 _ rfl rfl _
    ⟨_, List.Mem.tail _ (List.Mem.head _), rfl⟩ p q

/-- The scores read back from the scratch, tile 7: entry `(p, q)` is the score of row `p` against candidate `q` of the tile. -/
theorem tile7_apply (p : Fin 256) (q : Fin 1024) :
    (kernelRun0_A.sl.v265 (F := Ideal) c arg1 harg1 arg2 harg2 arg4 harg4 arg7 x0 x1 x3 (ix2 p q) : EReal)
      = sb x0 x1 x3 p (tk 7 q) := by
  unfold kernelRun0_A.sl.v265
  exact read_tile c arg1 harg1 arg2 harg2 arg4 harg4 arg7 x0 x1 x3 7 _ rfl rfl _
    ⟨_, List.Mem.head _, rfl⟩ p q

end

end Cert.Fcm.K

end
-- ==== Proof.KTemp.lean ====
/-
  The effective temperature and the exponent's shift a grid point's body derives, at the ideal values.

  The body keeps the running maximum and minimum of the eight tiles of scores, joined left to right; from
  them it takes the span, floors it, divides 50 by it and clips to [50, 5000]; the shift is the maximum times
  that temperature. Read at row `p` these are the tiled effective temperature of the block's score row and
  its tiled maximum times it.
-/
import proofs.«168320_g88089779241353_cont_9to1c4b_404_5_alg».proof.Proof.KBase

set_option maxRecDepth 16384

noncomputable section

namespace Cert.Fcm.K

open Cert.KernelIdeal Cert.KernelIdeal.Gen Cert.Fcm
open Idealize.ShloMosaic Idealize.ShloMosaic.ValueIdx Idealize.ShloMosaic.TcCoe

/-! ## A row's maximum and minimum over one tile, read at a row -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index of a tile of scores over row `p` with column `q` inserted is `(p, q)`. -/
theorem lift_row (p : Fin 256) (q : Fin 1024) :
    reduces_S256x1024_S256.lift (ix1 p) q = ix2 p q := by
  funext c
  match c with
  | ⟨0, _⟩ => rfl
  | ⟨1, _⟩ => rfl

/-- A minimum reduction over one axis, at the ideal values: the fold of `min` from the accumulator's value over
    that axis's coordinates. -/
theorem multiReduction_minimumf_single {φ : FTy} {s t : Shape} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The row maximum of a tile, kept as a column, read at row `p`: the fold of `max` from `-∞` over the row. -/
theorem rowMax_read (T : FVec Ideal S256x1024 .f32) (p : Fin 256) (f : Fin 1024 → EReal)
    (hT : ∀ q, (T (ix2 p q) : EReal) = f q) :
    (shapeCast S256x1 (multiReduction .maximumf [1] S256 T 0xFF800000#32 reduces_S256x1024_S256 (.inl rfl) rfl)
        shapeCasts_S256_S256x1 (ix2 p (0 : Fin 1)) : EReal)
      = (Finset.univ : Finset (Fin 1024)).fold max negInf f := by
  rw [shapeCast_a_a1_apply]
  refine (Ideal.multiReduction_maximumf_single T _ reduces_S256x1024_S256 _ _ (ix1 p)).trans ?_
  refine Finset.fold_congr fun (q : Fin 1024) _ => ?_
  exact (congrArg T (lift_row p q)).trans (hT q)

/-- The row minimum of a tile, kept as a column, read at row `p`: the fold of `min` from `+∞` over the row. -/
theorem rowMin_read (T : FVec Ideal S256x1024 .f32) (p : Fin 256) (f : Fin 1024 → EReal)
    (hT : ∀ q, (T (ix2 p q) : EReal) = f q) :
    (shapeCast S256x1 (multiReduction .minimumf [1] S256 T 0x7F800000#32 reduces_S256x1024_S256 (.inl rfl) rfl)
        shapeCasts_S256_S256x1 (ix2 p (0 : Fin 1)) : EReal)
      = (Finset.univ : Finset (Fin 1024)).fold min posInf f := by
  rw [shapeCast_a_a1_apply]
  refine (multiReduction_minimumf_single T _ reduces_S256x1024_S256 _ _ (ix1 p)).trans ?_
  refine Finset.fold_congr fun (q : Fin 1024) _ => ?_
  exact (congrArg T (lift_row p q)).trans (hT q)

/-- One step of the running maximum: the value so far joined with tile `t`'s row maximum. -/
theorem maxStep (A : FVec Ideal S256x1 .f32) (T : FVec Ideal S256x1024 .f32) (p : Fin 256) (s : Fin 8192 → EReal)
    (t : Fin 8) (a : EReal) (hA : (A (ix2 p (0 : Fin 1)) : EReal) = a) (hT : ∀ q, (T (ix2 p q) : EReal) = s (tk t q)) :
    (maximumf A (shapeCast S256x1 (multiReduction .maximumf [1] S256 T 0xFF800000#32 reduces_S256x1024_S256 (.inl rfl) rfl)
        shapeCasts_S256_S256x1) (ix2 p (0 : Fin 1)) : EReal)
      = max a (tileMax s t) := by
  refine (maximumf_apply _ _ _).trans ?_
  exact congrArg₂ max hA (rowMax_read T p _ hT)

/-- One step of the running minimum: the value so far joined with tile `t`'s row minimum. -/
theorem minStep (A : FVec Ideal S256x1 .f32) (T : FVec Ideal S256x1024 .f32) (p : Fin 256) (s : Fin 8192 → EReal)
    (t : Fin 8) (a : EReal) (hA : (A (ix2 p (0 : Fin 1)) : EReal) = a) (hT : ∀ q, (T (ix2 p q) : EReal) = s (tk t q)) :
    (minimumf A (shapeCast S256x1 (multiReduction .minimumf [1] S256 T 0x7F800000#32 reduces_S256x1024_S256 (.inl rfl) rfl)
        shapeCasts_S256_S256x1) (ix2 p (0 : Fin 1)) : EReal)
      = min a (tileMin s t) := by
  refine (minimumf_apply _ _ _).trans ?_
  exact congrArg₂ min hA (rowMin_read T p _ hT)

/-! ## The running maximum and minimum, payload by payload -/

section Payloads

variable (p : Fin 256) (s : Fin 8192 → EReal)

/-- After tiles 0 and 1: the two tiles' maxima joined. -/
theorem pay8_read (v0 : Vec Ideal S256x256 .f32) (v1 : Vec Ideal S1024x256 .f32) (v4 : Vec Ideal S1x1024 .f32)
    (v14 : Vec Ideal S1024x256 .f32) (v17 : Vec Ideal S1x1024 .f32)
    (h0 : ∀ q, (k0_pay4 (F := Ideal) v0 v1 v4 (ix2 p q) : EReal) = s (tk 0 q))
    (h1 : ∀ q, (k0_pay6 (F := Ideal) v0 v14 v17 (ix2 p q) : EReal) = s (tk 1 q)) :
    (k0_pay8 (F := Ideal) v0 v1 v4 v14 v17 (ix2 p (0 : Fin 1)) : EReal) = max (tileMax s 0) (tileMax s 1) :=
  maxStep _ _ p s 1 _ (rowMax_read _ p _ h0) h1

/-- After tiles 0 and 1: the two tiles' minima joined. -/
theorem pay9_read (v0 : Vec Ideal S256x256 .f32) (v1 : Vec Ideal S1024x256 .f32) (v4 : Vec Ideal S1x1024 .f32)
    (v14 : Vec Ideal S1024x256 .f32) (v17 : Vec Ideal S1x1024 .f32)
    (h0 : ∀ q, (k0_pay4 (F := Ideal) v0 v1 v4 (ix2 p q) : EReal) = s (tk 0 q))
    (h1 : ∀ q, (k0_pay6 (F := Ideal) v0 v14 v17 (ix2 p q) : EReal) = s (tk 1 q)) :
    (k0_pay9 (F := Ideal) v0 v1 v4 v14 v17 (ix2 p (0 : Fin 1)) : EReal) = min (tileMin s 0) (tileMin s 1) :=
  minStep _ _ p s 1 _ (rowMin_read _ p _ h0) h1

/-- Tiles 2 and 3 joined to the running maximum. -/
theorem pay15_read (v0 : Vec Ideal S256x256 .f32) (v27 : FVec Ideal S256x1 .f32) (v31 : FVec Ideal S256x1024 .f32)
    (v32 : Vec Ideal S1x1024 .f32) (v44 : Vec Ideal S1024x256 .f32) (v47 : Vec Ideal S1x1024 .f32) (a : EReal)
    (hA : (v27 (ix2 p (0 : Fin 1)) : EReal) = a)
    (h2 : ∀ q, (k0_pay11 (F := Ideal) v31 v32 (ix2 p q) : EReal) = s (tk 2 q))
    (h3 : ∀ q, (k0_pay13 (F := Ideal) v0 v44 v47 (ix2 p q) : EReal) = s (tk 3 q)) :
    (k0_pay15 (F := Ideal) v0 v27 v31 v32 v44 v47 (ix2 p (0 : Fin 1)) : EReal)
      = max (max a (tileMax s 2)) (tileMax s 3) :=
  maxStep _ _ p s 3 _ (maxStep _ _ p s 2 a hA h2) h3

/-- Tiles 2 and 3 joined to the running minimum. -/
theorem pay16_read (v0 : Vec Ideal S256x256 .f32) (v28 : FVec Ideal S256x1 .f32) (v31 : FVec Ideal S256x1024 .f32)
    (v32 : Vec Ideal S1x1024 .f32) (v44 : Vec Ideal S1024x256 .f32) (v47 : Vec Ideal S1x1024 .f32) (a : EReal)
    (hA : (v28 (ix2 p (0 : Fin 1)) : EReal) = a)
    (h2 : ∀ q, (k0_pay11 (F := Ideal) v31 v32 (ix2 p q) : EReal) = s (tk 2 q))
    (h3 : ∀ q, (k0_pay13 (F := Ideal) v0 v44 v47 (ix2 p q) : EReal) = s (tk 3 q)) :
    (k0_pay16 (F := Ideal) v0 v28 v31 v32 v44 v47 (ix2 p (0 : Fin 1)) : EReal)
      = min (min a (tileMin s 2)) (tileMin s 3) :=
  minStep _ _ p s 3 _ (minStep _ _ p s 2 a hA h2) h3

/-- Tiles 4, 5 and 6 joined to the running maximum. -/
theorem pay23_read (v0 : Vec Ideal S256x256 .f32) (v57 : FVec Ideal S256x1 .f32) (v64 : FVec Ideal S256x1024 .f32)
    (v74 : Vec Ideal S1024x256 .f32) (v77 : Vec Ideal S1x1024 .f32) (v89 : Vec Ideal S1024x256 .f32)
    (v92 : Vec Ideal S1x1024 .f32) (a : EReal) (hA : (v57 (ix2 p (0 : Fin 1)) : EReal) = a)
    (h4 : ∀ q, (v64 (ix2 p q) : EReal) = s (tk 4 q))
    (h5 : ∀ q, (k0_pay19 (F := Ideal) v0 v74 v77 (ix2 p q) : EReal) = s (tk 5 q))
    (h6 : ∀ q, (k0_pay21 (F := Ideal) v0 v89 v92 (ix2 p q) : EReal) = s (tk 6 q)) :
    (k0_pay23 (F := Ideal) v0 v57 v64 v74 v77 v89 v92 (ix2 p (0 : Fin 1)) : EReal)
      = max (max (max a (tileMax s 4)) (tileMax s 5)) (tileMax s 6) :=
  maxStep _ _ p s 6 _ (maxStep _ _ p s 5 _ (maxStep _ _ p s 4 a hA h4) h5) h6

/-- Tiles 4, 5 and 6 joined to the running minimum. -/
theorem pay24_read (v0 : Vec Ideal S256x256 .f32) (v58 : FVec Ideal S256x1 .f32) (v64 : FVec Ideal S256x1024 .f32)
    (v74 : Vec Ideal S1024x256 .f32) (v77 : Vec Ideal S1x1024 .f32) (v89 : Vec Ideal S1024x256 .f32)
    (v92 : Vec Ideal S1x1024 .f32) (a : EReal) (hA : (v58 (ix2 p (0 : Fin 1)) : EReal) = a)
    (h4 : ∀ q, (v64 (ix2 p q) : EReal) = s (tk 4 q))
    (h5 : ∀ q, (k0_pay19 (F := Ideal) v0 v74 v77 (ix2 p q) : EReal) = s (tk 5 q))
    (h6 : ∀ q, (k0_pay21 (F := Ideal) v0 v89 v92 (ix2 p q) : EReal) = s (tk 6 q)) :
    (k0_pay24 (F := Ideal) v0 v58 v64 v74 v77 v89 v92 (ix2 p (0 : Fin 1)) : EReal)
      = min (min (min a (tileMin s 4)) (tileMin s 5)) (tileMin s 6) :=
  minStep _ _ p s 6 _ (minStep _ _ p s 5 _ (minStep _ _ p s 4 a hA h4) h5) h6

/-- Tile 7 joined to the running maximum. -/
theorem pay27_read (v0 : Vec Ideal S256x256 .f32) (v102 : FVec Ideal S256x1 .f32) (v104 : Vec Ideal S1024x256 .f32)
    (v107 : Vec Ideal S1x1024 .f32) (a : EReal) (hA : (v102 (ix2 p (0 : Fin 1)) : EReal) = a)
    (h7 : ∀ q, (k0_pay25 (F := Ideal) v0 v104 v107 (ix2 p q) : EReal) = s (tk 7 q)) :
    (k0_pay27 (F := Ideal) v0 v102 v104 v107 (ix2 p (0 : Fin 1)) : EReal) = max a (tileMax s 7) :=
  maxStep _ _ p s 7 a hA h7

/-- The effective temperature from the running maximum and minimum with tile 7 joined to each. -/
theorem pay28_read (v0 : Vec Ideal S256x256 .f32) (v102 v103 : FVec Ideal S256x1 .f32) (v104 : Vec Ideal S1024x256 .f32)
    (v107 : Vec Ideal S1x1024 .f32) (M Mn : EReal) (hM : (v102 (ix2 p (0 : Fin 1)) : EReal) = M)
    (hMn : (v103 (ix2 p (0 : Fin 1)) : EReal) = Mn)
    (h7 : ∀ q, (k0_pay25 (F := Ideal) v0 v104 v107 (ix2 p q) : EReal) = s (tk 7 q)) :
    (k0_pay28 (F := Ideal) v0 v102 v103 v104 v107 (ix2 p (0 : Fin 1)) : EReal)
      = effOf (max M (tileMax s 7)) (min Mn (tileMin s 7)) := by
  have hmax := pay27_read p s v0 v102 v104 v107 M hM h7
  have hmin := minStep v103 (k0_pay25 (F := Ideal) v0 v104 v107) p s 7 Mn hMn h7
  unfold effOf
  rw [← hmax, ← hmin]
  rfl

/-- The shift: the maximum with tile 7 joined, times the effective temperature. -/
theorem pay29_read (v0 : Vec Ideal S256x256 .f32) (v102 v103 : FVec Ideal S256x1 .f32) (v104 : Vec Ideal S1024x256 .f32)
    (v107 : Vec Ideal S1x1024 .f32) (M Mn : EReal) (hM : (v102 (ix2 p (0 : Fin 1)) : EReal) = M)
    (hMn : (v103 (ix2 p (0 : Fin 1)) : EReal) = Mn)
    (h7 : ∀ q, (k0_pay25 (F := Ideal) v0 v104 v107 (ix2 p q) : EReal) = s (tk 7 q)) :
    (k0_pay29 (F := Ideal) v0 v102 v103 v104 v107 (ix2 p (0 : Fin 1)) : EReal)
      = max M (tileMax s 7) * effOf (max M (tileMax s 7)) (min Mn (tileMin s 7)) := by
  refine (mulf_apply _ _ _).trans ?_
  exact congrArg₂ (· * ·) (pay27_read p s v0 v102 v104 v107 M hM h7) (pay28_read p s v0 v102 v103 v104 v107 M Mn hM hMn h7)

end Payloads

/-! ## A tile of scores from its loads -/

/-- A tile of scores whose loads read the X block, tile `t` of the candidates and tile `t` of the intercepts is
    the block's score row at the tile's candidates. -/
theorem tileScore_eq (x0 : Vec Ideal S256x256 .f32) (x1 : Vec Ideal S8192x256 .f32) (x3 : Vec Ideal S1x8192 .f32)
    (v0 : Vec Ideal S256x256 .f32) (v1 : Vec Ideal S1024x256 .f32) (v4 : Vec Ideal S1x1024 .f32) (t : Fin 8) (p : Fin 256)
    (h0 : ∀ jj, (v0 (ix2 p jj) : EReal) = x0 (ix2 p jj))
    (h1 : ∀ q jj, (v1 (ix2 q jj) : EReal) = x1 (ix2 (tk t q) jj))
    (h4 : ∀ q, (v4 (ix2 (0 : Fin 1) q) : EReal) = x3 (ix2 (0 : Fin 1) (tk t q))) (q : Fin 1024) :
    tileScore v0 v1 v4 p q = sb x0 x1 x3 p (tk t q) := by
  unfold tileScore sb
  rw [h4 q]
  congr 1
  exact Finset.sum_congr rfl fun jj _ => by rw [h0 jj, h1 q jj]

/-! ## The body's named values -/

section

variable (c : Dev nD) (i : grid0.Coords)
  (arg1 : Memref sig .tc .vmem S256x256 .f32) (harg1 : arg1.IsWhole)
  (arg2 : Memref sig .tc .vmem S8192x256 .f32) (harg2 : arg2.IsWhole)
  (arg3 : Memref sig .tc .vmem S8192x256 .bf16) (harg3 : arg3.IsWhole)
  (arg4 : Memref sig .tc .vmem S1x8192 .f32) (harg4 : arg4.IsWhole)
  (arg5 : Memref sig .tc .vmem S256x256 .f32) (harg5 : arg5.IsWhole)
  (arg6 : Memref sig .tc .vmem S256x1 .f32) (harg6 : arg6.IsWhole)
  (arg7 : Memref sig .tc .vmem S256x8192 .f32) (harg7 : arg7.IsWhole)
  (x0 : Vec Ideal S256x256 .f32) (x1 : Vec Ideal S8192x256 .f32) (x2 : Vec Ideal S8192x256 .bf16) (x3 : Vec Ideal S1x8192 .f32)

/-- The running maximum after tiles 0 and 1. -/
theorem r1_apply (p : Fin 256) :
    (kernelRun0_A.sl.r_1 (F := Ideal) c arg1 harg1 arg2 harg2 arg4 harg4 x0 x1 x3 (ix2 p (0 : Fin 1)) : EReal)
      = (max (tileMax (sb x0 x1 x3 p) 0) (tileMax (sb x0 x1 x3 p) 1)) := by
  unfold kernelRun0_A.sl.r_1
  exact pay8_read p (sb x0 x1 x3 p) _ _ _ _ _
    (fun q => (pay4_apply _ _ _ p q).trans (tileScore_eq x0 x1 x3 _ _ _ 0 p (loadX_apply arg1 harg1 x0 p) (loadY0_apply arg2 harg2 x1) (loadB0_apply arg4 harg4 x3) q))
    (fun q => (pay6_apply _ _ _ p q).trans (tileScore_eq x0 x1 x3 _ _ _ 1 p (loadX_apply arg1 harg1 x0 p) (loadY1_apply arg2 harg2 x1) (loadB1_apply arg4 harg4 x3) q))

/-- The running minimum after tiles 0 and 1. -/
theorem r2_apply (p : Fin 256) :
    (kernelRun0_A.sl.r_2 (F := Ideal) c arg1 harg1 arg2 harg2 arg4 harg4 x0 x1 x3 (ix2 p (0 : Fin 1)) : EReal)
      = (min (tileMin (sb x0 x1 x3 p) 0) (tileMin (sb x0 x1 x3 p) 1)) := by
  unfold kernelRun0_A.sl.r_2
  exact pay9_read p (sb x0 x1 x3 p) _ _ _ _ _
    (fun q => (pay4_apply _ _ _ p q).trans (tileScore_eq x0 x1 x3 _ _ _ 0 p (loadX_apply arg1 harg1 x0 p) (loadY0_apply arg2 harg2 x1) (loadB0_apply arg4 harg4 x3) q))
    (fun q => (pay6_apply _ _ _ p q).trans (tileScore_eq x0 x1 x3 _ _ _ 1 p (loadX_apply arg1 harg1 x0 p) (loadY1_apply arg2 harg2 x1) (loadB1_apply arg4 harg4 x3) q))

/-- The running maximum after tiles 0 to 3. -/
theorem r4_apply (p : Fin 256) :
    (kernelRun0_A.sl.r_4 (F := Ideal) c arg1 harg1 arg2 harg2 arg4 harg4 x0 x1 x3 (ix2 p (0 : Fin 1)) : EReal)
      = (max (max (max (tileMax (sb x0 x1 x3 p) 0) (tileMax (sb x0 x1 x3 p) 1)) (tileMax (sb x0 x1 x3 p) 2)) (tileMax (sb x0 x1 x3 p) 3)) := by
  unfold kernelRun0_A.sl.r_4
  exact pay15_read p (sb x0 x1 x3 p) _ _ _ _ _ _ _ (r1_apply c arg1 harg1 arg2 harg2 arg4 harg4 x0 x1 x3 p)
    (fun q => (pay11_apply _ _ _ p q).trans (tileScore_eq x0 x1 x3 _ _ _ 2 p (loadX_apply arg1 harg1 x0 p) (loadY2_apply arg2 harg2 x1) (loadB2_apply arg4 harg4 x3) q))
    (fun q => (pay13_apply _ _ _ p q).trans (tileScore_eq x0 x1 x3 _ _ _ 3 p (loadX_apply arg1 harg1 x0 p) (loadY3_apply arg2 harg2 x1) (loadB3_apply arg4 harg4 x3) q))

/-- The running minimum after tiles 0 to 3. -/
theorem r5_apply (p : Fin 256) :
    (kernelRun0_A.sl.r_5 (F := Ideal) c arg1 harg1 arg2 harg2 arg4 harg4 x0 x1 x3 (ix2 p (0 : Fin 1)) : EReal)
      = (min (min (min (tileMin (sb x0 x1 x3 p) 0) (tileMin (sb x0 x1 x3 p) 1)) (tileMin (sb x0 x1 x3 p) 2)) (tileMin (sb x0 x1 x3 p) 3)) := by
  unfold kernelRun0_A.sl.r_5
  exact pay16_read p (sb x0 x1 x3 p) _ _ _ _ _ _ _ (r2_apply c arg1 harg1 arg2 harg2 arg4 harg4 x0 x1 x3 p)
    (fun q => (pay11_apply _ _ _ p q).trans (tileScore_eq x0 x1 x3 _ _ _ 2 p (loadX_apply arg1 harg1 x0 p) (loadY2_apply arg2 harg2 x1) (loadB2_apply arg4 harg4 x3) q))
    (fun q => (pay13_apply _ _ _ p q).trans (tileScore_eq x0 x1 x3 _ _ _ 3 p (loadX_apply arg1 harg1 x0 p) (loadY3_apply arg2 harg2 x1) (loadB3_apply arg4 harg4 x3) q))

/-- Tile 4's scores. -/
theorem r6_apply (p : Fin 256) (q : Fin 1024) :
    (kernelRun0_A.sl.r_6 (F := Ideal) c arg1 harg1 arg2 harg2 arg4 harg4 x0 x1 x3 (ix2 p q) : EReal) = sb x0 x1 x3 p (tk 4 q) := by
  unfold kernelRun0_A.sl.r_6
  exact (fun q => (pay17_apply _ _ _ p q).trans (tileScore_eq x0 x1 x3 _ _ _ 4 p (loadX_apply arg1 harg1 x0 p) (loadY4_apply arg2 harg2 x1) (loadB4_apply arg4 harg4 x3) q)) q

/-- The running maximum after tiles 0 to 6. -/
theorem r7_apply (p : Fin 256) :
    (kernelRun0_A.sl.r_7 (F := Ideal) c arg1 harg1 arg2 harg2 arg4 harg4 x0 x1 x3 (ix2 p (0 : Fin 1)) : EReal)
      = (max (max (max (max (max (max (tileMax (sb x0 x1 x3 p) 0) (tileMax (sb x0 x1 x3 p) 1)) (tileMax (sb x0 x1 x3 p) 2)) (tileMax (sb x0 x1 x3 p) 3)) (tileMax (sb x0 x1 x3 p) 4)) (tileMax (sb x0 x1 x3 p) 5)) (tileMax (sb x0 x1 x3 p) 6)) := by
  unfold kernelRun0_A.sl.r_7
  exact pay23_read p (sb x0 x1 x3 p) _ _ _ _ _ _ _ _ (r4_apply c arg1 harg1 arg2 harg2 arg4 harg4 x0 x1 x3 p)
    (r6_apply c arg1 harg1 arg2 harg2 arg4 harg4 x0 x1 x3 p)
    (fun q => (pay19_apply _ _ _ p q).trans (tileScore_eq x0 x1 x3 _ _ _ 5 p (loadX_apply arg1 harg1 x0 p) (loadY5_apply arg2 harg2 x1) (loadB5_apply arg4 harg4 x3) q))
    (fun q => (pay21_apply _ _ _ p q).trans (tileScore_eq x0 x1 x3 _ _ _ 6 p (loadX_apply arg1 harg1 x0 p) (loadY6_apply arg2 harg2 x1) (loadB6_apply arg4 harg4 x3) q))

/-- The running minimum after tiles 0 to 6. -/
theorem r8_apply (p : Fin 256) :
    (kernelRun0_A.sl.r_8 (F := Ideal) c arg1 harg1 arg2 harg2 arg4 harg4 x0 x1 x3 (ix2 p (0 : Fin 1)) : EReal)
      = (min (min (min (min (min (min (tileMin (sb x0 x1 x3 p) 0) (tileMin (sb x0 x1 x3 p) 1)) (tileMin (sb x0 x1 x3 p) 2)) (tileMin (sb x0 x1 x3 p) 3)) (tileMin (sb x0 x1 x3 p) 4)) (tileMin (sb x0 x1 x3 p) 5)) (tileMin (sb x0 x1 x3 p) 6)) := by
  unfold kernelRun0_A.sl.r_8
  exact pay24_read p (sb x0 x1 x3 p) _ _ _ _ _ _ _ _ (r5_apply c arg1 harg1 arg2 harg2 arg4 harg4 x0 x1 x3 p)
    (r6_apply c arg1 harg1 arg2 harg2 arg4 harg4 x0 x1 x3 p)
    (fun q => (pay19_apply _ _ _ p q).trans (tileScore_eq x0 x1 x3 _ _ _ 5 p (loadX_apply arg1 harg1 x0 p) (loadY5_apply arg2 harg2 x1) (loadB5_apply arg4 harg4 x3) q))
    (fun q => (pay21_apply _ _ _ p q).trans (tileScore_eq x0 x1 x3 _ _ _ 6 p (loadX_apply arg1 harg1 x0 p) (loadY6_apply arg2 harg2 x1) (loadB6_apply arg4 harg4 x3) q))

/-- The effective temperature the body derives for row `p`. -/
theorem eff_apply (p : Fin 256) :
    (kernelRun0_A.sl.r_10 (F := Ideal) c arg1 harg1 arg2 harg2 arg4 harg4 x0 x1 x3 (ix2 p (0 : Fin 1)) : EReal)
      = effT (sb x0 x1 x3 p) := by
  unfold kernelRun0_A.sl.r_10
  exact pay28_read p (sb x0 x1 x3 p) _ _ _ _ _ _ _ (r7_apply c arg1 harg1 arg2 harg2 arg4 harg4 x0 x1 x3 p) (r8_apply c arg1 harg1 arg2 harg2 arg4 harg4 x0 x1 x3 p)
    (fun q => (pay25_apply _ _ _ p q).trans (tileScore_eq x0 x1 x3 _ _ _ 7 p (loadX_apply arg1 harg1 x0 p) (loadY7_apply arg2 harg2 x1) (loadB7_apply arg4 harg4 x3) q))

/-- The shift of the exponent for row `p`: the row's maximum times its effective temperature. -/
theorem maxeff_apply (p : Fin 256) :
    (kernelRun0_A.sl.r_11 (F := Ideal) c arg1 harg1 arg2 harg2 arg4 harg4 x0 x1 x3 (ix2 p (0 : Fin 1)) : EReal)
      = maxT (sb x0 x1 x3 p) * effT (sb x0 x1 x3 p) := by
  unfold kernelRun0_A.sl.r_11
  exact pay29_read p (sb x0 x1 x3 p) _ _ _ _ _ _ _ (r7_apply c arg1 harg1 arg2 harg2 arg4 harg4 x0 x1 x3 p) (r8_apply c arg1 harg1 arg2 harg2 arg4 harg4 x0 x1 x3 p)
    (fun q => (pay25_apply _ _ _ p q).trans (tileScore_eq x0 x1 x3 _ _ _ 7 p (loadX_apply arg1 harg1 x0 p) (loadY7_apply arg2 harg2 x1) (loadB7_apply arg4 harg4 x3) q))

end

end Cert.Fcm.K

end
-- ==== Proof.KSoft.lean ====
/-
  The second half of a grid point's body, at the ideal values.

  With the effective temperature and the shift in hand the body reads the scores back tile by tile, takes
  the exponential weights, and accumulates their sum, the sum of weight · score and the product of the
  weights with the candidates; it ends by multiplying with the reciprocal of the weights' sum. Read at an
  index, the two stored values are the tiled weighted means of the block's score row.
-/
import proofs.«168320_g88089779241353_cont_9to1c4b_404_5_alg».proof.Proof.KPieces
import proofs.«168320_g88089779241353_cont_9to1c4b_404_5_alg».proof.Proof.KScore
import proofs.«168320_g88089779241353_cont_9to1c4b_404_5_alg».proof.Proof.KTemp

set_option maxRecDepth 16384

noncomputable section

namespace Cert.Fcm.K

open Cert.KernelIdeal Cert.KernelIdeal.Gen Cert.Fcm
open Idealize.ShloMosaic Idealize.ShloMosaic.ValueIdx Idealize.ShloMosaic.TcCoe

/-! ## Layout operations of a column, read at coordinates -/

/-- A column `[a, 1]` broadcast over `[a, b]` reads, at `(p, q)`, the column at row `p`. -/
theorem bcol_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]

/-- A vector `[a]` cast to the column `[a, 1]` reads, at `(p, u)`, the vector at `p`. -/
theorem castcol_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the rows of a tile, kept as a column: at row `p` it is the sum over the tile's 1024 columns. -/
theorem rowsum_apply (T : FVec Ideal S256x1024 .f32) (p : Fin 256) :
    (shapeCast S256x1 (multiReduction .add [1] S256 T 0x00000000#32 reduces_S256x1024_S256 (.inl rfl) rfl)
        shapeCasts_S256_S256x1 (ix2 p (0 : Fin 1)) : EReal)
      = ∑ q : Fin 1024, (T (ix2 p q) : EReal) := by
  refine (castcol_apply _ shapeCasts_S256_S256x1 p (0 : Fin 1)).trans ?_
  refine (Ideal.multiReduction_add_single T _ reduces_S256x1024_S256 (.inl rfl) rfl (ix1 p)).trans ?_
  refine Finset.sum_congr rfl fun q _ => ?_
  exact congrArg T (funext fun a => Fin.ext (by match a with | ⟨0, _⟩ => rfl | ⟨1, _⟩ => rfl))

/-! ## The product of a tile of weights with a tile of candidates, read at coordinates -/

theorem mm_lhs0 (i : S256x256.Idx) (q : dot_S256x1024_S1024x256_S256x256_1_0_0_1_n_n.contr.Idx) :
    (dot_S256x1024_S1024x256_S256x256_1_0_0_1_n_n.lhsIdx i q 0).val = (i 0).val := by
  unfold DotDims.lhsIdx
  rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
  rfl
theorem mm_lhs1 (i : S256x256.Idx) (q : dot_S256x1024_S1024x256_S256x256_1_0_0_1_n_n.contr.Idx) :
    (dot_S256x1024_S1024x256_S256x256_1_0_0_1_n_n.lhsIdx i q 1).val = (q ⟨0, by decide⟩).val :=
  dot_S256x1024_S1024x256_S256x256_1_0_0_1_n_n.lhsIdx_val_of_single rfl i q
theorem mm_rhs0 (i : S256x256.Idx) (q : dot_S256x1024_S1024x256_S256x256_1_0_0_1_n_n.contr.Idx) :
    (dot_S256x1024_S1024x256_S256x256_1_0_0_1_n_n.rhsIdx i q 0).val = (q ⟨0, by decide⟩).val :=
  dot_S256x1024_S1024x256_S256x256_1_0_0_1_n_n.rhsIdx_val_of_single rfl i q
theorem mm_rhs1 (i : S256x256.Idx) (q : dot_S256x1024_S1024x256_S256x256_1_0_0_1_n_n.contr.Idx) :
    (dot_S256x1024_S1024x256_S256x256_1_0_0_1_n_n.rhsIdx i q 1).val = (i 1).val := by
  unfold DotDims.rhsIdx
  rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
  rfl

/-- The product of a tile of weights with a tile of candidates, from zero: at `(p, j)` the sum over the
    tile's 1024 candidates of weight times coordinate `j`. -/
theorem mm_apply (e : FVec Ideal S256x1024 .bf16) (y : FVec Ideal S1024x256 .bf16) (p j : Fin 256) :
    (matmul dot_S256x1024_S1024x256_S256x256_1_0_0_1_n_n none e y (constant S256x256 .f32 0x00000000#32) (ix2 p j) : EReal)
      = ∑ q : Fin 1024, (e (ix2 p q) : EReal) * (y (ix2 q j) : EReal) := by
  simp only [matmul]
  rw [Ideal.matmul_constant_zero_apply, ← Equiv.sum_comp (contrEquiv1 dot_S256x1024_S1024x256_S256x256_1_0_0_1_n_n 1024 rfl rfl).symm]
  refine Finset.sum_congr rfl fun k _ => ?_
  have hk := contrEquiv1_symm_val dot_S256x1024_S1024x256_S256x256_1_0_0_1_n_n 1024 rfl rfl k
  have el : dot_S256x1024_S1024x256_S256x256_1_0_0_1_n_n.lhsIdx (ix2 p j) ((contrEquiv1 dot_S256x1024_S1024x256_S256x256_1_0_0_1_n_n 1024 rfl rfl).symm k) = ix2 p k := funext fun a => Fin.ext (by
    match a with
    | ⟨0, _⟩ => exact mm_lhs0 _ _
    | ⟨1, _⟩ => exact (mm_lhs1 _ _).trans hk)
  have er : dot_S256x1024_S1024x256_S256x256_1_0_0_1_n_n.rhsIdx (ix2 p j) ((contrEquiv1 dot_S256x1024_S1024x256_S256x256_1_0_0_1_n_n 1024 rfl rfl).symm k) = ix2 k j := funext fun a => Fin.ext (by
    match a with
    | ⟨0, _⟩ => exact (mm_rhs0 _ _).trans hk
    | ⟨1, _⟩ => exact mm_rhs1 _ _)
  rw [el, er]

/-! ## The exponential weight of a tile, read at coordinates -/

/-- The weight the body takes of a tile of scores `v` from the column of temperatures `eff` and the column of
    shifts `shift`: at `(p, q)` it is `exp (v · eff − shift)` at row `p`. -/
theorem expw_apply (eff shift : FVec Ideal S256x1 .f32) (v : FVec Ideal S256x1024 .f32) (p : Fin 256) (q : Fin 1024) :
    (exp (subf (mulf v (broadcastTo S256x1024 eff broadcasts_S256x1_S256x1024))
        (broadcastTo S256x1024 shift broadcasts_S256x1_S256x1024)) (ix2 p q) : EReal)
      = Ideal.exp ((v (ix2 p q) : EReal) * (eff (ix2 p (0 : Fin 1)) : EReal) - (shift (ix2 p (0 : Fin 1)) : EReal)) := by
  show Ideal.exp ((v (ix2 p q) : EReal) * (broadcastTo S256x1024 eff broadcasts_S256x1_S256x1024 (ix2 p q) : EReal)
      - (broadcastTo S256x1024 shift broadcasts_S256x1_S256x1024 (ix2 p q) : EReal)) = _
  rw [bcol_apply, bcol_apply]

/-! ## A tile's sums from what the tile reads at one row -/

section Row

variable {s : Fin 8192 → EReal} {p : Fin 256}

/-- A tile whose row `p` is `f` on tile `t`'s candidates sums along that row to `tileSum f t`. -/
theorem rowsum_of {T : FVec Ideal S256x1024 .f32} {f : Fin 8192 → EReal} {t : Fin 8}
    (hT : ∀ q : Fin 1024, (T (ix2 p q) : EReal) = f (tk t q)) :
    (shapeCast S256x1 (multiReduction .add [1] S256 T 0x00000000#32 reduces_S256x1024_S256 (.inl rfl) rfl)
        shapeCasts_S256_S256x1 (ix2 p (0 : Fin 1)) : EReal) = tileSum f t :=
  (rowsum_apply T p).trans (Finset.sum_congr rfl fun q _ => hT q)

/-- A tile of weights times a tile of candidates: at `(p, j)` the tile's sum of weight times coordinate. -/
theorem mm_of {E : FVec Ideal S256x1024 .bf16} {yh : Vec Ideal S1024x256 .bf16} {w y : Fin 8192 → EReal} {j : Fin 256} {t : Fin 8}
    (hE : ∀ q : Fin 1024, (E (ix2 p q) : EReal) = w (tk t q))
    (hy : ∀ q : Fin 1024, (yh (ix2 q j) : EReal) = y (tk t q)) :
    (matmul dot_S256x1024_S1024x256_S256x256_1_0_0_1_n_n none E
        (shapeCast S1024x256 yh shapeCasts_S1024x256_S1024x256 : FVec Ideal S1024x256 .bf16) (constant S256x256 .f32 0x00000000#32) (ix2 p j) : EReal)
      = tileSum (fun k => w k * y k) t := by
  rw [shapeCast_self]
  exact (mm_apply E yh p j).trans (Finset.sum_congr rfl fun q _ => by rw [hE q, hy q])

/-- The exponent's three inputs at row `p` give the tiled weight. -/
theorem wexp_of {a e b : EReal} {k : Fin 8192} (ha : a = s k) (he : e = effT s) (hb : b = maxT s * effT s) :
    Ideal.exp (a * e - b) = wT s k := by
  rw [ha, he, hb]; rfl

end Row

/-! ## The weights of a tile -/

section Weights

variable {s : Fin 8192 → EReal} {p : Fin 256} {t : Fin 8}
  {eff shift : FVec Ideal S256x1 .f32} {v : Vec Ideal S256x1024 .f32}

theorem pay37_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay37 eff shift v (ix2 p q) : EReal) = wT s (tk t q) :=
  (expw_apply eff shift v p q).trans (wexp_of (hv q) heff hshift)

theorem pay39_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay39 eff shift v (ix2 p q) : EReal) = wT s (tk t q) :=
  (expw_apply eff shift v p q).trans (wexp_of (hv q) heff hshift)

theorem pay44_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay44 eff shift v (ix2 p q) : EReal) = wT s (tk t q) :=
  (expw_apply eff shift v p q).trans (wexp_of (hv q) heff hshift)

theorem pay46_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay46 eff shift v (ix2 p q) : EReal) = wT s (tk t q) :=
  (expw_apply eff shift v p q).trans (wexp_of (hv q) heff hshift)

theorem pay51_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay51 eff shift v (ix2 p q) : EReal) = wT s (tk t q) :=
  (expw_apply eff shift v p q).trans (wexp_of (hv q) heff hshift)

theorem pay53_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay53 eff shift v (ix2 p q) : EReal) = wT s (tk t q) :=
  (expw_apply eff shift v p q).trans (wexp_of (hv q) heff hshift)

theorem pay57_w (heff : (eff (ix2 p (0 : Fin 1)) : EReal) = effT s)
    (hshift : (shift (ix2 p (0 : Fin 1)) : EReal) = maxT s * effT s)
    (hv : ∀ q : Fin 1024, (v (ix2 p q) : EReal) = s (tk t q)) (q : Fin 1024) :
    (k0_pay57 eff shift v (ix2 p q) : EReal) = wT s (tk t q) :=
  (expw_apply eff shift v p q).trans (wexp_of (hv q) heff hshift)

/-- Tile 0's weight, its temperature and shift still spelled as the payloads that compute them. -/
theorem pay32_w {v0 : Vec Ideal S256x256 .f32} {v102 v103 : FVec Ideal S256x1 .f32} {v104 : Vec Ideal S1024x256 .f32}
    {v107 : Vec Ideal S1x1024 .f32}
    (heff : (k0_pay28 v0 v102 v103 v104 v107 (ix2 p (0 : Fin 1)) : EReal) = effT s)
    (hshift : (k0_pay29 v0 v102 v103 v104 v107 (ix2 p (0 : Fin 1)) : EReal) = maxT s * effT s)
    (hv : ∀ q : Fin 1024, (v (ix2 p q) : EReal) = s (tk t q)) (q : Fin 1024) :
    (k0_pay32 v0 v102 v103 v104 v107 v (ix2 p q) : EReal) = wT s (tk t q) :=
  (expw_apply (k0_pay28 v0 v102 v103 v104 v107) (k0_pay29 v0 v102 v103 v104 v107) v p q).trans
    (wexp_of (hv q) heff hshift)

end Weights

/-! ## The accumulators, payload by payload -/

section Acc

variable {s : Fin 8192 → EReal} {p : Fin 256}

/-- The sum along row `p` of weight times score over one tile. -/
theorem ws_of {E : FVec Ideal S256x1024 .f32} {v : Vec Ideal S256x1024 .f32} {t : Fin 8}
    (hE : ∀ q : Fin 1024, (E (ix2 p q) : EReal) = wT s (tk t q))
    (hv : ∀ q : Fin 1024, (v (ix2 p q) : EReal) = s (tk t q)) :
    (shapeCast S256x1 (multiReduction .add [1] S256 (mulf E v) 0x00000000#32 reduces_S256x1024_S256 (.inl rfl) rfl)
        shapeCasts_S256_S256x1 (ix2 p (0 : Fin 1)) : EReal) = tileSum (fun k => wT s k * s k) t :=
  rowsum_of (T := mulf E v) (f := fun k => wT s k * s k) fun q => congrArg₂ (· * ·) (hE q) (hv q)

section Tile0

variable {v0 : Vec Ideal S256x256 .f32} {v102 v103 : FVec Ideal S256x1 .f32} {v104 : Vec Ideal S1024x256 .f32}
    {v107 : Vec Ideal S1x1024 .f32} {v : Vec Ideal S256x1024 .f32}

/-- The weights' sum after tile 0, from zero. -/
theorem pay35_apply
    (hE : ∀ q : Fin 1024, (k0_pay32 v0 v102 v103 v104 v107 v (ix2 p q) : EReal) = wT s (tk 0 q)) :
    (k0_pay35 v0 v102 v103 v104 v107 v (ix2 p (0 : Fin 1)) : EReal) = zero32 + tileSum (wT s) 0 :=
  congrArg (zero32 + ·) (rowsum_of (T := k0_pay34 v0 v102 v103 v104 v107 v) hE)

/-- Tile 0's sum of weight times score. -/
theorem pay36_apply
    (hE : ∀ q : Fin 1024, (k0_pay32 v0 v102 v103 v104 v107 v (ix2 p q) : EReal) = wT s (tk 0 q))
    (hv : ∀ q : Fin 1024, (v (ix2 p q) : EReal) = s (tk 0 q)) :
    (k0_pay36 v0 v102 v103 v104 v107 v (ix2 p (0 : Fin 1)) : EReal) = tileSum (fun k => wT s k * s k) 0 :=
  ws_of (E := k0_pay34 v0 v102 v103 v104 v107 v) hE hv

end Tile0

variable {eff shift : FVec Ideal S256x1 .f32}

/-- The weights' sum over two more tiles. -/
theorem pay41_apply {acc : FVec Ideal S256x1 .f32} {v1 v2 : Vec Ideal S256x1024 .f32} {t1 t2 : Fin 8} {A : EReal}
    (heff : (eff (ix2 p (0 : Fin 1)) : EReal) = effT s)
    (hshift : (shift (ix2 p (0 : Fin 1)) : EReal) = maxT s * effT s)
    (hacc : (acc (ix2 p (0 : Fin 1)) : EReal) = A) (hv1 : ∀ q : Fin 1024, (v1 (ix2 p q) : EReal) = s (tk t1 q)) (hv2 : ∀ q : Fin 1024, (v2 (ix2 p q) : EReal) = s (tk t2 q)) :
    (k0_pay41 eff shift acc v1 v2 (ix2 p (0 : Fin 1)) : EReal) = A + tileSum (wT s) t1 + tileSum (wT s) t2 :=
  congrArg₂ (· + ·) (congrArg₂ (· + ·) hacc (rowsum_of (T := k0_pay38 eff shift v1) (pay37_w heff hshift hv1)))
    (rowsum_of (T := k0_pay40 eff shift v2) (pay39_w heff hshift hv2))

theorem pay48_apply {acc : FVec Ideal S256x1 .f32} {v1 v2 : Vec Ideal S256x1024 .f32} {t1 t2 : Fin 8} {A : EReal}
    (heff : (eff (ix2 p (0 : Fin 1)) : EReal) = effT s)
    (hshift : (shift (ix2 p (0 : Fin 1)) : EReal) = maxT s * effT s)
    (hacc : (acc (ix2 p (0 : Fin 1)) : EReal) = A) (hv1 : ∀ q : Fin 1024, (v1 (ix2 p q) : EReal) = s (tk t1 q)) (hv2 : ∀ q : Fin 1024, (v2 (ix2 p q) : EReal) = s (tk t2 q)) :
    (k0_pay48 eff shift acc v1 v2 (ix2 p (0 : Fin 1)) : EReal) = A + tileSum (wT s) t1 + tileSum (wT s) t2 :=
  congrArg₂ (· + ·) (congrArg₂ (· + ·) hacc (rowsum_of (T := k0_pay45 eff shift v1) (pay44_w heff hshift hv1)))
    (rowsum_of (T := k0_pay47 eff shift v2) (pay46_w heff hshift hv2))

/-- The weights' sum over the last three tiles, the first of them given by its weights. -/
theorem pay60_apply {acc : FVec Ideal S256x1 .f32} {e1 : FVec Ideal S256x1024 .f32} {v2 v3 : Vec Ideal S256x1024 .f32}
    {t1 t2 t3 : Fin 8} {A : EReal}
    (heff : (eff (ix2 p (0 : Fin 1)) : EReal) = effT s)
    (hshift : (shift (ix2 p (0 : Fin 1)) : EReal) = maxT s * effT s)
    (hacc : (acc (ix2 p (0 : Fin 1)) : EReal) = A)
    (he1 : ∀ q : Fin 1024, (e1 (ix2 p q) : EReal) = wT s (tk t1 q)) (hv2 : ∀ q : Fin 1024, (v2 (ix2 p q) : EReal) = s (tk t2 q)) (hv3 : ∀ q : Fin 1024, (v3 (ix2 p q) : EReal) = s (tk t3 q)) :
    (k0_pay60 eff shift acc e1 v2 v3 (ix2 p (0 : Fin 1)) : EReal)
      = A + tileSum (wT s) t1 + tileSum (wT s) t2 + tileSum (wT s) t3 :=
  congrArg₂ (· + ·) (congrArg₂ (· + ·) (congrArg₂ (· + ·) hacc (rowsum_of (T := k0_pay52 e1) he1))
    (rowsum_of (T := k0_pay54 eff shift v2) (pay53_w heff hshift hv2)))
    (rowsum_of (T := k0_pay59 eff shift v3) (pay57_w heff hshift hv3))

/-- The sum of weight times score: the zero start, tile 0's sum, and two more tiles. -/
theorem pay42_apply {z acc : FVec Ideal S256x1 .f32} {v1 v2 : Vec Ideal S256x1024 .f32} {t1 t2 : Fin 8} {Z A : EReal}
    (heff : (eff (ix2 p (0 : Fin 1)) : EReal) = effT s)
    (hshift : (shift (ix2 p (0 : Fin 1)) : EReal) = maxT s * effT s)
    (hz : (z (ix2 p (0 : Fin 1)) : EReal) = Z) (hacc : (acc (ix2 p (0 : Fin 1)) : EReal) = A) (hv1 : ∀ q : Fin 1024, (v1 (ix2 p q) : EReal) = s (tk t1 q)) (hv2 : ∀ q : Fin 1024, (v2 (ix2 p q) : EReal) = s (tk t2 q)) :
    (k0_pay42 eff shift z acc v1 v2 (ix2 p (0 : Fin 1)) : EReal)
      = Z + A + tileSum (fun k => wT s k * s k) t1 + tileSum (fun k => wT s k * s k) t2 :=
  congrArg₂ (· + ·) (congrArg₂ (· + ·) (congrArg₂ (· + ·) hz hacc)
    (ws_of (E := k0_pay38 eff shift v1) (pay37_w heff hshift hv1) hv1))
    (ws_of (E := k0_pay40 eff shift v2) (pay39_w heff hshift hv2) hv2)

theorem pay49_apply {acc : FVec Ideal S256x1 .f32} {v1 v2 : Vec Ideal S256x1024 .f32} {t1 t2 : Fin 8} {A : EReal}
    (heff : (eff (ix2 p (0 : Fin 1)) : EReal) = effT s)
    (hshift : (shift (ix2 p (0 : Fin 1)) : EReal) = maxT s * effT s)
    (hacc : (acc (ix2 p (0 : Fin 1)) : EReal) = A) (hv1 : ∀ q : Fin 1024, (v1 (ix2 p q) : EReal) = s (tk t1 q)) (hv2 : ∀ q : Fin 1024, (v2 (ix2 p q) : EReal) = s (tk t2 q)) :
    (k0_pay49 eff shift acc v1 v2 (ix2 p (0 : Fin 1)) : EReal)
      = A + tileSum (fun k => wT s k * s k) t1 + tileSum (fun k => wT s k * s k) t2 :=
  congrArg₂ (· + ·) (congrArg₂ (· + ·) hacc
    (ws_of (E := k0_pay45 eff shift v1) (pay44_w heff hshift hv1) hv1))
    (ws_of (E := k0_pay47 eff shift v2) (pay46_w heff hshift hv2) hv2)

theorem pay55_apply {acc : FVec Ideal S256x1 .f32} {e1 : FVec Ideal S256x1024 .f32} {v1 v2 : Vec Ideal S256x1024 .f32}
    {t1 t2 : Fin 8} {A : EReal}
    (heff : (eff (ix2 p (0 : Fin 1)) : EReal) = effT s)
    (hshift : (shift (ix2 p (0 : Fin 1)) : EReal) = maxT s * effT s)
    (hacc : (acc (ix2 p (0 : Fin 1)) : EReal) = A)
    (he1 : ∀ q : Fin 1024, (e1 (ix2 p q) : EReal) = wT s (tk t1 q)) (hv1 : ∀ q : Fin 1024, (v1 (ix2 p q) : EReal) = s (tk t1 q)) (hv2 : ∀ q : Fin 1024, (v2 (ix2 p q) : EReal) = s (tk t2 q)) :
    (k0_pay55 eff shift acc v1 e1 v2 (ix2 p (0 : Fin 1)) : EReal)
      = A + tileSum (fun k => wT s k * s k) t1 + tileSum (fun k => wT s k * s k) t2 :=
  congrArg₂ (· + ·) (congrArg₂ (· + ·) hacc (ws_of (E := k0_pay52 e1) he1 hv1))
    (ws_of (E := k0_pay54 eff shift v2) (pay53_w heff hshift hv2) hv2)

/-- The reciprocal of the weights' sum. -/
theorem pay1_apply {D : FVec Ideal S256x1 .f32} {Dv : EReal} (hD : (D (ix2 p (0 : Fin 1)) : EReal) = Dv) :
    (k0_pay1 D (ix2 p (0 : Fin 1)) : EReal) = Ideal.div one32 Dv :=
  congrArg (Ideal.div one32) hD

/-- The stored score mean: the accumulated sum plus the last tile's, times the reciprocal. -/
theorem pay2_apply {acc D : FVec Ideal S256x1 .f32} {T : FVec Ideal S256x1024 .f32} {f : Fin 8192 → EReal} {t : Fin 8}
    {A Dv : EReal}
    (hacc : (acc (ix2 p (0 : Fin 1)) : EReal) = A) (hD : (D (ix2 p (0 : Fin 1)) : EReal) = Dv)
    (hT : ∀ q : Fin 1024, (T (ix2 p q) : EReal) = f (tk t q)) :
    (k0_pay2 acc D T (ix2 p (0 : Fin 1)) : EReal) = (A + tileSum f t) * Ideal.div one32 Dv :=
  congrArg₂ (· * ·) (congrArg₂ (· + ·) hacc (rowsum_of hT)) (pay1_apply hD)

end Acc

/-! ## The accumulated products with the candidates, payload by payload -/

section AccM

variable {s y : Fin 8192 → EReal} {p j : Fin 256} {eff shift : FVec Ideal S256x1 .f32}

/-- The zero start, tile 0's product (its weights given), and two more tiles' products. -/
theorem pay43_apply {z : FVec Ideal S256x256 .f32} {e0 : FVec Ideal S256x1024 .bf16} {yh0 yh1 yh2 : Vec Ideal S1024x256 .bf16}
    {v1 v2 : Vec Ideal S256x1024 .f32} {t0 t1 t2 : Fin 8} {Z : EReal}
    (heff : (eff (ix2 p (0 : Fin 1)) : EReal) = effT s)
    (hshift : (shift (ix2 p (0 : Fin 1)) : EReal) = maxT s * effT s)
    (hz : (z (ix2 p j) : EReal) = Z)
    (he0 : ∀ q : Fin 1024, (e0 (ix2 p q) : EReal) = wT s (tk t0 q)) (hyh0 : ∀ q : Fin 1024, (yh0 (ix2 q j) : EReal) = y (tk t0 q))
    (hv1 : ∀ q : Fin 1024, (v1 (ix2 p q) : EReal) = s (tk t1 q)) (hyh1 : ∀ q : Fin 1024, (yh1 (ix2 q j) : EReal) = y (tk t1 q))
    (hv2 : ∀ q : Fin 1024, (v2 (ix2 p q) : EReal) = s (tk t2 q)) (hyh2 : ∀ q : Fin 1024, (yh2 (ix2 q j) : EReal) = y (tk t2 q)) :
    (k0_pay43 eff shift z e0 yh0 v1 yh1 v2 yh2 (ix2 p j) : EReal)
      = Z + tileSum (fun k => wT s k * y k) t0 + tileSum (fun k => wT s k * y k) t1 + tileSum (fun k => wT s k * y k) t2 :=
  congrArg₂ (· + ·) (congrArg₂ (· + ·) (congrArg₂ (· + ·) hz (mm_of he0 hyh0))
    (mm_of (E := truncf .bf16 (k0_pay37 eff shift v1) bitsLt_bf16_f32) (pay37_w heff hshift hv1) hyh1))
    (mm_of (E := truncf .bf16 (k0_pay39 eff shift v2) bitsLt_bf16_f32) (pay39_w heff hshift hv2) hyh2)

theorem pay50_apply {acc : FVec Ideal S256x256 .f32} {yh1 yh2 : Vec Ideal S1024x256 .bf16}
    {v1 v2 : Vec Ideal S256x1024 .f32} {t1 t2 : Fin 8} {A : EReal}
    (heff : (eff (ix2 p (0 : Fin 1)) : EReal) = effT s)
    (hshift : (shift (ix2 p (0 : Fin 1)) : EReal) = maxT s * effT s)
    (hacc : (acc (ix2 p j) : EReal) = A)
    (hv1 : ∀ q : Fin 1024, (v1 (ix2 p q) : EReal) = s (tk t1 q)) (hyh1 : ∀ q : Fin 1024, (yh1 (ix2 q j) : EReal) = y (tk t1 q))
    (hv2 : ∀ q : Fin 1024, (v2 (ix2 p q) : EReal) = s (tk t2 q)) (hyh2 : ∀ q : Fin 1024, (yh2 (ix2 q j) : EReal) = y (tk t2 q)) :
    (k0_pay50 eff shift acc v1 yh1 v2 yh2 (ix2 p j) : EReal)
      = A + tileSum (fun k => wT s k * y k) t1 + tileSum (fun k => wT s k * y k) t2 :=
  congrArg₂ (· + ·) (congrArg₂ (· + ·) hacc
    (mm_of (E := truncf .bf16 (k0_pay44 eff shift v1) bitsLt_bf16_f32) (pay44_w heff hshift hv1) hyh1))
    (mm_of (E := truncf .bf16 (k0_pay46 eff shift v2) bitsLt_bf16_f32) (pay46_w heff hshift hv2) hyh2)

theorem pay56_apply {acc : FVec Ideal S256x256 .f32} {e1 : FVec Ideal S256x1024 .f32} {yh1 yh2 : Vec Ideal S1024x256 .bf16}
    {v2 : Vec Ideal S256x1024 .f32} {t1 t2 : Fin 8} {A : EReal}
    (heff : (eff (ix2 p (0 : Fin 1)) : EReal) = effT s)
    (hshift : (shift (ix2 p (0 : Fin 1)) : EReal) = maxT s * effT s)
    (hacc : (acc (ix2 p j) : EReal) = A)
    (he1 : ∀ q : Fin 1024, (e1 (ix2 p q) : EReal) = wT s (tk t1 q)) (hyh1 : ∀ q : Fin 1024, (yh1 (ix2 q j) : EReal) = y (tk t1 q))
    (hv2 : ∀ q : Fin 1024, (v2 (ix2 p q) : EReal) = s (tk t2 q)) (hyh2 : ∀ q : Fin 1024, (yh2 (ix2 q j) : EReal) = y (tk t2 q)) :
    (k0_pay56 eff shift acc e1 yh1 v2 yh2 (ix2 p j) : EReal)
      = A + tileSum (fun k => wT s k * y k) t1 + tileSum (fun k => wT s k * y k) t2 :=
  congrArg₂ (· + ·) (congrArg₂ (· + ·) hacc
    (mm_of (E := truncf .bf16 e1 bitsLt_bf16_f32) he1 hyh1))
    (mm_of (E := truncf .bf16 (k0_pay53 eff shift v2) bitsLt_bf16_f32) (pay53_w heff hshift hv2) hyh2)

/-- The stored candidate mean: the accumulated product plus the last tile's, times the reciprocal. -/
theorem pay3_apply {acc : FVec Ideal S256x256 .f32} {E : FVec Ideal S256x1024 .bf16} {D : FVec Ideal S256x1 .f32}
    {yh : Vec Ideal S1024x256 .bf16} {w : Fin 8192 → EReal} {t : Fin 8} {A Dv : EReal}
    (hacc : (acc (ix2 p j) : EReal) = A)
    (hE : ∀ q : Fin 1024, (E (ix2 p q) : EReal) = w (tk t q))
    (hD : (D (ix2 p (0 : Fin 1)) : EReal) = Dv)
    (hyh : ∀ q : Fin 1024, (yh (ix2 q j) : EReal) = y (tk t q)) :
    (k0_pay3 acc E D yh (ix2 p j) : EReal) = (A + tileSum (fun k => w k * y k) t) * Ideal.div one32 Dv :=
  congrArg₂ (· * ·) (congrArg₂ (· + ·) hacc (mm_of hE hyh))
    ((bcol_apply (k0_pay1 D) broadcasts_S256x1_S256x256 p j).trans (pay1_apply hD))

end AccM

/-! ## One grid point's body -/

section

variable (c : Dev nD) (i : grid0.Coords)
  (arg1 : Memref sig .tc .vmem S256x256 .f32) (harg1 : arg1.IsWhole)
  (arg2 : Memref sig .tc .vmem S8192x256 .f32) (harg2 : arg2.IsWhole)
  (arg3 : Memref sig .tc .vmem S8192x256 .bf16) (harg3 : arg3.IsWhole)
  (arg4 : Memref sig .tc .vmem S1x8192 .f32) (harg4 : arg4.IsWhole)
  (arg5 : Memref sig .tc .vmem S256x256 .f32) (harg5 : arg5.IsWhole)
  (arg6 : Memref sig .tc .vmem S256x1 .f32) (harg6 : arg6.IsWhole)
  (arg7 : Memref sig .tc .vmem S256x8192 .f32) (harg7 : arg7.IsWhole)
  (x0 : Vec Ideal S256x256 .f32) (x1 : Vec Ideal S8192x256 .f32) (x2 : Vec Ideal S8192x256 .bf16) (x3 : Vec Ideal S1x8192 .f32)

/-! ## The chain of accumulators, name by name -/

/-- Tile 0's weights. -/
theorem r12_apply (p : Fin 256) (q : Fin 1024) :
    (kernelRun0_A.sl.r_12 (F := Ideal) c arg1 harg1 arg2 harg2 arg4 harg4 arg7 x0 x1 x3 (ix2 p q) : EReal) = wT (sb x0 x1 x3 p) (tk 0 q) := by
  unfold kernelRun0_A.sl.r_12
  exact pay32_w (eff_apply c arg1 harg1 arg2 harg2 arg4 harg4 x0 x1 x3 p) (maxeff_apply c arg1 harg1 arg2 harg2 arg4 harg4 x0 x1 x3 p) (tile0_apply c arg1 harg1 arg2 harg2 arg4 harg4 arg7 x0 x1 x3 p) q

/-- The weights' sum after tile 0. -/
theorem r13_apply (p : Fin 256) :
    (kernelRun0_A.sl.r_13 (F := Ideal) c arg1 harg1 arg2 harg2 arg4 harg4 arg7 x0 x1 x3 (ix2 p (0 : Fin 1)) : EReal) = zero32 + tileSum (wT (sb x0 x1 x3 p)) 0 := by
  unfold kernelRun0_A.sl.r_13
  exact pay35_apply (r12_apply c arg1 harg1 arg2 harg2 arg4 harg4 arg7 x0 x1 x3 p)

/-- Tile 0's sum of weight times score. -/
theorem r14_apply (p : Fin 256) :
    (kernelRun0_A.sl.r_14 (F := Ideal) c arg1 harg1 arg2 harg2 arg4 harg4 arg7 x0 x1 x3 (ix2 p (0 : Fin 1)) : EReal) = tileSum (fun k => wT (sb x0 x1 x3 p) k * sb x0 x1 x3 p k) 0 := by
  unfold kernelRun0_A.sl.r_14
  exact pay36_apply (r12_apply c arg1 harg1 arg2 harg2 arg4 harg4 arg7 x0 x1 x3 p) (tile0_apply c arg1 harg1 arg2 harg2 arg4 harg4 arg7 x0 x1 x3 p)

/-- The weights' sum after tiles 0 to 2. -/
theorem r15_apply (p : Fin 256) :
    (kernelRun0_A.sl.r_15 (F := Ideal) c arg1 harg1 arg2 harg2 arg4 harg4 arg7 x0 x1 x3 (ix2 p (0 : Fin 1)) : EReal) = zero32 + tileSum (wT (sb x0 x1 x3 p)) 0 + tileSum (wT (sb x0 x1 x3 p)) 1 + tileSum (wT (sb x0 x1 x3 p)) 2 := by
  unfold kernelRun0_A.sl.r_15
  exact pay41_apply (eff_apply c arg1 harg1 arg2 harg2 arg4 harg4 x0 x1 x3 p) (maxeff_apply c arg1 harg1 arg2 harg2 arg4 harg4 x0 x1 x3 p) (r13_apply c arg1 harg1 arg2 harg2 arg4 harg4 arg7 x0 x1 x3 p) (tile1_apply c arg1 harg1 arg2 harg2 arg4 harg4 arg7 x0 x1 x3 p) (tile2_apply c arg1 harg1 arg2 harg2 arg4 harg4 arg7 x0 x1 x3 p)

/-- The sum of weight times score after tiles 0 to 2. -/
theorem r16_apply (p : Fin 256) :
    (kernelRun0_A.sl.r_16 (F := Ideal) c arg1 harg1 arg2 harg2 arg4 harg4 arg7 x0 x1 x3 (ix2 p (0 : Fin 1)) : EReal) = zero32 + tileSum (fun k => wT (sb x0 x1 x3 p) k * sb x0 x1 x3 p k) 0 + tileSum (fun k => wT (sb x0 x1 x3 p) k * sb x0 x1 x3 p k) 1 + tileSum (fun k => wT (sb x0 x1 x3 p) k * sb x0 x1 x3 p k) 2 := by
  unfold kernelRun0_A.sl.r_16
  exact pay42_apply (eff_apply c arg1 harg1 arg2 harg2 arg4 harg4 x0 x1 x3 p) (maxeff_apply c arg1 harg1 arg2 harg2 arg4 harg4 x0 x1 x3 p) (rfl : (k0_pay30 (F := Ideal) (ix2 p (0 : Fin 1)) : EReal) = zero32)
    (r14_apply c arg1 harg1 arg2 harg2 arg4 harg4 arg7 x0 x1 x3 p) (tile1_apply c arg1 harg1 arg2 harg2 arg4 harg4 arg7 x0 x1 x3 p) (tile2_apply c arg1 harg1 arg2 harg2 arg4 harg4 arg7 x0 x1 x3 p)

/-- The product with the candidates after tiles 0 to 2. -/
theorem r17_apply (p j : Fin 256) :
    (kernelRun0_A.sl.r_17 (F := Ideal) c arg1 harg1 arg2 harg2 arg3 harg3 arg4 harg4 arg7 x0 x1 x2 x3 (ix2 p j) : EReal) = zero32 + tileSum (fun k => wT (sb x0 x1 x3 p) k * (x2 (ix2 k j) : EReal)) 0 + tileSum (fun k => wT (sb x0 x1 x3 p) k * (x2 (ix2 k j) : EReal)) 1 + tileSum (fun k => wT (sb x0 x1 x3 p) k * (x2 (ix2 k j) : EReal)) 2 := by
  unfold kernelRun0_A.sl.r_17
  exact pay43_apply (y := (fun k : Fin 8192 => (x2 (ix2 k j) : EReal))) (eff_apply c arg1 harg1 arg2 harg2 arg4 harg4 x0 x1 x3 p) (maxeff_apply c arg1 harg1 arg2 harg2 arg4 harg4 x0 x1 x3 p) (rfl : (k0_pay31 (F := Ideal) (ix2 p j) : EReal) = zero32)
    (r12_apply c arg1 harg1 arg2 harg2 arg4 harg4 arg7 x0 x1 x3 p) (fun q => loadYh0_apply arg3 harg3 x2 q j) (tile1_apply c arg1 harg1 arg2 harg2 arg4 harg4 arg7 x0 x1 x3 p) (fun q => loadYh1_apply arg3 harg3 x2 q j) (tile2_apply c arg1 harg1 arg2 harg2 arg4 harg4 arg7 x0 x1 x3 p) (fun q => loadYh2_apply arg3 harg3 x2 q j)

/-- The weights' sum after tiles 0 to 4. -/
theorem r18_apply (p : Fin 256) :
    (kernelRun0_A.sl.r_18 (F := Ideal) c arg1 harg1 arg2 harg2 arg4 harg4 arg7 x0 x1 x3 (ix2 p (0 : Fin 1)) : EReal) = zero32 + tileSum (wT (sb x0 x1 x3 p)) 0 + tileSum (wT (sb x0 x1 x3 p)) 1 + tileSum (wT (sb x0 x1 x3 p)) 2 + tileSum (wT (sb x0 x1 x3 p)) 3 + tileSum (wT (sb x0 x1 x3 p)) 4 := by
  unfold kernelRun0_A.sl.r_18
  exact pay48_apply (eff_apply c arg1 harg1 arg2 harg2 arg4 harg4 x0 x1 x3 p) (maxeff_apply c arg1 harg1 arg2 harg2 arg4 harg4 x0 x1 x3 p) (r15_apply c arg1 harg1 arg2 harg2 arg4 harg4 arg7 x0 x1 x3 p) (tile3_apply c arg1 harg1 arg2 harg2 arg4 harg4 arg7 x0 x1 x3 p) (tile4_apply c arg1 harg1 arg2 harg2 arg4 harg4 arg7 x0 x1 x3 p)

/-- The sum of weight times score after tiles 0 to 4. -/
theorem r19_apply (p : Fin 256) :
    (kernelRun0_A.sl.r_19 (F := Ideal) c arg1 harg1 arg2 harg2 arg4 harg4 arg7 x0 x1 x3 (ix2 p (0 : Fin 1)) : EReal) = zero32 + tileSum (fun k => wT (sb x0 x1 x3 p) k * sb x0 x1 x3 p k) 0 + tileSum (fun k => wT (sb x0 x1 x3 p) k * sb x0 x1 x3 p k) 1 + tileSum (fun k => wT (sb x0 x1 x3 p) k * sb x0 x1 x3 p k) 2 + tileSum (fun k => wT (sb x0 x1 x3 p) k * sb x0 x1 x3 p k) 3 + tileSum (fun k => wT (sb x0 x1 x3 p) k * sb x0 x1 x3 p k) 4 := by
  unfold kernelRun0_A.sl.r_19
  exact pay49_apply (eff_apply c arg1 harg1 arg2 harg2 arg4 harg4 x0 x1 x3 p) (maxeff_apply c arg1 harg1 arg2 harg2 arg4 harg4 x0 x1 x3 p) (r16_apply c arg1 harg1 arg2 harg2 arg4 harg4 arg7 x0 x1 x3 p) (tile3_apply c arg1 harg1 arg2 harg2 arg4 harg4 arg7 x0 x1 x3 p) (tile4_apply c arg1 harg1 arg2 harg2 arg4 harg4 arg7 x0 x1 x3 p)

/-- The product with the candidates after tiles 0 to 4. -/
theorem r20_apply (p j : Fin 256) :
    (kernelRun0_A.sl.r_20 (F := Ideal) c arg1 harg1 arg2 harg2 arg3 harg3 arg4 harg4 arg7 x0 x1 x2 x3 (ix2 p j) : EReal) = zero32 + tileSum (fun k => wT (sb x0 x1 x3 p) k * (x2 (ix2 k j) : EReal)) 0 + tileSum (fun k => wT (sb x0 x1 x3 p) k * (x2 (ix2 k j) : EReal)) 1 + tileSum (fun k => wT (sb x0 x1 x3 p) k * (x2 (ix2 k j) : EReal)) 2 + tileSum (fun k => wT (sb x0 x1 x3 p) k * (x2 (ix2 k j) : EReal)) 3 + tileSum (fun k => wT (sb x0 x1 x3 p) k * (x2 (ix2 k j) : EReal)) 4 := by
  unfold kernelRun0_A.sl.r_20
  exact pay50_apply (y := (fun k : Fin 8192 => (x2 (ix2 k j) : EReal))) (eff_apply c arg1 harg1 arg2 harg2 arg4 harg4 x0 x1 x3 p) (maxeff_apply c arg1 harg1 arg2 harg2 arg4 harg4 x0 x1 x3 p) (r17_apply c arg1 harg1 arg2 harg2 arg3 harg3 arg4 harg4 arg7 x0 x1 x2 x3 p j)
    (tile3_apply c arg1 harg1 arg2 harg2 arg4 harg4 arg7 x0 x1 x3 p) (fun q => loadYh3_apply arg3 harg3 x2 q j) (tile4_apply c arg1 harg1 arg2 harg2 arg4 harg4 arg7 x0 x1 x3 p) (fun q => loadYh4_apply arg3 harg3 x2 q j)

/-- Tile 5's weights. -/
theorem r21_apply (p : Fin 256) (q : Fin 1024) :
    (kernelRun0_A.sl.r_21 (F := Ideal) c arg1 harg1 arg2 harg2 arg4 harg4 arg7 x0 x1 x3 (ix2 p q) : EReal) = wT (sb x0 x1 x3 p) (tk 5 q) := by
  unfold kernelRun0_A.sl.r_21
  exact pay51_w (eff_apply c arg1 harg1 arg2 harg2 arg4 harg4 x0 x1 x3 p) (maxeff_apply c arg1 harg1 arg2 harg2 arg4 harg4 x0 x1 x3 p) (tile5_apply c arg1 harg1 arg2 harg2 arg4 harg4 arg7 x0 x1 x3 p) q

/-- The sum of weight times score after tiles 0 to 6. -/
theorem r22_apply (p : Fin 256) :
    (kernelRun0_A.sl.r_22 (F := Ideal) c arg1 harg1 arg2 harg2 arg4 harg4 arg7 x0 x1 x3 (ix2 p (0 : Fin 1)) : EReal) = zero32 + tileSum (fun k => wT (sb x0 x1 x3 p) k * sb x0 x1 x3 p k) 0 + tileSum (fun k => wT (sb x0 x1 x3 p) k * sb x0 x1 x3 p k) 1 + tileSum (fun k => wT (sb x0 x1 x3 p) k * sb x0 x1 x3 p k) 2 + tileSum (fun k => wT (sb x0 x1 x3 p) k * sb x0 x1 x3 p k) 3 + tileSum (fun k => wT (sb x0 x1 x3 p) k * sb x0 x1 x3 p k) 4 + tileSum (fun k => wT (sb x0 x1 x3 p) k * sb x0 x1 x3 p k) 5 + tileSum (fun k => wT (sb x0 x1 x3 p) k * sb x0 x1 x3 p k) 6 := by
  unfold kernelRun0_A.sl.r_22
  exact pay55_apply (eff_apply c arg1 harg1 arg2 harg2 arg4 harg4 x0 x1 x3 p) (maxeff_apply c arg1 harg1 arg2 harg2 arg4 harg4 x0 x1 x3 p) (r19_apply c arg1 harg1 arg2 harg2 arg4 harg4 arg7 x0 x1 x3 p) (r21_apply c arg1 harg1 arg2 harg2 arg4 harg4 arg7 x0 x1 x3 p) (tile5_apply c arg1 harg1 arg2 harg2 arg4 harg4 arg7 x0 x1 x3 p) (tile6_apply c arg1 harg1 arg2 harg2 arg4 harg4 arg7 x0 x1 x3 p)

/-- The product with the candidates after tiles 0 to 6. -/
theorem r23_apply (p j : Fin 256) :
    (kernelRun0_A.sl.r_23 (F := Ideal) c arg1 harg1 arg2 harg2 arg3 harg3 arg4 harg4 arg7 x0 x1 x2 x3 (ix2 p j) : EReal) = zero32 + tileSum (fun k => wT (sb x0 x1 x3 p) k * (x2 (ix2 k j) : EReal)) 0 + tileSum (fun k => wT (sb x0 x1 x3 p) k * (x2 (ix2 k j) : EReal)) 1 + tileSum (fun k => wT (sb x0 x1 x3 p) k * (x2 (ix2 k j) : EReal)) 2 + tileSum (fun k => wT (sb x0 x1 x3 p) k * (x2 (ix2 k j) : EReal)) 3 + tileSum (fun k => wT (sb x0 x1 x3 p) k * (x2 (ix2 k j) : EReal)) 4 + tileSum (fun k => wT (sb x0 x1 x3 p) k * (x2 (ix2 k j) : EReal)) 5 + tileSum (fun k => wT (sb x0 x1 x3 p) k * (x2 (ix2 k j) : EReal)) 6 := by
  unfold kernelRun0_A.sl.r_23
  exact pay56_apply (y := (fun k : Fin 8192 => (x2 (ix2 k j) : EReal))) (eff_apply c arg1 harg1 arg2 harg2 arg4 harg4 x0 x1 x3 p) (maxeff_apply c arg1 harg1 arg2 harg2 arg4 harg4 x0 x1 x3 p) (r20_apply c arg1 harg1 arg2 harg2 arg3 harg3 arg4 harg4 arg7 x0 x1 x2 x3 p j)
    (r21_apply c arg1 harg1 arg2 harg2 arg4 harg4 arg7 x0 x1 x3 p) (fun q => loadYh5_apply arg3 harg3 x2 q j) (tile6_apply c arg1 harg1 arg2 harg2 arg4 harg4 arg7 x0 x1 x3 p) (fun q => loadYh6_apply arg3 harg3 x2 q j)

/-- Tile 7's weights. -/
theorem r24_apply (p : Fin 256) (q : Fin 1024) :
    (kernelRun0_A.sl.r_24 (F := Ideal) c arg1 harg1 arg2 harg2 arg4 harg4 arg7 x0 x1 x3 (ix2 p q) : EReal) = wT (sb x0 x1 x3 p) (tk 7 q) := by
  unfold kernelRun0_A.sl.r_24
  exact pay57_w (eff_apply c arg1 harg1 arg2 harg2 arg4 harg4 x0 x1 x3 p) (maxeff_apply c arg1 harg1 arg2 harg2 arg4 harg4 x0 x1 x3 p) (tile7_apply c arg1 harg1 arg2 harg2 arg4 harg4 arg7 x0 x1 x3 p) q

/-- The weights' sum over all eight tiles. -/
theorem r25_apply (p : Fin 256) :
    (kernelRun0_A.sl.r_25 (F := Ideal) c arg1 harg1 arg2 harg2 arg4 harg4 arg7 x0 x1 x3 (ix2 p (0 : Fin 1)) : EReal) = sumT (wT (sb x0 x1 x3 p)) := by
  unfold kernelRun0_A.sl.r_25 sumT
  exact pay60_apply (eff_apply c arg1 harg1 arg2 harg2 arg4 harg4 x0 x1 x3 p) (maxeff_apply c arg1 harg1 arg2 harg2 arg4 harg4 x0 x1 x3 p) (r18_apply c arg1 harg1 arg2 harg2 arg4 harg4 arg7 x0 x1 x3 p) (r21_apply c arg1 harg1 arg2 harg2 arg4 harg4 arg7 x0 x1 x3 p) (tile6_apply c arg1 harg1 arg2 harg2 arg4 harg4 arg7 x0 x1 x3 p) (tile7_apply c arg1 harg1 arg2 harg2 arg4 harg4 arg7 x0 x1 x3 p)

/-- Tile 7's weight times score. -/
theorem r26_apply (p : Fin 256) (q : Fin 1024) :
    (kernelRun0_A.sl.r_26 (F := Ideal) c arg1 harg1 arg2 harg2 arg4 harg4 arg7 x0 x1 x3 (ix2 p q) : EReal) = wT (sb x0 x1 x3 p) (tk 7 q) * sb x0 x1 x3 p (tk 7 q) := by
  unfold kernelRun0_A.sl.r_26
  exact congrArg₂ (· * ·) (pay57_w (eff_apply c arg1 harg1 arg2 harg2 arg4 harg4 x0 x1 x3 p) (maxeff_apply c arg1 harg1 arg2 harg2 arg4 harg4 x0 x1 x3 p) (tile7_apply c arg1 harg1 arg2 harg2 arg4 harg4 arg7 x0 x1 x3 p) q) (tile7_apply c arg1 harg1 arg2 harg2 arg4 harg4 arg7 x0 x1 x3 p q)

/-! ## The two stored values -/

/-- The stored block of candidate means at `(p, j)`: the tiled weighted mean of coordinate `j` of the
    candidates under row `p`'s weights. -/
theorem piece4_apply (p j : Fin 256) :
    (piece4 (F := Ideal) c i arg1 harg1 arg2 harg2 arg3 harg3 arg4 harg4 arg5 harg5 arg6 harg6 arg7 harg7 x0 x1 x2 x3 (ix2 p j) : EReal)
      = choiceT (sb x0 x1 x3 p) (fun k => (x2 (ix2 k j) : EReal)) := by
  unfold piece4 choiceT
  rw [sumT]
  exact pay3_apply (y := (fun k : Fin 8192 => (x2 (ix2 k j) : EReal))) (r23_apply c arg1 harg1 arg2 harg2 arg3 harg3 arg4 harg4 arg7 x0 x1 x2 x3 p j) (r24_apply c arg1 harg1 arg2 harg2 arg4 harg4 arg7 x0 x1 x3 p) (r25_apply c arg1 harg1 arg2 harg2 arg4 harg4 arg7 x0 x1 x3 p) (fun q => loadYh7_apply arg3 harg3 x2 q j)

/-- The stored block of score means at row `p`: the tiled weighted mean of row `p`'s scores. -/
theorem piece5_apply (p : Fin 256) :
    (piece5 (F := Ideal) c i arg1 harg1 arg2 harg2 arg3 harg3 arg4 harg4 arg5 harg5 arg6 harg6 arg7 harg7 x0 x1 x2 x3 (ix2 p (0 : Fin 1)) : EReal)
      = valT (sb x0 x1 x3 p) := by
  unfold piece5 valT
  rw [sumT]
  exact pay2_apply (f := (fun k => wT (sb x0 x1 x3 p) k * sb x0 x1 x3 p k)) (r22_apply c arg1 harg1 arg2 harg2 arg4 harg4 arg7 x0 x1 x3 p) (r25_apply c arg1 harg1 arg2 harg2 arg4 harg4 arg7 x0 x1 x3 p) (r26_apply c arg1 harg1 arg2 harg2 arg4 harg4 arg7 x0 x1 x3 p)

end

end Cert.Fcm.K

end
-- ==== Proof.KBlocks.lean ====
/-
  What grid point `t` leaves in its two output blocks, in terms of the ARGUMENT arrays.

  The region finds X and the intercepts as launched, the candidates as the launched [1, 8192, 256] array with
  its unit axis dropped, and the narrowed candidates as the same values (narrowing is the identity on the
  extended reals). Point `t` stages rows `256 t … 256 t + 255` of X and the whole of the other three. So the
  block of scores it works on is rows `256 t + p` of the score matrix of the arguments, and what it leaves at
  `(p, j)` and at `p` are the tiled weighted means of that row.
-/
import proofs.«168320_g88089779241353_cont_9to1c4b_404_5_alg».proof.Proof.KSoft
import Idealize.ShloMosaic.Lib.StableHlo.Run

set_option maxRecDepth 16384

noncomputable section

namespace Cert.Fcm.K

open Cert.KernelIdeal Cert.KernelIdeal.Gen Cert.Fcm
open Idealize.ShloMosaic Idealize.ShloMosaic.ValueIdx Idealize.ShloMosaic.TcCoe Idealize.SL.Sem

variable (m : (ℓ : Loc nD τ sig) → Buf (Elt Ideal) ℓ)

/-- The launched X, candidates and intercepts on core `c`. -/
abbrev Xa (c : Dev nD) : (⟨2, ![4096, 256]⟩ : Shape).Idx → EReal := m ((c.tc : Thread nD τ).loc main_arg0)
abbrev Ya (c : Dev nD) : (⟨3, ![1, 8192, 256]⟩ : Shape).Idx → EReal := m ((c.tc : Thread nD τ).loc main_arg1)
abbrev ba (c : Dev nD) : (⟨2, ![1, 8192]⟩ : Shape).Idx → EReal := m ((c.tc : Thread nD τ).loc main_arg2)

/-- Row `p` of point `t`'s block is row `256 t + p` of the arrays. -/
def rowOf (t : Fin cfg0.N) (p : Fin 256) : Fin 4096 :=
  ⟨256 * t.val + p.val, by have h := t.isLt; have hN : cfg0.N = 16 := N_0; omega⟩

/-- The candidates as the region finds them: the launched array with its unit axis dropped. -/
theorem V_v0 (c : Dev nD) : (V m c main_call0_v0 : S8192x256.Idx → EReal)
    = shapeCast S8192x256 (m ((c.tc : Thread nD τ).loc main_arg1)) shapeCasts_S1x8192x256_S8192x256 := by
  show StableHlo.after (List.flatten [hostOps0]) (fun b => m (c, b)) (Proc.devRef .tc main_call0_v0) = _
  simp only [hostOps0, List.flatten_cons, List.flatten_nil, List.append_nil, List.cons_append, List.nil_append]
  after_results
  rfl

/-- The narrowed candidates as the region finds them: the same array narrowed. -/
theorem V_v1 (c : Dev nD) : (V m c main_call0_v1 : S8192x256.Idx → EReal)
    = truncf .bf16 (shapeCast S8192x256 (m ((c.tc : Thread nD τ).loc main_arg1)) shapeCasts_S1x8192x256_S8192x256 : FVec Ideal S8192x256 .f32) bitsLt_bf16_f32 := by
  show StableHlo.after (List.flatten [hostOps0]) (fun b => m (c, b)) (Proc.devRef .tc main_call0_v1) = _
  simp only [hostOps0, List.flatten_cons, List.flatten_nil, List.append_nil, List.cons_append, List.nil_append]
  after_results
  rfl

/-- The candidates at an index. -/
theorem V_v0_apply (c : Dev nD) (k : Fin 8192) (j : Fin 256) :
    (V m c main_call0_v0 : S8192x256.Idx → EReal) (ix2 k j) = Ya m c (ix3 (0 : Fin 1) k j) := by
  rw [V_v0]; exact shapeCast_1ab_ab_apply _ _ k j

/-- The narrowed candidates at an index: narrowing is the identity on the extended reals. -/
theorem V_v1_apply (c : Dev nD) (k : Fin 8192) (j : Fin 256) :
    (V m c main_call0_v1 : S8192x256.Idx → EReal) (ix2 k j) = Ya m c (ix3 (0 : Fin 1) k j) := by
  rw [V_v1, truncf_apply]; exact shapeCast_1ab_ab_apply _ _ k j

/-- The four input blocks of point `t`, over their literal types. -/
abbrev xblk (c : Dev nD) (t : Fin cfg0.N) : Vec Ideal S256x256 .f32 := iblk m c 0 t
abbrev yblk (c : Dev nD) (t : Fin cfg0.N) : Vec Ideal S8192x256 .f32 := iblk m c 1 t
abbrev qblk (c : Dev nD) (t : Fin cfg0.N) : Vec Ideal S8192x256 .bf16 := iblk m c 2 t
abbrev bblk (c : Dev nD) (t : Fin cfg0.N) : Vec Ideal S1x8192 .f32 := iblk m c 3 t

/-- The block indices: window 0 is at block `(t, 0)`, the other three at `(0, 0)`. -/
theorem idx0 : ∀ t : Fin grid0.N, win0_0.index t (0 : Fin 2) = t.val ∧ win0_0.index t (1 : Fin 2) = 0 := by
  decide +kernel
theorem idx1 : ∀ t : Fin grid0.N, win0_1.index t (0 : Fin 2) = 0 ∧ win0_1.index t (1 : Fin 2) = 0 := by
  decide +kernel
theorem idx2 : ∀ t : Fin grid0.N, win0_2.index t (0 : Fin 2) = 0 ∧ win0_2.index t (1 : Fin 2) = 0 := by
  decide +kernel
theorem idx3 : ∀ t : Fin grid0.N, win0_3.index t (0 : Fin 2) = 0 ∧ win0_3.index t (1 : Fin 2) = 0 := by
  decide +kernel

/-- The X block of point `t` at `(p, jj)` is X at `(256 t + p, jj)`. -/
theorem xblk_apply (c : Dev nD) (t : Fin cfg0.N) (p jj : Fin 256) :
    xblk m c t (ix2 p jj) = Xa m c (ix2 (rowOf t p) jj) := by
  have hi := idx0 t
  unfold xblk iblk
  rw [View.read_apply]
  show V m c main_arg0 _ = _
  rw [V_main_arg0]
  congr 1
  funext a
  apply Fin.ext
  match a with
  | ⟨0, _⟩ => show win0_0.index t 0 * 256 + 1 * p.val = 256 * t.val + p.val; rw [hi.1]; omega
  | ⟨1, _⟩ => show win0_0.index t 1 * 256 + 1 * jj.val = jj.val; rw [hi.2]; omega

/-- The block of candidates is the whole array: at `(k, jj)` the launched candidates at `(0, k, jj)`. -/
theorem yblk_apply (c : Dev nD) (t : Fin cfg0.N) (k : Fin 8192) (jj : Fin 256) :
    yblk m c t (ix2 k jj) = Ya m c (ix3 (0 : Fin 1) k jj) := by
  have hi := idx1 t
  rw [← V_v0_apply m c k jj]
  unfold yblk iblk
  rw [View.read_apply]
  show V m c main_call0_v0 _ = _
  congr 1
  funext a
  apply Fin.ext
  match a with
  | ⟨0, _⟩ => show win0_1.index t 0 * 8192 + 1 * k.val = k.val; rw [hi.1]; omega
  | ⟨1, _⟩ => show win0_1.index t 1 * 256 + 1 * jj.val = jj.val; rw [hi.2]; omega

/-- The block of narrowed candidates is the whole array, and holds the same values. -/
theorem qblk_apply (c : Dev nD) (t : Fin cfg0.N) (k : Fin 8192) (j : Fin 256) :
    (qblk m c t (ix2 k j) : EReal) = Ya m c (ix3 (0 : Fin 1) k j) := by
  have hi := idx2 t
  rw [← V_v1_apply m c k j]
  unfold qblk iblk
  rw [View.read_apply]
  show V m c main_call0_v1 _ = _
  congr 1
  funext a
  apply Fin.ext
  match a with
  | ⟨0, _⟩ => show win0_2.index t 0 * 8192 + 1 * k.val = k.val; rw [hi.1]; omega
  | ⟨1, _⟩ => show win0_2.index t 1 * 256 + 1 * j.val = j.val; rw [hi.2]; omega

/-- The block of intercepts is the whole array. -/
theorem bblk_apply (c : Dev nD) (t : Fin cfg0.N) (k : Fin 8192) :
    bblk m c t (ix2 (0 : Fin 1) k) = ba m c (ix2 (0 : Fin 1) k) := by
  have hi := idx3 t
  unfold bblk iblk
  rw [View.read_apply]
  show V m c main_arg2 _ = _
  rw [V_main_arg2]
  congr 1
  funext a
  apply Fin.ext
  match a with
  | ⟨0, _⟩ => show win0_3.index t 0 * 1 + 1 * 0 = 0; rw [hi.1]
  | ⟨1, _⟩ => show win0_3.index t 1 * 8192 + 1 * k.val = k.val; rw [hi.2]; omega

/-- The block of scores point `t` works on, row `p`: row `256 t + p` of the arguments' scores. -/
theorem sb_blocks (c : Dev nD) (t : Fin cfg0.N) (p : Fin 256) :
    sb (xblk m c t) (yblk m c t) (bblk m c t) p = scoreRow (Xa m c) (Ya m c) (ba m c) (rowOf t p) := by
  funext k
  unfold sb scoreRow
  rw [bblk_apply]
  congr 1
  exact Finset.sum_congr rfl fun jj _ => by rw [xblk_apply, yblk_apply]

/-- Coordinate `j` of the block of narrowed candidates is coordinate `j` of the arguments' candidates. -/
theorem q_col (c : Dev nD) (t : Fin cfg0.N) (j : Fin 256) :
    (fun k : Fin 8192 => (qblk m c t (ix2 k j) : EReal)) = codeCol (Ya m c) j := by
  funext k
  unfold codeCol
  exact qblk_apply m c t k j

/-- What point `t` leaves in the block of candidate means, at `(p, j)`. -/
theorem outs4_apply (c : Dev nD) (t : Fin cfg0.N) (p j : Fin 256) :
    (((outsAt0 m c t).1 : Vec Ideal S256x256 .f32) (ix2 p j) : EReal)
      = choiceT (scoreRow (Xa m c) (Ya m c) (ba m c) (rowOf t p)) (codeCol (Ya m c) j) := by
  unfold outsAt0
  dsimp only
  rw [out4_eq, piece4_apply]
  rw [← sb_blocks m c t p, ← q_col m c t j]

/-- What point `t` leaves in the block of score means, at row `p`. -/
theorem outs5_apply (c : Dev nD) (t : Fin cfg0.N) (p : Fin 256) :
    (((outsAt0 m c t).2 : Vec Ideal S256x1 .f32) (ix2 p (0 : Fin 1)) : EReal)
      = valT (scoreRow (Xa m c) (Ya m c) (ba m c) (rowOf t p)) := by
  unfold outsAt0
  dsimp only
  rw [out5_eq, piece5_apply]
  rw [← sb_blocks m c t p]

end Cert.Fcm.K

end
-- ==== Proof.KArrays.lean ====
/-
  The kernel's two result arrays after the whole run.

  The sixteen points' blocks of candidate means tile the [4096, 256] result and their blocks of score means
  tile a [4096, 1] array, each written back once; so each array ends holding, row by row, the tiled weighted
  means of that row's scores. The host line after the region drops the unit axis of the second.
-/
import proofs.«168320_g88089779241353_cont_9to1c4b_404_5_alg».proof.Proof.KBlocks
import Idealize.ShloMosaic.Lib.Pipeline.Value
import Idealize.ShloMosaic.Lib.StableHlo.Run

set_option maxRecDepth 16384

noncomputable section

namespace Cert.Fcm.K

open Cert.KernelIdeal Cert.KernelIdeal.Gen Cert.Fcm
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The candidate means of every row: the [4096, 256] result. -/
def G4 (c : Dev nD) : Buf (Elt Ideal) ((c.tc : Thread nD τ).loc main_v0_0) :=
  fun i => choiceT (scoreRow (Xa m c) (Ya m c) (ba m c) ⟨(i 0).val, (i 0).isLt⟩) (codeCol (Ya m c) ⟨(i 1).val, (i 1).isLt⟩)

/-- The score means of every row, as the [4096, 1] array the region writes. -/
def G5 (c : Dev nD) : Buf (Elt Ideal) ((c.tc : Thread nD τ).loc main_call0_v2_1) :=
  fun i => valT (scoreRow (Xa m c) (Ya m c) (ba m c) ⟨(i 0).val, (i 0).isLt⟩)

/-- … and with the unit axis dropped: the [4096] result. -/
def G5flat (c : Dev nD) : Buf (Elt Ideal) ((c.tc : Thread nD τ).loc main_v0_1) :=
  fun i => valT (scoreRow (Xa m c) (Ya m c) (ba m c) ⟨(i 0).val, (i 0).isLt⟩)

theorem G4_apply (c : Dev nD) (r : Fin 4096) (j : Fin 256) :
    (G4 m c (ix2 r j) : EReal) = choiceT (scoreRow (Xa m c) (Ya m c) (ba m c) r) (codeCol (Ya m c) j) := by
  rfl

theorem G5flat_apply (c : Dev nD) (r : Fin 4096) :
    (G5flat m c (ix1 r) : EReal) = valT (scoreRow (Xa m c) (Ya m c) (ba m c) r) := by
  rfl

/-! ## Reading the two arrays at an index given by its coordinates -/

/-- The candidate means at an index whose coordinates are `r` and `j`. -/
theorem G4_of_coords (c : Dev nD) (i : S4096x256.Idx) (r : Fin 4096) (j : Fin 256)
    (h0 : (i 0).val = r.val) (h1 : (i 1).val = j.val) :
    (G4 m c i : EReal) = choiceT (scoreRow (Xa m c) (Ya m c) (ba m c) r) (codeCol (Ya m c) j) := by
  have hr : (⟨(i 0).val, (i 0).isLt⟩ : Fin 4096) = r := Fin.ext h0
  have hj : (⟨(i 1).val, (i 1).isLt⟩ : Fin 256) = j := Fin.ext h1
  show choiceT (scoreRow (Xa m c) (Ya m c) (ba m c) ⟨(i 0).val, (i 0).isLt⟩)
    (codeCol (Ya m c) ⟨(i 1).val, (i 1).isLt⟩) = _
  rw [hr, hj]

/-- The score means at an index whose first coordinate is `r`. -/
theorem G5_of_coords (c : Dev nD) (i : S4096x1.Idx) (r : Fin 4096) (h0 : (i 0).val = r.val) :
    (G5 m c i : EReal) = valT (scoreRow (Xa m c) (Ya m c) (ba m c) r) := by
  have hr : (⟨(i 0).val, (i 0).isLt⟩ : Fin 4096) = r := Fin.ext h0
  show valT (scoreRow (Xa m c) (Ya m c) (ba m c) ⟨(i 0).val, (i 0).isLt⟩) = _
  rw [hr]

/-! ## The blocks' places in the arrays -/

/-- Point `t`'s block of candidate means is block `(t, 0)` of its array. -/
theorem idx_facts4 : ∀ t : Fin cfg0.N, win0_4.index t (0 : Fin 2) = t.val ∧ win0_4.index t (1 : Fin 2) = 0 :=
  (by decide +kernel : ∀ t : Fin grid0.N, _)

/-- Point `t`'s block of score means is block `(t, 0)` of its array. -/
theorem idx_facts5 : ∀ t : Fin cfg0.N, win0_5.index t (0 : Fin 2) = t.val ∧ win0_5.index t (1 : Fin 2) = 0 :=
  (by decide +kernel : ∀ t : Fin grid0.N, _)

/-! ## The candidate means -/

/-- What point `t` writes back is block `t` of `G4`. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  obtain ⟨e0, e1⟩ := idx_facts4 t
  funext y
  obtain ⟨p, j, rfl⟩ : ∃ (p j : Fin 256), y = ix2 p j := ⟨y 0, y 1, eq_ix2 y⟩
  rw [View.read_apply]
  refine (outs4_apply m c t p j).trans (G4_of_coords m c _ (rowOf t p) j ?_ ?_).symm
  · show win0_4.index t (0 : Fin 2) * 256 + 1 * p.val = 256 * t.val + p.val
    rw [e0]; omega
  · show win0_4.index t (1 : Fin 2) * 256 + 1 * j.val = j.val
    rw [e1]; omega

/-- Every index of the array lies in some point's block. -/
theorem cover4 (i : S4096x256.Idx) :
    ∃ t : Fin cfg0.N, (cfg0.win 4).flush t = true ∧ i ∈ ((cfg0.win 4).blk t).view.set := by
  have h0 : (i 0).val < 4096 := (i 0).isLt
  have h1 : (i 1).val < 256 := (i 1).isLt
  have hN : cfg0.N = 16 := N_0
  obtain ⟨t, ht⟩ : ∃ t : Fin cfg0.N, t.val = (i 0).val / 256 := ⟨⟨(i 0).val / 256, by omega⟩, rfl⟩
  obtain ⟨e0, e1⟩ := idx_facts4 t
  refine ⟨t, flush0_4 t, ?_⟩
  show i ∈ ((View.whole main_v0_0).slice (win0_4.rect t)).set
  rw [View.set_slice_whole, Rect.mem_set_unit]
  intro a
  match a with
  | ⟨0, _⟩ =>
    show win0_4.index t (0 : Fin 2) * 256 ≤ (i 0).val ∧ (i 0).val < win0_4.index t (0 : Fin 2) * 256 + 256
    rw [e0]; omega
  | ⟨1, _⟩ =>
    show win0_4.index t (1 : Fin 2) * 256 ≤ (i 1).val ∧ (i 1).val < win0_4.index t (1 : Fin 2) * 256 + 256
    rw [e1]; omega

/-- The array of candidate means after the run. -/
theorem final4 (c : Dev nD) : (dats m 0 c).arrAt 4 cfg0.N = G4 m c :=
  (dats m 0 c).arrAt_eq_of_cover 4 (G4 m c) (fun t _ => flushed4_eq m c t) cover4

/-! ## The score means -/

/-- What point `t` writes back is block `t` of `G5`. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  obtain ⟨e0, e1⟩ := idx_facts5 t
  funext y
  obtain ⟨p, q, rfl⟩ : ∃ (p : Fin 256) (q : Fin 1), y = ix2 p q := ⟨y 0, y 1, eq_ix2 y⟩
  obtain rfl : q = 0 := Subsingleton.elim _ _
  rw [View.read_apply]
  refine (outs5_apply m c t p).trans (G5_of_coords m c _ (rowOf t p) ?_).symm
  show win0_5.index t (0 : Fin 2) * 256 + 1 * p.val = 256 * t.val + p.val
  rw [e0]; omega

/-- Every index of the array lies in some point's block. -/
theorem cover5 (i : S4096x1.Idx) :
    ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 16 := N_0
  obtain ⟨t, ht⟩ : ∃ t : Fin cfg0.N, t.val = (i 0).val / 256 := ⟨⟨(i 0).val / 256, by omega⟩, rfl⟩
  obtain ⟨e0, e1⟩ := idx_facts5 t
  refine ⟨t, flush0_5 t, ?_⟩
  show i ∈ ((View.whole main_call0_v2_1).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0]; omega
  | ⟨1, _⟩ =>
    show win0_5.index t (1 : Fin 2) * 1 ≤ (i 1).val ∧ (i 1).val < win0_5.index t (1 : Fin 2) * 1 + 1
    rw [e1]; omega

/-- The [4096, 1] array of score means after the run. -/
theorem final5 (c : Dev nD) : (dats m 0 c).arrAt 5 cfg0.N = G5 m c :=
  (dats m 0 c).arrAt_eq_of_cover 5 (G5 m c) (fun t _ => flushed5_eq m c t) cover5

/-! ## The host line after the region -/

/-- Dropping the unit axis of the [4096, 1] array of score means. -/
theorem shapeCast_G5 (c : Dev nD) (h : S4096x1.ShapeCasts S4096) :
    shapeCast S4096 (G5 m c) h = G5flat m c := by
  funext i
  obtain ⟨r, rfl⟩ : ∃ r : Fin 4096, i = ix1 r := ⟨i 0, eq_ix1 i⟩
  have hk : (S4096x1.rowMajor (ix2 r (0 : Fin 1))).val = (S4096.rowMajor (ix1 r)).val := by
    rw [Shape.rowMajor_val_two, Shape.rowMajor_val_one]
    show r.val * 1 + 0 = r.val
    omega
  exact (shapeCast_apply (s := S4096x1) (t := S4096) (G5 m c) h (ix1 r) (ix2 r (0 : Fin 1)) hk).trans rfl

/-- What the [4096] result holds after the host line. -/
theorem tail_v0_1 (c : Dev nD) :
    Pipeline.afterTail₀ cfgs (dats m) 0 (V0 m) [hostOps1] c main_v0_1 = G5flat m c := by
  have hW : Pipeline.withArrays (cfgs 0).spec c (V0 m c) (fun w => (dats m 0 c).arrAt w (cfgs 0).N)
      (Proc.devRef .tc main_call0_v2_1) = G5 m c :=
    (Pipeline.withArrays_arr spec0 launch0.win.arr_inj c _ _ 5).trans (final5 m c)
  unfold Pipeline.afterTail₀
  show StableHlo.after hostOps1 _ (Proc.devRef .tc main_v0_1) = _
  after_results
  funext i
  show shapeCast S4096 (Pipeline.withArrays (cfgs 0).spec c (V0 m c) (fun w => (dats m 0 c).arrAt w (cfgs 0).N)
    (Proc.devRef .tc main_call0_v2_1)) shapeCasts_S4096x1_S4096 i = _
  rw [hW, shapeCast_G5]

/-- The run, with both result arrays named and the arguments unchanged. -/
theorem run_values : θ_run defs (onTc (τ := τ) (main (F := Ideal))) ⟨m, fun _ => 0, ρ⟩ (fun r => ∀ c : Dev nD,
      r.2.mem ((c.tc : Thread nD τ).loc main_v0_0) = G4 m c
      ∧ r.2.mem ((c.tc : Thread nD τ).loc main_v0_1) = G5flat m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  exact (θ_run defs _ _).mono (fun r h c => ⟨((h c).1 4).trans (final4 m c),
      ((h c).2 main_v0_1 (Pipeline.mem_restRefs_of main_v0_1 (by decide) (by decide))).trans (tail_v0_1 m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c)))⟩)
    (run_main m ρ)

end Cert.Fcm.K

end
-- ==== Proof.lean ====
/-
  The finitely-convex soft-max model: a Pallas kernel against its jnp reference, over the extended reals.

  Both programs compute, for each of 4096 rows x, the scores s_k = ⟨x, y_k⟩ + b_k against 8192 candidates,
  an adaptive temperature eff = clip(50 / max(max s - min s, 0.001), 50, 5000), the soft-max weights of
  eff · s, the weighted mean of the scores and the weighted mean of the candidates.

  The kernel works on blocks of 256 rows; it takes the scores, their maximum and minimum, and every sum
  eight tiles of 1024 candidates at a time, subtracts (max s) · eff in the exponent, and divides once at the
  end by the weights' sum. The reference scales the scores first, subtracts the maximum of the SCALED
  scores, lets the soft-max subtract the maximum of the differences again, and normalises every weight before
  the two sums. On real inputs these are one function:
    * a maximum, a minimum or a sum over a row is the same tile by tile or all at once (any extended reals);
    * max_k (s_k · eff) = (max_k s_k) · eff because eff ≥ 50 > 0, and the maximum of the differences is 0;
    * the weights' sum D is at least 1 (the maximal score has weight exp 0), so ∑ (w_k / D) a_k = (∑ w_k a_k)(1 / D).
  The last two use that every score is a real number, which is what the precondition gives.

  The kernel's frames are the generated ones; the reference's frame is its generated run with the results
  dropped; the eight ledger entries are the eight narrowings of a tile of weights to bf16 and back, the
  identity on the extended reals.
-/
import proofs.«168320_g88089779241353_cont_9to1c4b_404_5_alg».proof.Defs
import proofs.«168320_g88089779241353_cont_9to1c4b_404_5_alg».proof.Proof.Gen.Kernel
import proofs.«168320_g88089779241353_cont_9to1c4b_404_5_alg».proof.Proof.Gen.Kernel.Frame
import proofs.«168320_g88089779241353_cont_9to1c4b_404_5_alg».proof.Proof.Gen.KernelIdeal
import proofs.«168320_g88089779241353_cont_9to1c4b_404_5_alg».proof.Proof.Gen.KernelIdeal.Frame
import proofs.«168320_g88089779241353_cont_9to1c4b_404_5_alg».proof.Proof.Gen.ReferenceIdeal
import proofs.«168320_g88089779241353_cont_9to1c4b_404_5_alg».proof.Proof.Gen.ReferenceIdeal.Run
import proofs.«168320_g88089779241353_cont_9to1c4b_404_5_alg».proof.Proof.Gen.Pre_finite_inputs
import proofs.«168320_g88089779241353_cont_9to1c4b_404_5_alg».proof.Proof.Algebra
import proofs.«168320_g88089779241353_cont_9to1c4b_404_5_alg».proof.Proof.Tiles
import proofs.«168320_g88089779241353_cont_9to1c4b_404_5_alg».proof.Proof.Finite
import proofs.«168320_g88089779241353_cont_9to1c4b_404_5_alg».proof.Proof.RefStages
import proofs.«168320_g88089779241353_cont_9to1c4b_404_5_alg».proof.Proof.KArrays
import Idealize.ShloMosaic.Adequacy
import Idealize.ShloMosaic.Init

noncomputable section

namespace Cert.Proof

open Idealize.ShloMosaic Idealize.ShloMosaic.ValueIdx Idealize.ShloMosaic.TcCoe Idealize.SL.Sem Cert.Fcm

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-! ## The ledger: eight narrowings of a tile of weights to bf16 and back -/

theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16,
   IdealRules.truncf_extf.statement _ .f32 .bf16, IdealRules.truncf_extf.statement _ .f32 .bf16⟩

/-! ## The two results agree, row by row -/

/-- On a row of real scores the tiled weighted mean of a real coordinate of the candidates is the
    reference's. -/
theorem choiceT_eq_choiceR_of_real (s y : Fin 8192 → ℝ) :
    choiceT (fun k => ((s k : ℝ) : EReal)) (fun k => ((y k : ℝ) : EReal))
      = choiceR (fun k => ((s k : ℝ) : EReal)) (fun k => ((y k : ℝ) : EReal)) :=
  (choiceT_eq_choiceK _ _).trans (choiceK_eq_choiceR (by norm_num) s y)

/-- On a row of real scores the tiled weighted mean of the scores is the reference's. -/
theorem valT_eq_valR_of_real (s : Fin 8192 → ℝ) :
    valT (fun k => ((s k : ℝ) : EReal)) = valR (fun k => ((s k : ℝ) : EReal)) :=
  (valT_eq_valK _).trans (valK_eq_valR (by norm_num) s)

theorem algebraic : Cert.algebraic_KernelIdeal_ReferenceIdeal := by
  intro m ρ m' ρ' hpre hagree
  refine ⟨fun c => K.G4 m c, fun c => K.G5flat m c, K.run_values m ρ, ?_⟩
  refine (θ_run Cert.ReferenceIdeal.defs _ _).mono (fun r h c => ?_)
    (Cert.ReferenceIdeal.Value.run (F := Ideal) m' ρ')
  obtain ⟨h34, h33, ha0, ha1, ha2⟩ := h c
  -- every entry of the kernel's arguments is real; the reference's arguments are the same arrays
  obtain ⟨hX, hY, hb⟩ := real_of_pre _ _ _ (hpre c)
  obtain ⟨e0, e1, e2⟩ := hagree c
  refine ⟨h34.trans ?_, h33.trans ?_, ha0, ha1, ha2⟩
  · funext i
    obtain ⟨r, j, rfl⟩ : ∃ (r : Fin 4096) (j : Fin 256), i = ix2 r j := ⟨i 0, i 1, eq_ix2 i⟩
    obtain ⟨s, hs⟩ := rows_real _ _ _ hX hY hb r
    obtain ⟨y, hy⟩ := cols_real _ hY j
    refine (Ref.out0_apply m' c r j).trans ?_
    rw [e0, e1, e2]
    refine Eq.trans ?_ (K.G4_apply m c r j).symm
    show choiceR (scoreRow (K.Xa m c) (K.Ya m c) (K.ba m c) r) (codeCol (K.Ya m c) j) = _
    rw [show scoreRow (K.Xa m c) (K.Ya m c) (K.ba m c) r = _ from hs, show codeCol (K.Ya m c) j = _ from hy]
    exact (choiceT_eq_choiceR_of_real s y).symm
  · funext i
    obtain ⟨r, rfl⟩ : ∃ r : Fin 4096, i = ix1 r := ⟨i 0, eq_ix1 i⟩
    obtain ⟨s, hs⟩ := rows_real _ _ _ hX hY hb r
    refine (Ref.out1_apply m' c r).trans ?_
    rw [e0, e1, e2]
    refine Eq.trans ?_ (K.G5flat_apply m c r).symm
    show valR (scoreRow (K.Xa m c) (K.Ya m c) (K.ba m c) r) = _
    rw [show scoreRow (K.Xa m c) (K.Ya m c) (K.ba m c) r = _ from hs]
    exact (valT_eq_valR_of_real s).symm

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
